-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v34)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v34) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v60) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x512 : Shape := ⟨2, ![4096, 512]⟩
abbrev S4096 : Shape := ⟨1, ![4096]⟩
abbrev S_ : Shape := ⟨0, ![]⟩
abbrev S4096x1 : Shape := ⟨2, ![4096, 1]⟩
abbrev S1x4096 : Shape := ⟨2, ![1, 4096]⟩
abbrev S4096x4096 : Shape := ⟨2, ![4096, 4096]⟩

class Facts : Prop where
  bcast_S_S4096x512 : S_.BroadcastsInDim S4096x512 (![] : Fin 0 → Fin S4096x512.rank)
  reducesTo_S4096x512_S_d0_1 : S4096x512.ReducesTo [0, 1] S_
  h_S_ : 0 < S_.numel
  bcast_S_S4096 : S_.BroadcastsInDim S4096 (![] : Fin 0 → Fin S4096.rank)
  bcast_S4096_S4096x1_0 : S4096.BroadcastsInDim S4096x1 (![0] : Fin 1 → Fin S4096x1.rank)
  bcast_S4096_S1x4096_1 : S4096.BroadcastsInDim S1x4096 (![1] : Fin 1 → Fin S1x4096.rank)
  bcast_S4096x1_S4096x4096_0_1 : S4096x1.BroadcastsInDim S4096x4096 (![0, 1] : Fin 2 → Fin S4096x4096.rank)
  bcast_S1x4096_S4096x4096_0_1 : S1x4096.BroadcastsInDim S4096x4096 (![0, 1] : Fin 2 → Fin S4096x4096.rank)
  reducesTo_S4096x4096_S_d0_1 : S4096x4096.ReducesTo [0, 1] S_

variable [Facts]

def fn_part1 {F : FTy → Type} [FloatOps F] (main_v8 : IVec S_ 1) (main_v16 : IVec S4096x4096 1) (main_v17 : IVec S4096x1 32) (main_v18 : IVec S1x4096 32) : IVec S_ 1 :=
  let main_v19 : IVec S4096x4096 32 := broadcastInDim S4096x4096 ![0, 1] bcast_S4096x1_S4096x4096_0_1 main_v17
  let main_v20 : IVec S4096x4096 32 := broadcastInDim S4096x4096 ![0, 1] bcast_S1x4096_S4096x4096_0_1 main_v18
  let main_v21 : IVec S4096x4096 1 := cmpi .eq main_v19 main_v20
  let main_v22 : IVec S4096x4096 1 := cmpi .eq main_v16 main_v21
  let main_c_3 : IVec S_ 1 := constantI S_ 1 1#1
  let main_v23 : IVec S_ 1 := (fun x v => Host.reduce IntOp.andi x v reducesTo_S4096x4096_S_d0_1 h_S_) main_v22 main_c_3
  let main_v24 : IVec S_ 1 := andi main_v8 main_v23
  main_v24

def fn {F : FTy → Type} [FloatOps F] (main_arg0 : FVec F S4096x512 .f32) (main_arg1 : FVec F S4096x512 .f32) (main_arg2 : IVec S4096 32) : IVec S_ 1 :=
  let main_v0 : FVec F S4096x512 .f32 := Host.absf main_arg0
  let main_cst : FVec F S_ .f32 := constant S_ .f32 0x7F800000#32
  let main_v1 : FVec F S4096x512 .f32 := broadcastInDim S4096x512 ![] bcast_S_S4096x512 main_cst
  let main_v2 : IVec S4096x512 1 := cmpf .olt main_v0 main_v1
  let main_c : IVec S_ 1 := constantI S_ 1 1#1
  let main_v3 : IVec S_ 1 := (fun x v => Host.reduce IntOp.andi x v reducesTo_S4096x512_S_d0_1 h_S_) main_v2 main_c
  let main_v4 : FVec F S4096x512 .f32 := Host.absf main_arg1
  let main_cst_0 : FVec F S_ .f32 := constant S_ .f32 0x7F800000#32
  let main_v5 : FVec F S4096x512 .f32 := broadcastInDim S4096x512 ![] bcast_S_S4096x512 main_cst_0
  let main_v6 : IVec S4096x512 1 := cmpf .olt main_v4 main_v5
  let main_c_1 : IVec S_ 1 := constantI S_ 1 1#1
  let main_v7 : IVec S_ 1 := (fun x v => Host.reduce IntOp.andi x v reducesTo_S4096x512_S_d0_1 h_S_) main_v6 main_c_1
  let main_v8 : IVec S_ 1 := andi main_v3 main_v7
  let main_v9 : IVec S4096 32 := iotaInDim S4096 32 0
  let main_c_2 : IVec S_ 32 := constantI S_ 32 3#32
  let main_v10 : IVec S4096 32 := broadcastInDim S4096 ![] bcast_S_S4096 main_c_2
  let main_v11 : IVec S4096 32 := Host.shrui main_v9 main_v10
  let main_v12 : IVec S4096x1 32 := broadcastInDim S4096x1 ![0] bcast_S4096_S4096x1_0 main_arg2
  let main_v13 : IVec S1x4096 32 := broadcastInDim S1x4096 ![1] bcast_S4096_S1x4096_1 main_arg2
  let main_v14 : IVec S4096x4096 32 := broadcastInDim S4096x4096 ![0, 1] bcast_S4096x1_S4096x4096_0_1 main_v12
  let main_v15 : IVec S4096x4096 32 := broadcastInDim S4096x4096 ![0, 1] bcast_S1x4096_S4096x4096_0_1 main_v13
  let main_v16 : IVec S4096x4096 1 := cmpi .eq main_v14 main_v15
  let main_v17 : IVec S4096x1 32 := broadcastInDim S4096x1 ![0] bcast_S4096_S4096x1_0 main_v11
  let main_v18 : IVec S1x4096 32 := broadcastInDim S1x4096 ![1] bcast_S4096_S1x4096_1 main_v11
  fn_part1 (F := F) main_v8 main_v16 main_v17 main_v18
-- ==== Kernel.lean ====
abbrev S4096x512 : Shape := ⟨2, ![4096, 512]⟩
abbrev S4096 : Shape := ⟨1, ![4096]⟩
abbrev S4096x1 : Shape := ⟨2, ![4096, 1]⟩
abbrev S8x4096 : Shape := ⟨2, ![8, 4096]⟩
abbrev S512x1 : Shape := ⟨2, ![512, 1]⟩
abbrev S8x512 : Shape := ⟨2, ![8, 512]⟩
abbrev S8x512x512 : Shape := ⟨3, ![8, 512, 512]⟩
abbrev S512x512 : Shape := ⟨2, ![512, 512]⟩
abbrev S1x512 : Shape := ⟨2, ![1, 512]⟩
abbrev S512 : Shape := ⟨1, ![512]⟩
abbrev S1x512x512 : Shape := ⟨3, ![1, 512, 512]⟩
abbrev S1x4096 : Shape := ⟨2, ![1, 4096]⟩
abbrev S_ : Shape := ⟨0, ![]⟩

abbrev nBuf : Space → Nat
  | .hbm => 42
  | .vmem => 8
  | .smem => 0
  | _ => 0

abbrev bufTy : (tb : Table) → Fin (tcTables nBuf tb) → BufTy
  | .hbm, ⟨0, _⟩ => ⟨S4096x512, .f32⟩
  | .hbm, ⟨1, _⟩ => ⟨S4096x512, .f32⟩
  | .hbm, ⟨2, _⟩ => ⟨S4096, .i32⟩
  | .hbm, ⟨3, _⟩ => ⟨S4096x512, .bf16⟩
  | .hbm, ⟨4, _⟩ => ⟨S4096x512, .bf16⟩
  | .hbm, ⟨5, _⟩ => ⟨S4096x1, .i32⟩
  | .hbm, ⟨6, _⟩ => ⟨S8x4096, .f32⟩
  | .hbm, ⟨7, _⟩ => ⟨S1x4096, .f32⟩
  | .hbm, ⟨8, _⟩ => ⟨S4096, .f32⟩
  | .hbm, ⟨9, _⟩ => ⟨S1x4096, .f32⟩
  | .hbm, ⟨10, _⟩ => ⟨S4096, .f32⟩
  | .hbm, ⟨11, _⟩ => ⟨S1x4096, .f32⟩
  | .hbm, ⟨12, _⟩ => ⟨S4096, .f32⟩
  | .hbm, ⟨13, _⟩ => ⟨S1x4096, .f32⟩
  | .hbm, ⟨14, _⟩ => ⟨S4096, .f32⟩
  | .hbm, ⟨15, _⟩ => ⟨S1x4096, .f32⟩
  | .hbm, ⟨16, _⟩ => ⟨S4096, .f32⟩
  | .hbm, ⟨17, _⟩ => ⟨S1x4096, .f32⟩
  | .hbm, ⟨18, _⟩ => ⟨S4096, .f32⟩
  | .hbm, ⟨19, _⟩ => ⟨S1x4096, .f32⟩
  | .hbm, ⟨20, _⟩ => ⟨S4096, .f32⟩
  | .hbm, ⟨21, _⟩ => ⟨S4096, .f32⟩
  | .hbm, ⟨22, _⟩ => ⟨S4096, .f32⟩
  | .hbm, ⟨23, _⟩ => ⟨S4096, .f32⟩
  | .hbm, ⟨24, _⟩ => ⟨S4096, .f32⟩
  | .hbm, ⟨25, _⟩ => ⟨S4096, .f32⟩
  | .hbm, ⟨26, _⟩ => ⟨S4096, .f32⟩
  | .hbm, ⟨27, _⟩ => ⟨S4096, .f32⟩
  | .hbm, ⟨28, _⟩ => ⟨S4096, .f32⟩
  | .hbm, ⟨29, _⟩ => ⟨S4096, .f32⟩
  | .hbm, ⟨30, _⟩ => ⟨S4096, .f32⟩
  | .hbm, ⟨31, _⟩ => ⟨S4096, .f32⟩
  | .hbm, ⟨32, _⟩ => ⟨S4096, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | .local _ .vmem, ⟨0, _⟩ => ⟨S4096x512, .bf16⟩
  | .local _ .vmem, ⟨1, _⟩ => ⟨S4096x512, .bf16⟩
  | .local _ .vmem, ⟨2, _⟩ => ⟨S512x1, .i32⟩
  | .local _ .vmem, ⟨3, _⟩ => ⟨S512x1, .i32⟩
  | .local _ .vmem, ⟨4, _⟩ => ⟨S8x512, .f32⟩
  | .local _ .vmem, ⟨5, _⟩ => ⟨S8x512, .f32⟩
  | .local _ .vmem, ⟨6, _⟩ => ⟨S8x512x512, .f32⟩
  | .local _ .vmem, ⟨7, _⟩ => ⟨S8x512x512, .f32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_v23 : Ref sig .tc := ⟨.hbm, 26, rfl⟩
abbrev main_v24 : Ref sig .tc := ⟨.hbm, 27, rfl⟩
abbrev main_v25 : Ref sig .tc := ⟨.hbm, 28, rfl⟩
abbrev main_v26 : Ref sig .tc := ⟨.hbm, 29, rfl⟩
abbrev main_v27 : Ref sig .tc := ⟨.hbm, 30, rfl⟩
abbrev main_v28 : Ref sig .tc := ⟨.hbm, 31, rfl⟩
abbrev main_v29 : Ref sig .tc := ⟨.hbm, 32, rfl⟩
abbrev main_cst : Ref sig .tc := ⟨.hbm, 33, rfl⟩
abbrev main_v30 : Ref sig .tc := ⟨.hbm, 34, rfl⟩
abbrev main_cst_0 : Ref sig .tc := ⟨.hbm, 35, rfl⟩
abbrev main_v31 : Ref sig .tc := ⟨.hbm, 36, rfl⟩
abbrev main_cst_1 : Ref sig .tc := ⟨.hbm, 37, rfl⟩
abbrev main_v32 : Ref sig .tc := ⟨.hbm, 38, rfl⟩
abbrev main_cst_2 : Ref sig .tc := ⟨.hbm, 39, rfl⟩
abbrev main_v33 : Ref sig .tc := ⟨.hbm, 40, rfl⟩
abbrev main_v34 : Ref sig .tc := ⟨.hbm, 41, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_scratch1 : Ref sig .tc := ⟨.vmem, 7, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![8], ![false]⟩

def k0_mult1 (i : grid0.Coords) : BitVec 32 :=
  let arg0 : BitVec 32 := BitVec.ofNat 32 (i 0).val
  let c512_i32 : BitVec 32 := 512#32
  let v0 : BitVec 32 := Scalar.muli arg0 c512_i32
  v0
def k0_off1 (i : grid0.Coords) : Fin 2 → Nat :=
  let arg0 : BitVec 32 := BitVec.ofNat 32 (i 0).val
  let c512_i32 : BitVec 32 := 512#32
  let v0 : BitVec 32 := Scalar.muli arg0 c512_i32
  let v1 : BitVec 32 := v0
  let v2 : Index := Scalar.indexCast v1
  let c0 : Index := 0#32
  ![v2.toNat, 0]
@[reducible] def k0_t1_loop : Scf.Loop 32 :=
  let c0_i32 : BitVec 32 := 0#32
  let c8_i32 : BitVec 32 := 8#32
  let v17 : BitVec 32 := Scalar.addi c0_i32 c8_i32
  let c1_i32 : BitVec 32 := 1#32
  ⟨c0_i32, v17, c1_i32⟩
def k0_mult2 (k0_t1 : Fin k0_t1_loop.trips) : BitVec 32 :=
  let c0_i32 : BitVec 32 := 0#32
  let c1_i32 : BitVec 32 := 1#32
  let arg7 : BitVec 32 := Scf.iv c0_i32 c1_i32 k0_t1
  let c512_i32_31 : BitVec 32 := 512#32
  let v90 : BitVec 32 := Scalar.muli arg7 c512_i32_31
  v90
def k0_off2 (k0_t1 : Fin k0_t1_loop.trips) : Fin 2 → Nat :=
  let c0_i32 : BitVec 32 := 0#32
  let c1_i32 : BitVec 32 := 1#32
  let arg7 : BitVec 32 := Scf.iv c0_i32 c1_i32 k0_t1
  let c512_i32_31 : BitVec 32 := 512#32
  let v90 : BitVec 32 := Scalar.muli arg7 c512_i32_31
  let v91 : BitVec 32 := v90
  let v92 : Index := Scalar.indexCast v91
  let c0_32 : Index := 0#32
  ![v92.toNat, 0]
def k0_off3 (k0_t1 : Fin k0_t1_loop.trips) : Fin 3 → Nat :=
  let c0_i32 : BitVec 32 := 0#32
  let c1_i32 : BitVec 32 := 1#32
  let arg7 : BitVec 32 := Scf.iv c0_i32 c1_i32 k0_t1
  let v116 : Index := Scalar.indexCast arg7
  let c0_43 : Index := 0#32
  let c0_44 : Index := 0#32
  ![v116.toNat, 0, 0]
@[reducible] def k0_t2_loop : Scf.Loop 32 :=
  let c0_i32_5 : BitVec 32 := 0#32
  let c8_i32_6 : BitVec 32 := 8#32
  let v20 : BitVec 32 := Scalar.addi c0_i32_5 c8_i32_6
  let c1_i32_7 : BitVec 32 := 1#32
  ⟨c0_i32_5, v20, c1_i32_7⟩
def k0_off4 (k0_t2 : Fin k0_t2_loop.trips) : Fin 3 → Nat :=
  let c0_i32_5 : BitVec 32 := 0#32
  let c1_i32_7 : BitVec 32 := 1#32
  let arg7 : BitVec 32 := Scf.iv c0_i32_5 c1_i32_7 k0_t2
  let v90 : Index := Scalar.indexCast arg7
  let c0_31 : Index := 0#32
  let c0_32 : Index := 0#32
  ![v90.toNat, 0, 0]
def k0_off5 (i : grid0.Coords) : Fin 3 → Nat :=
  let arg0 : BitVec 32 := BitVec.ofNat 32 (i 0).val
  let v22 : Index := Scalar.indexCast arg0
  let c0_9 : Index := 0#32
  let c0_10 : Index := 0#32
  ![v22.toNat, 0, 0]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S4096x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S4096x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  bitsLt_bf16_f32 : FTy.bits .bf16 < FTy.bits .f32
  shapeCasts_S4096_S4096x1 : S4096.ShapeCasts S4096x1
  h_S512x512 : 0 < S512x512.numel
  shapeCasts_S512x512_S512x512 : S512x512.ShapeCasts S512x512
  inb_S512x1_S512x1_0_0 : ∀ a, (![0, 0] : Fin 2 → Nat) a + S512x1.size a ≤ S512x1.size a
  h_S512x1 : 0 < S512x1.numel
  shapeCasts_S512x1_S512x1 : S512x1.ShapeCasts S512x1
  transposes_S512x1_p1_0_S1x512 : S512x1.Transposes [1, 0] S1x512
  broadcasts_S512x1_S512x512 : S512x1.Broadcasts S512x512
  broadcasts_S1x512_S512x512 : S1x512.Broadcasts S512x512
  natLt_1_32 : 1 < 32
  reduces_S512x512_S512 : S512x512.Reduces [1] S512
  shapeCasts_S512_S512x1 : S512.ShapeCasts S512x1
  h_S1x512x512 : 0 < S1x512x512.numel
  shapeCasts_S1x512x512_S512x512 : S1x512x512.ShapeCasts S512x512
  shapeCasts_S512x512_S1x512x512 : S512x512.ShapeCasts S1x512x512
  reduces_S512x512_S512_2 : S512x512.Reduces [0] S512
  shapeCasts_S512_S1x512 : S512.ShapeCasts S1x512
  transposes_S1x512_p1_0_S512x1 : S1x512.Transposes [1, 0] S512x1
  shapeCasts_S512x1_S512 : S512x1.ShapeCasts S512
  inb_S8x512_S1x512_0_0 : ∀ a, (![0, 0] : Fin 2 → Nat) a + S1x512.size a ≤ S8x512.size a
  h_S1x512 : 0 < S1x512.numel
  shapeCasts_S1x512_S512 : S1x512.ShapeCasts S512
  inb_S8x512_S1x512_1_0 : ∀ a, (![1, 0] : Fin 2 → Nat) a + S1x512.size a ≤ S8x512.size a
  inb_S8x512_S1x512_2_0 : ∀ a, (![2, 0] : Fin 2 → Nat) a + S1x512.size a ≤ S8x512.size a
  inb_S8x512_S1x512_3_0 : ∀ a, (![3, 0] : Fin 2 → Nat) a + S1x512.size a ≤ S8x512.size a
  inb_S8x512_S1x512_4_0 : ∀ a, (![4, 0] : Fin 2 → Nat) a + S1x512.size a ≤ S8x512.size a
  inb_S8x512_S1x512_5_0 : ∀ a, (![5, 0] : Fin 2 → Nat) a + S1x512.size a ≤ S8x512.size a
  inb_S8x512_S1x512_6_0 : ∀ a, (![6, 0] : Fin 2 → Nat) a + S1x512.size a ≤ S8x512.size a
  inb_S8x512_S1x512_7_0 : ∀ a, (![7, 0] : Fin 2 → Nat) a + S1x512.size a ≤ S8x512.size a
  slices_S8x4096_S1x4096_0_0 : S8x4096.Slices ![0, 0] S1x4096
  shapeCasts_S1x4096_S4096 : S1x4096.ShapeCasts S4096
  slices_S8x4096_S1x4096_1_0 : S8x4096.Slices ![1, 0] S1x4096
  slices_S8x4096_S1x4096_2_0 : S8x4096.Slices ![2, 0] S1x4096
  slices_S8x4096_S1x4096_3_0 : S8x4096.Slices ![3, 0] S1x4096
  slices_S8x4096_S1x4096_4_0 : S8x4096.Slices ![4, 0] S1x4096
  slices_S8x4096_S1x4096_5_0 : S8x4096.Slices ![5, 0] S1x4096
  slices_S8x4096_S1x4096_6_0 : S8x4096.Slices ![6, 0] S1x4096
  reducesTo_S4096_S_d0 : S4096.ReducesTo [0] S_
  h_S_ : 0 < S_.numel
  dot_S512x512_S512x512_S512x512_1_1_0_0_n_n_wf : DotDims.WF S512x512 S512x512 S512x512 [1] [1] [0] [0] [] []
  hrank0 : 0 < grid0.rank
  k0_mult1_dvd : ∀ i : grid0.Coords, 512 ∣ (k0_mult1 i).toNat
  k0_off1_inb : ∀ i : grid0.Coords, ∀ a, (k0_off1 i) a + S512x512.size a ≤ S4096x512.size a
  k0_t1_ok : k0_t1_loop.OK
  k0_mult2_dvd : ∀ k0_t1 : Fin k0_t1_loop.trips, 512 ∣ (k0_mult2 k0_t1).toNat
  k0_off2_inb : ∀ k0_t1 : Fin k0_t1_loop.trips, ∀ a, (k0_off2 k0_t1) a + S512x512.size a ≤ S4096x512.size a
  k0_off3_inb : ∀ k0_t1 : Fin k0_t1_loop.trips, ∀ a, (k0_off3 k0_t1) a + S1x512x512.size a ≤ S8x512x512.size a
  k0_t2_ok : k0_t2_loop.OK
  k0_off4_inb : ∀ k0_t2 : Fin k0_t2_loop.trips, ∀ a, (k0_off4 k0_t2) a + S1x512x512.size a ≤ S8x512x512.size a
  k0_off5_inb : ∀ i : grid0.Coords, ∀ a, (k0_off5 i) a + S1x512x512.size a ≤ S8x512x512.size a
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S4096x512.size a ≤ S4096x512.size a
  hwx0_0 : ∀ i : grid0.Coords, EltTy.bits .bf16 = 32 ∨ (Rect.block (s := S4096x512) S4096x512.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S4096x512.size a ≤ S4096x512.size a
  hwx0_1 : ∀ i : grid0.Coords, EltTy.bits .bf16 = 32 ∨ (Rect.block (s := S4096x512) S4096x512.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x1.size a ≤ S4096x1.size a
  hwx0_2 : ∀ i : grid0.Coords, EltTy.bits .i32 = 32 ∨ (Rect.block (s := S4096x1) S512x1.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S8x512.size a ≤ S8x4096.size a
  hwx0_3 : ∀ i : grid0.Coords, EltTy.bits .f32 = 32 ∨ (Rect.block (s := S8x4096) S8x512.size (cc0_transform_3 i) (hinb0_3 i)).WholeWords (EltTy.packing .f32)

variable [Facts₀]

def dot_S512x512_S512x512_S512x512_1_1_0_0_n_n : DotDims S512x512 S512x512 S512x512 where
  lhsContracting := [1]
  rhsContracting := [1]
  lhsNonContracting := [0]
  rhsNonContracting := [0]
  lhsBatch := []
  rhsBatch := []
  wf := dot_S512x512_S512x512_S512x512_1_1_0_0_n_n_wf

abbrev win0_0 : Pipeline.Window sig grid0 :=
  Pipeline.Window.ofSpec (Memref.whole main_v0) S4096x512.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v1) S4096x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S512x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S8x512.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S4096x512 : Shape := ⟨2, ![4096, 512]⟩
abbrev S4096 : Shape := ⟨1, ![4096]⟩
abbrev S512x4096 : Shape := ⟨2, ![512, 4096]⟩
abbrev S4096x4096 : Shape := ⟨2, ![4096, 4096]⟩
abbrev S_ : Shape := ⟨0, ![]⟩
abbrev S4096x1 : Shape := ⟨2, ![4096, 1]⟩
abbrev S1x4096 : Shape := ⟨2, ![1, 4096]⟩

abbrev nBuf : Space → Nat
  | .hbm => 80
  | .vmem => 0
  | .smem => 0
  | _ => 0

abbrev bufTy : (tb : Table) → Fin (tcTables nBuf tb) → BufTy
  | .hbm, ⟨0, _⟩ => ⟨S4096x512, .f32⟩
  | .hbm, ⟨1, _⟩ => ⟨S4096x512, .f32⟩
  | .hbm, ⟨2, _⟩ => ⟨S4096, .i32⟩
  | .hbm, ⟨3, _⟩ => ⟨S512x4096, .f32⟩
  | .hbm, ⟨4, _⟩ => ⟨S4096x4096, .f32⟩
  | .hbm, ⟨5, _⟩ => ⟨S_, .f32⟩
  | .hbm, ⟨6, _⟩ => ⟨S4096x4096, .f32⟩
  | .hbm, ⟨7, _⟩ => ⟨S4096x4096, .f32⟩
  | .hbm, ⟨8, _⟩ => ⟨S512x4096, .f32⟩
  | .hbm, ⟨9, _⟩ => ⟨S4096x4096, .f32⟩
  | .hbm, ⟨10, _⟩ => ⟨S_, .f32⟩
  | .hbm, ⟨11, _⟩ => ⟨S4096x4096, .f32⟩
  | .hbm, ⟨12, _⟩ => ⟨S4096x4096, .f32⟩
  | .hbm, ⟨13, _⟩ => ⟨S512x4096, .f32⟩
  | .hbm, ⟨14, _⟩ => ⟨S4096x4096, .f32⟩
  | .hbm, ⟨15, _⟩ => ⟨S_, .f32⟩
  | .hbm, ⟨16, _⟩ => ⟨S4096x4096, .f32⟩
  | .hbm, ⟨17, _⟩ => ⟨S4096x4096, .f32⟩
  | .hbm, ⟨18, _⟩ => ⟨S_, .f32⟩
  | .hbm, ⟨19, _⟩ => ⟨S4096, .f32⟩
  | .hbm, ⟨20, _⟩ => ⟨S4096x1, .f32⟩
  | .hbm, ⟨21, _⟩ => ⟨S4096x4096, .f32⟩
  | .hbm, ⟨22, _⟩ => ⟨S4096x4096, .f32⟩
  | .hbm, ⟨23, _⟩ => ⟨S_, .f32⟩
  | .hbm, ⟨24, _⟩ => ⟨S4096, .f32⟩
  | .hbm, ⟨25, _⟩ => ⟨S4096x1, .f32⟩
  | .hbm, ⟨26, _⟩ => ⟨S4096x4096, .f32⟩
  | .hbm, ⟨27, _⟩ => ⟨S4096x4096, .f32⟩
  | .hbm, ⟨28, _⟩ => ⟨S_, .f32⟩
  | .hbm, ⟨29, _⟩ => ⟨S4096, .f32⟩
  | .hbm, ⟨30, _⟩ => ⟨S4096x1, .f32⟩
  | .hbm, ⟨31, _⟩ => ⟨S4096x4096, .f32⟩
  | .hbm, ⟨32, _⟩ => ⟨S4096x4096, .f32⟩
  | .hbm, ⟨33, _⟩ => ⟨S4096x4096, .f32⟩
  | .hbm, ⟨34, _⟩ => ⟨S4096x4096, .f32⟩
  | .hbm, ⟨35, _⟩ => ⟨S4096x4096, .f32⟩
  | .hbm, ⟨36, _⟩ => ⟨S4096x4096, .f32⟩
  | .hbm, ⟨37, _⟩ => ⟨S4096x4096, .f32⟩
  | .hbm, ⟨38, _⟩ => ⟨S4096x1, .i32⟩
  | .hbm, ⟨39, _⟩ => ⟨S1x4096, .i32⟩
  | .hbm, ⟨40, _⟩ => ⟨S4096x4096, .i32⟩
  | .hbm, ⟨41, _⟩ => ⟨S4096x4096, .i32⟩
  | .hbm, ⟨42, _⟩ => ⟨S4096x4096, .i1⟩
  | .hbm, ⟨43, _⟩ => ⟨S4096x4096, .f32⟩
  | .hbm, ⟨44, _⟩ => ⟨S_, .f32⟩
  | .hbm, ⟨45, _⟩ => ⟨S4096x4096, .f32⟩
  | .hbm, ⟨46, _⟩ => ⟨S4096x4096, .f32⟩
  | .hbm, ⟨47, _⟩ => ⟨S_, .f32⟩
  | .hbm, ⟨48, _⟩ => ⟨S4096, .f32⟩
  | .hbm, ⟨49, _⟩ => ⟨S4096x4096, .f32⟩
  | .hbm, ⟨50, _⟩ => ⟨S_, .f32⟩
  | .hbm, ⟨51, _⟩ => ⟨S4096, .f32⟩
  | .hbm, ⟨52, _⟩ => ⟨S4096x4096, .f32⟩
  | .hbm, ⟨53, _⟩ => ⟨S_, .f32⟩
  | .hbm, ⟨54, _⟩ => ⟨S4096, .f32⟩
  | .hbm, ⟨55, _⟩ => ⟨S4096, .f32⟩
  | .hbm, ⟨56, _⟩ => ⟨S4096, .f32⟩
  | .hbm, ⟨57, _⟩ => ⟨S4096, .f32⟩
  | .hbm, ⟨58, _⟩ => ⟨S4096, .f32⟩
  | .hbm, ⟨59, _⟩ => ⟨S4096, .f32⟩
  | .hbm, ⟨60, _⟩ => ⟨S4096x4096, .f32⟩
  | .hbm, ⟨61, _⟩ => ⟨S_, .f32⟩
  | .hbm, ⟨62, _⟩ => ⟨S4096, .f32⟩
  | .hbm, ⟨63, _⟩ => ⟨S4096x4096, .f32⟩
  | .hbm, ⟨64, _⟩ => ⟨S_, .f32⟩
  | .hbm, ⟨65, _⟩ => ⟨S4096, .f32⟩
  | .hbm, ⟨66, _⟩ => ⟨S4096, .f32⟩
  | .hbm, ⟨67, _⟩ => ⟨S4096, .f32⟩
  | .hbm, ⟨68, _⟩ => ⟨S4096, .f32⟩
  | .hbm, ⟨69, _⟩ => ⟨S4096, .f32⟩
  | .hbm, ⟨70, _⟩ => ⟨S4096, .f32⟩
  | .hbm, ⟨71, _⟩ => ⟨S_, .f32⟩
  | .hbm, ⟨72, _⟩ => ⟨S_, .f32⟩
  | .hbm, ⟨73, _⟩ => ⟨S_, .f32⟩
  | .hbm, ⟨74, _⟩ => ⟨S_, .f32⟩
  | .hbm, ⟨75, _⟩ => ⟨S_, .f32⟩
  | .hbm, ⟨76, _⟩ => ⟨S_, .f32⟩
  | .hbm, ⟨77, _⟩ => ⟨S_, .f32⟩
  | .hbm, ⟨78, _⟩ => ⟨S_, .f32⟩
  | .hbm, ⟨79, _⟩ => ⟨S_, .f32⟩
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst_1 : Ref sig .tc := ⟨.hbm, 15, rfl⟩
abbrev main_v10 : Ref sig .tc := ⟨.hbm, 16, rfl⟩
abbrev main_v11 : Ref sig .tc := ⟨.hbm, 17, rfl⟩
abbrev main_cst_2 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_3 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_cst_4 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_cst_5 : Ref sig .tc := ⟨.hbm, 44, rfl⟩
abbrev main_v35 : Ref sig .tc := ⟨.hbm, 45, rfl⟩
abbrev main_v36 : Ref sig .tc := ⟨.hbm, 46, rfl⟩
abbrev main_cst_6 : Ref sig .tc := ⟨.hbm, 47, rfl⟩
abbrev main_v37 : Ref sig .tc := ⟨.hbm, 48, rfl⟩
abbrev main_v38 : Ref sig .tc := ⟨.hbm, 49, rfl⟩
abbrev main_cst_7 : Ref sig .tc := ⟨.hbm, 50, rfl⟩
abbrev main_v39 : Ref sig .tc := ⟨.hbm, 51, rfl⟩
abbrev main_v40 : Ref sig .tc := ⟨.hbm, 52, rfl⟩
abbrev main_cst_8 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_cst_9 : Ref sig .tc := ⟨.hbm, 61, rfl⟩
abbrev main_v48 : Ref sig .tc := ⟨.hbm, 62, rfl⟩
abbrev main_v49 : Ref sig .tc := ⟨.hbm, 63, rfl⟩
abbrev main_cst_10 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_cst_11 : Ref sig .tc := ⟨.hbm, 71, rfl⟩
abbrev main_v56 : Ref sig .tc := ⟨.hbm, 72, rfl⟩
abbrev main_cst_12 : Ref sig .tc := ⟨.hbm, 73, rfl⟩
abbrev main_v57 : Ref sig .tc := ⟨.hbm, 74, rfl⟩
abbrev main_cst_13 : Ref sig .tc := ⟨.hbm, 75, rfl⟩
abbrev main_v58 : Ref sig .tc := ⟨.hbm, 76, rfl⟩
abbrev main_cst_14 : Ref sig .tc := ⟨.hbm, 77, rfl⟩
abbrev main_v59 : Ref sig .tc := ⟨.hbm, 78, rfl⟩
abbrev main_v60 : Ref sig .tc := ⟨.hbm, 79, rfl⟩

abbrev nD : Nat := 1
abbrev τ : Topo := Topo.v7x

variable {F : FTy → Type} [FloatOps F]

class Facts₀ : Prop where
  transposes_S4096x512_S512x4096_1_0 : S4096x512.Transposes [1, 0] S512x4096
  bcast_S_S4096x4096 : S_.BroadcastsInDim S4096x4096 (![] : Fin 0 → Fin S4096x4096.rank)
  reducesTo_S4096x4096_S4096_d1 : S4096x4096.ReducesTo [1] S4096
  h_S_ : 0 < S_.numel
  bcast_S4096_S4096x1_0 : S4096.BroadcastsInDim S4096x1 (![0] : Fin 1 → Fin S4096x1.rank)
  bcast_S4096x1_S4096x4096_0_1 : S4096x1.BroadcastsInDim S4096x4096 (![0, 1] : Fin 2 → Fin S4096x4096.rank)
  transposes_S4096x4096_S4096x4096_1_0 : S4096x4096.Transposes [1, 0] S4096x4096
  bcast_S4096_S1x4096_1 : S4096.BroadcastsInDim S1x4096 (![1] : Fin 1 → Fin S1x4096.rank)
  bcast_S1x4096_S4096x4096_0_1 : S1x4096.BroadcastsInDim S4096x4096 (![0, 1] : Fin 2 → Fin S4096x4096.rank)
  reducesTo_S4096_S_d0 : S4096.ReducesTo [0] S_
  dot_S4096x512_S512x4096_S4096x4096_1_0_0_1_n_n_wf : DotDims.WF S4096x512 S512x4096 S4096x4096 [1] [0] [0] [1] [] []

variable [Facts₀]

def dot_S4096x512_S512x4096_S4096x4096_1_0_0_1_n_n : DotDims S4096x512 S512x4096 S4096x4096 where
  lhsContracting := [1]
  rhsContracting := [0]
  lhsNonContracting := [0]
  rhsNonContracting := [1]
  lhsBatch := []
  rhsBatch := []
  wf := dot_S4096x512_S512x4096_S4096x4096_1_0_0_1_n_n_wf

class Facts : Prop extends Facts₀ where

variable [Facts]
-- ==== Proof.CacheKernel.lean ====
/-
  The two similarity caches after the first sweep do not depend on what they held before it.

  Trip k of the first sweep stores one [1 × 512 × 512] slab at offset (k, 0, 0) in each cache, and the eight slabs tile
  the [8 × 512 × 512] cache; so whatever the caches held at entry, after the sweep they hold exactly what the same
  stores leave over any other prior contents. Also here: what one trip of each sweep yields and stores, read off the
  trip's definition once.
-/
import proofs.«414180_j88819923681294_3_alg».proof.Proof.Gen.Kernel.Loops
import Idealize.ShloMosaic.Lib.Pipeline.Value

set_option maxRecDepth 16384

noncomputable section

namespace Cert.Kernel.Cache

open Cert.Kernel Cert.Kernel.Gen
open Idealize.ShloMosaic Idealize.ShloMosaic.TcCoe Idealize.ShloMosaic.Tactic Idealize.SL.Sem

variable {F : FTy → Type} [FloatOps F]

/-- What trip k of the first sweep stores: in each cache one slab at offset (k, 0, 0), the scaled product of the
    resident row block with the column block loaded at row offset 512·k. -/
theorem tripL_eq (𝒱 : Variants) (c : Dev nD) (bd : Option 𝒱.V) (i : grid0.Coords) (arg1 : Memref sig .tc .vmem S4096x512 .bf16) (harg1 : arg1.IsWhole) (arg2 : Memref sig .tc .vmem S4096x512 .bf16) (harg2 : arg2.IsWhole) (arg3 : Memref sig .tc .vmem S512x1 .i32) (harg3 : arg3.IsWhole) (arg4 : Memref sig .tc .vmem S8x512 .f32) (harg4 : arg4.IsWhole) (arg5 : Memref sig .tc .vmem S8x512x512 .f32) (harg5 : arg5.IsWhole) (arg6 : Memref sig .tc .vmem S8x512x512 .f32) (harg6 : arg6.IsWhole) (v3 : Vec F S512x512 .bf16) (v6 : Vec F S512x512 .bf16) (X_arg1 : BufTy.Contents (Elt F) arg1.view.ty) (X_arg2 : BufTy.Contents (Elt F) arg2.view.ty) (k : Fin k0_t1_loop.trips) (acc : FVec F S512x1 .f32 × FVec F S512x1 .f32 × FVec F S512x1 .f32) :
    tripL_k0_t1 (F := F) 𝒱 c bd i arg1 harg1 arg2 harg2 arg3 harg3 arg4 harg4 arg5 harg5 arg6 harg6 v3 v6 X_arg1 X_arg2 k acc
      = ([⟨Rect.unit (k0_off3 k) S1x512x512.size (k0_off3_inb k), k0_pay13 v3 (View.readAt (Elt F) arg1.view (Rect.unit (s := S4096x512) (k0_off2 k) S512x512.size (k0_off2_inb k)).toLoadRect X_arg1)⟩],
         [⟨Rect.unit (k0_off3 k) S1x512x512.size (k0_off3_inb k), k0_pay14 v6 (View.readAt (Elt F) arg2.view (Rect.unit (s := S4096x512) (k0_off2 k) S512x512.size (k0_off2_inb k)).toLoadRect X_arg2)⟩]) := by
  unfold tripL_k0_t1 trip_k0_t1; rfl

/-- What trip k of the first sweep yields: the three running row maxima, each joined with its tile's row maximum. -/
theorem tripR_eq (𝒱 : Variants) (c : Dev nD) (bd : Option 𝒱.V) (i : grid0.Coords) (arg1 : Memref sig .tc .vmem S4096x512 .bf16) (harg1 : arg1.IsWhole) (arg2 : Memref sig .tc .vmem S4096x512 .bf16) (harg2 : arg2.IsWhole) (arg3 : Memref sig .tc .vmem S512x1 .i32) (harg3 : arg3.IsWhole) (arg4 : Memref sig .tc .vmem S8x512 .f32) (harg4 : arg4.IsWhole) (arg5 : Memref sig .tc .vmem S8x512x512 .f32) (harg5 : arg5.IsWhole) (arg6 : Memref sig .tc .vmem S8x512x512 .f32) (harg6 : arg6.IsWhole) (v3 : Vec F S512x512 .bf16) (v6 : Vec F S512x512 .bf16) (X_arg1 : BufTy.Contents (Elt F) arg1.view.ty) (X_arg2 : BufTy.Contents (Elt F) arg2.view.ty) (k : Fin k0_t1_loop.trips) (acc : FVec F S512x1 .f32 × FVec F S512x1 .f32 × FVec F S512x1 .f32) :
    tripR_k0_t1 (F := F) 𝒱 c bd i arg1 harg1 arg2 harg2 arg3 harg3 arg4 harg4 arg5 harg5 arg6 harg6 v3 v6 X_arg1 X_arg2 k acc
      = (k0_pay10 v3 acc.1 (View.readAt (Elt F) arg1.view (Rect.unit (s := S4096x512) (k0_off2 k) S512x512.size (k0_off2_inb k)).toLoadRect X_arg1),
         k0_pay11 v6 acc.2.1 (View.readAt (Elt F) arg2.view (Rect.unit (s := S4096x512) (k0_off2 k) S512x512.size (k0_off2_inb k)).toLoadRect X_arg2),
         k0_pay12 v3 acc.2.2 (View.readAt (Elt F) arg2.view (Rect.unit (s := S4096x512) (k0_off2 k) S512x512.size (k0_off2_inb k)).toLoadRect X_arg2)) := by
  unfold tripR_k0_t1 trip_k0_t1; rfl

/-- What trip k of the second sweep yields: the two running row sums, each plus its tile's row sum of exponentials. -/
theorem trip2R_eq (𝒱 : Variants) (c : Dev nD) (bd : Option 𝒱.V) (i : grid0.Coords) (arg1 : Memref sig .tc .vmem S4096x512 .bf16) (harg1 : arg1.IsWhole) (arg2 : Memref sig .tc .vmem S4096x512 .bf16) (harg2 : arg2.IsWhole) (arg3 : Memref sig .tc .vmem S512x1 .i32) (harg3 : arg3.IsWhole) (arg4 : Memref sig .tc .vmem S8x512 .f32) (harg4 : arg4.IsWhole) (arg5 : Memref sig .tc .vmem S8x512x512 .f32) (harg5 : arg5.IsWhole) (arg6 : Memref sig .tc .vmem S8x512x512 .f32) (harg6 : arg6.IsWhole) (v18_0 : FVec F S512x1 .f32) (v18_1 : FVec F S512x1 .f32) (X_arg5 : BufTy.Contents (Elt F) arg5.view.ty) (X_arg6 : BufTy.Contents (Elt F) arg6.view.ty) (k : Fin k0_t2_loop.trips) (acc : FVec F S512x1 .f32 × FVec F S512x1 .f32) :
    tripR_k0_t2 (F := F) 𝒱 c bd i arg1 harg1 arg2 harg2 arg3 harg3 arg4 harg4 arg5 harg5 arg6 harg6 v18_0 v18_1 X_arg5 X_arg6 k acc
      = (k0_pay16 v18_0 acc.1 (View.readAt (Elt F) arg5.view (Rect.unit (s := S8x512x512) (k0_off4 k) S1x512x512.size (k0_off4_inb k)).toLoadRect X_arg5),
         k0_pay17 v18_1 acc.2 (View.readAt (Elt F) arg6.view (Rect.unit (s := S8x512x512) (k0_off4 k) S1x512x512.size (k0_off4_inb k)).toLoadRect X_arg6)) := by
  unfold tripR_k0_t2 trip_k0_t2; rfl

/-- The first sweep has eight trips. -/
private theorem trips_eq : k0_t1_loop.trips = 8 := by decide

/-- An index whose leading coordinate is k lies in the slab at offset (k, 0, 0). -/
private theorem mem_slab (k : Fin k0_t1_loop.trips) (y : S8x512x512.Idx) (h : (y 0 : ℕ) = k.val) :
    y ∈ (Rect.unit (s := S8x512x512) (k0_off3 k) S1x512x512.size (k0_off3_inb k)).set := by
  rw [Rect.mem_set_unit]
  intro a
  rw [k0_off3_eq]
  have h1 : ((y 1 : ℕ)) < 512 := (y 1).isLt
  have h2 : ((y 2 : ℕ)) < 512 := (y 2).isLt
  fin_cases a
  · simp; omega
  · simp; exact h1
  · simp; exact h2

/-- After n trips of the first sweep, every index whose leading coordinate is below n lies under some slab stored so
    far, in either cache. -/
private theorem cover_aux (𝒱 : Variants) (c : Dev nD) (bd : Option 𝒱.V) (i : grid0.Coords) (arg1 : Memref sig .tc .vmem S4096x512 .bf16) (harg1 : arg1.IsWhole) (arg2 : Memref sig .tc .vmem S4096x512 .bf16) (harg2 : arg2.IsWhole) (arg3 : Memref sig .tc .vmem S512x1 .i32) (harg3 : arg3.IsWhole) (arg4 : Memref sig .tc .vmem S8x512 .f32) (harg4 : arg4.IsWhole) (arg5 : Memref sig .tc .vmem S8x512x512 .f32) (harg5 : arg5.IsWhole) (arg6 : Memref sig .tc .vmem S8x512x512 .f32) (harg6 : arg6.IsWhole) (v3 : Vec F S512x512 .bf16) (v6 : Vec F S512x512 .bf16) (X_arg1 : BufTy.Contents (Elt F) arg1.view.ty) (X_arg2 : BufTy.Contents (Elt F) arg2.view.ty) (init : FVec F S512x1 .f32 × FVec F S512x1 .f32 × FVec F S512x1 .f32) :
    ∀ n, n ≤ k0_t1_loop.trips → ∀ y : S8x512x512.Idx, (y 0 : ℕ) < n →
      (∃ p ∈ (st_k0_t1 (F := F) 𝒱 c bd i arg1 harg1 arg2 harg2 arg3 harg3 arg4 harg4 arg5 harg5 arg6 harg6 v3 v6 X_arg1 X_arg2 init n).2.1, y ∈ p.1.set) ∧
      (∃ p ∈ (st_k0_t1 (F := F) 𝒱 c bd i arg1 harg1 arg2 harg2 arg3 harg3 arg4 harg4 arg5 harg5 arg6 harg6 v3 v6 X_arg1 X_arg2 init n).2.2, y ∈ p.1.set) := by
  intro n
  induction n with
  | zero => intro _ y hy; exact absurd hy (Nat.not_lt_zero _)
  | succ n ih =>
    intro hn y hy
    have hs := st_k0_t1_succ (F := F) 𝒱 c bd i arg1 harg1 arg2 harg2 arg3 harg3 arg4 harg4 arg5 harg5 arg6 harg6 v3 v6 X_arg1 X_arg2 init ⟨n, hn⟩
    have hs' : st_k0_t1 (F := F) 𝒱 c bd i arg1 harg1 arg2 harg2 arg3 harg3 arg4 harg4 arg5 harg5 arg6 harg6 v3 v6 X_arg1 X_arg2 init (n + 1) = _ := hs
    rw [hs', tripL_eq]
    dsimp only
    by_cases hlt : (y 0 : ℕ) < n
    · obtain ⟨⟨p, hp, hyp⟩, ⟨q, hq, hyq⟩⟩ := ih (Nat.le_of_succ_le hn) y hlt
      exact ⟨⟨p, List.mem_append_right _ hp, hyp⟩, ⟨q, List.mem_append_right _ hq, hyq⟩⟩
    · have he : (y 0 : ℕ) = (⟨n, hn⟩ : Fin k0_t1_loop.trips).val := by
        show (y 0 : ℕ) = n
        omega
      exact ⟨⟨_, List.mem_append_left _ (List.mem_singleton_self _), mem_slab ⟨n, hn⟩ y he⟩,
        ⟨_, List.mem_append_left _ (List.mem_singleton_self _), mem_slab ⟨n, hn⟩ y he⟩⟩

/-- The first cache after the whole first sweep holds the same contents whatever it held before. -/
theorem cache5_indep (𝒱 : Variants) (c : Dev nD) (bd : Option 𝒱.V) (i : grid0.Coords) (arg1 : Memref sig .tc .vmem S4096x512 .bf16) (harg1 : arg1.IsWhole) (arg2 : Memref sig .tc .vmem S4096x512 .bf16) (harg2 : arg2.IsWhole) (arg3 : Memref sig .tc .vmem S512x1 .i32) (harg3 : arg3.IsWhole) (arg4 : Memref sig .tc .vmem S8x512 .f32) (harg4 : arg4.IsWhole) (arg5 : Memref sig .tc .vmem S8x512x512 .f32) (harg5 : arg5.IsWhole) (arg6 : Memref sig .tc .vmem S8x512x512 .f32) (harg6 : arg6.IsWhole) (v3 : Vec F S512x512 .bf16) (v6 : Vec F S512x512 .bf16) (X_arg1 : BufTy.Contents (Elt F) arg1.view.ty) (X_arg2 : BufTy.Contents (Elt F) arg2.view.ty) (init : FVec F S512x1 .f32 × FVec F S512x1 .f32 × FVec F S512x1 .f32) (f : BufTy.Contents (Elt F) arg5.view.ty) :
    arg5.view.writes (Elt F) f (st_k0_t1 (F := F) 𝒱 c bd i arg1 harg1 arg2 harg2 arg3 harg3 arg4 harg4 arg5 harg5 arg6 harg6 v3 v6 X_arg1 X_arg2 init (Scf.trips k0_t1_loop.lb k0_t1_loop.ub k0_t1_loop.st)).2.1
      = arg5.view.writes (Elt F) arg5.view.junk (st_k0_t1 (F := F) 𝒱 c bd i arg1 harg1 arg2 harg2 arg3 harg3 arg4 harg4 arg5 harg5 arg6 harg6 v3 v6 X_arg1 X_arg2 init (Scf.trips k0_t1_loop.lb k0_t1_loop.ub k0_t1_loop.st)).2.1 := by
  refine harg5.read_bijective.1 (View.read_writes_of_cover _ _ _ _ _ fun y => ?_)
  exact (cover_aux (F := F) 𝒱 c bd i arg1 harg1 arg2 harg2 arg3 harg3 arg4 harg4 arg5 harg5 arg6 harg6 v3 v6 X_arg1 X_arg2 init k0_t1_loop.trips (Nat.le_refl _) y
    (by rw [trips_eq]; exact (y 0).isLt)).1

/-- The second cache likewise. -/
theorem cache6_indep (𝒱 : Variants) (c : Dev nD) (bd : Option 𝒱.V) (i : grid0.Coords) (arg1 : Memref sig .tc .vmem S4096x512 .bf16) (harg1 : arg1.IsWhole) (arg2 : Memref sig .tc .vmem S4096x512 .bf16) (harg2 : arg2.IsWhole) (arg3 : Memref sig .tc .vmem S512x1 .i32) (harg3 : arg3.IsWhole) (arg4 : Memref sig .tc .vmem S8x512 .f32) (harg4 : arg4.IsWhole) (arg5 : Memref sig .tc .vmem S8x512x512 .f32) (harg5 : arg5.IsWhole) (arg6 : Memref sig .tc .vmem S8x512x512 .f32) (harg6 : arg6.IsWhole) (v3 : Vec F S512x512 .bf16) (v6 : Vec F S512x512 .bf16) (X_arg1 : BufTy.Contents (Elt F) arg1.view.ty) (X_arg2 : BufTy.Contents (Elt F) arg2.view.ty) (init : FVec F S512x1 .f32 × FVec F S512x1 .f32 × FVec F S512x1 .f32) (f : BufTy.Contents (Elt F) arg6.view.ty) :
    arg6.view.writes (Elt F) f (st_k0_t1 (F := F) 𝒱 c bd i arg1 harg1 arg2 harg2 arg3 harg3 arg4 harg4 arg5 harg5 arg6 harg6 v3 v6 X_arg1 X_arg2 init (Scf.trips k0_t1_loop.lb k0_t1_loop.ub k0_t1_loop.st)).2.2
      = arg6.view.writes (Elt F) arg6.view.junk (st_k0_t1 (F := F) 𝒱 c bd i arg1 harg1 arg2 harg2 arg3 harg3 arg4 harg4 arg5 harg5 arg6 harg6 v3 v6 X_arg1 X_arg2 init (Scf.trips k0_t1_loop.lb k0_t1_loop.ub k0_t1_loop.st)).2.2 := by
  refine harg6.read_bijective.1 (View.read_writes_of_cover _ _ _ _ _ fun y => ?_)
  exact (cover_aux (F := F) 𝒱 c bd i arg1 harg1 arg2 harg2 arg3 harg3 arg4 harg4 arg5 harg5 arg6 harg6 v3 v6 X_arg1 X_arg2 init k0_t1_loop.trips (Nat.le_refl _) y
    (by rw [trips_eq]; exact (y 0).isLt)).2

end Cert.Kernel.Cache

end
-- ==== Proof.CacheKernelIdeal.lean ====
/-
  The two similarity caches after the first sweep do not depend on what they held before it.

  Trip k of the first sweep stores one [1 × 512 × 512] slab at offset (k, 0, 0) in each cache, and the eight slabs tile
  the [8 × 512 × 512] cache; so whatever the caches held at entry, after the sweep they hold exactly what the same
  stores leave over any other prior contents. Also here: what one trip of each sweep yields and stores, read off the
  trip's definition once.
-/
import proofs.«414180_j88819923681294_3_alg».proof.Proof.Gen.KernelIdeal.Loops
import Idealize.ShloMosaic.Lib.Pipeline.Value

set_option maxRecDepth 16384

noncomputable section

namespace Cert.KernelIdeal.Cache

open Cert.KernelIdeal Cert.KernelIdeal.Gen
open Idealize.ShloMosaic Idealize.ShloMosaic.TcCoe Idealize.ShloMosaic.Tactic Idealize.SL.Sem

variable {F : FTy → Type} [FloatOps F]

/-- What trip k of the first sweep stores: in each cache one slab at offset (k, 0, 0), the scaled product of the
    resident row block with the column block loaded at row offset 512·k. -/
theorem tripL_eq (𝒱 : Variants) (c : Dev nD) (bd : Option 𝒱.V) (i : grid0.Coords) (arg1 : Memref sig .tc .vmem S4096x512 .bf16) (harg1 : arg1.IsWhole) (arg2 : Memref sig .tc .vmem S4096x512 .bf16) (harg2 : arg2.IsWhole) (arg3 : Memref sig .tc .vmem S512x1 .i32) (harg3 : arg3.IsWhole) (arg4 : Memref sig .tc .vmem S8x512 .f32) (harg4 : arg4.IsWhole) (arg5 : Memref sig .tc .vmem S8x512x512 .f32) (harg5 : arg5.IsWhole) (arg6 : Memref sig .tc .vmem S8x512x512 .f32) (harg6 : arg6.IsWhole) (v3 : Vec F S512x512 .bf16) (v6 : Vec F S512x512 .bf16) (X_arg1 : BufTy.Contents (Elt F) arg1.view.ty) (X_arg2 : BufTy.Contents (Elt F) arg2.view.ty) (k : Fin k0_t1_loop.trips) (acc : FVec F S512x1 .f32 × FVec F S512x1 .f32 × FVec F S512x1 .f32) :
    tripL_k0_t1 (F := F) 𝒱 c bd i arg1 harg1 arg2 harg2 arg3 harg3 arg4 harg4 arg5 harg5 arg6 harg6 v3 v6 X_arg1 X_arg2 k acc
      = ([⟨Rect.unit (k0_off3 k) S1x512x512.size (k0_off3_inb k), k0_pay13 v3 (View.readAt (Elt F) arg1.view (Rect.unit (s := S4096x512) (k0_off2 k) S512x512.size (k0_off2_inb k)).toLoadRect X_arg1)⟩],
         [⟨Rect.unit (k0_off3 k) S1x512x512.size (k0_off3_inb k), k0_pay14 v6 (View.readAt (Elt F) arg2.view (Rect.unit (s := S4096x512) (k0_off2 k) S512x512.size (k0_off2_inb k)).toLoadRect X_arg2)⟩]) := by
  unfold tripL_k0_t1 trip_k0_t1; rfl

/-- What trip k of the first sweep yields: the three running row maxima, each joined with its tile's row maximum. -/
theorem tripR_eq (𝒱 : Variants) (c : Dev nD) (bd : Option 𝒱.V) (i : grid0.Coords) (arg1 : Memref sig .tc .vmem S4096x512 .bf16) (harg1 : arg1.IsWhole) (arg2 : Memref sig .tc .vmem S4096x512 .bf16) (harg2 : arg2.IsWhole) (arg3 : Memref sig .tc .vmem S512x1 .i32) (harg3 : arg3.IsWhole) (arg4 : Memref sig .tc .vmem S8x512 .f32) (harg4 : arg4.IsWhole) (arg5 : Memref sig .tc .vmem S8x512x512 .f32) (harg5 : arg5.IsWhole) (arg6 : Memref sig .tc .vmem S8x512x512 .f32) (harg6 : arg6.IsWhole) (v3 : Vec F S512x512 .bf16) (v6 : Vec F S512x512 .bf16) (X_arg1 : BufTy.Contents (Elt F) arg1.view.ty) (X_arg2 : BufTy.Contents (Elt F) arg2.view.ty) (k : Fin k0_t1_loop.trips) (acc : FVec F S512x1 .f32 × FVec F S512x1 .f32 × FVec F S512x1 .f32) :
    tripR_k0_t1 (F := F) 𝒱 c bd i arg1 harg1 arg2 harg2 arg3 harg3 arg4 harg4 arg5 harg5 arg6 harg6 v3 v6 X_arg1 X_arg2 k acc
      = (k0_pay10 v3 acc.1 (View.readAt (Elt F) arg1.view (Rect.unit (s := S4096x512) (k0_off2 k) S512x512.size (k0_off2_inb k)).toLoadRect X_arg1),
         k0_pay11 v6 acc.2.1 (View.readAt (Elt F) arg2.view (Rect.unit (s := S4096x512) (k0_off2 k) S512x512.size (k0_off2_inb k)).toLoadRect X_arg2),
         k0_pay12 v3 acc.2.2 (View.readAt (Elt F) arg2.view (Rect.unit (s := S4096x512) (k0_off2 k) S512x512.size (k0_off2_inb k)).toLoadRect X_arg2)) := by
  unfold tripR_k0_t1 trip_k0_t1; rfl

/-- What trip k of the second sweep yields: the two running row sums, each plus its tile's row sum of exponentials. -/
theorem trip2R_eq (𝒱 : Variants) (c : Dev nD) (bd : Option 𝒱.V) (i : grid0.Coords) (arg1 : Memref sig .tc .vmem S4096x512 .bf16) (harg1 : arg1.IsWhole) (arg2 : Memref sig .tc .vmem S4096x512 .bf16) (harg2 : arg2.IsWhole) (arg3 : Memref sig .tc .vmem S512x1 .i32) (harg3 : arg3.IsWhole) (arg4 : Memref sig .tc .vmem S8x512 .f32) (harg4 : arg4.IsWhole) (arg5 : Memref sig .tc .vmem S8x512x512 .f32) (harg5 : arg5.IsWhole) (arg6 : Memref sig .tc .vmem S8x512x512 .f32) (harg6 : arg6.IsWhole) (v18_0 : FVec F S512x1 .f32) (v18_1 : FVec F S512x1 .f32) (X_arg5 : BufTy.Contents (Elt F) arg5.view.ty) (X_arg6 : BufTy.Contents (Elt F) arg6.view.ty) (k : Fin k0_t2_loop.trips) (acc : FVec F S512x1 .f32 × FVec F S512x1 .f32) :
    tripR_k0_t2 (F := F) 𝒱 c bd i arg1 harg1 arg2 harg2 arg3 harg3 arg4 harg4 arg5 harg5 arg6 harg6 v18_0 v18_1 X_arg5 X_arg6 k acc
      = (k0_pay16 v18_0 acc.1 (View.readAt (Elt F) arg5.view (Rect.unit (s := S8x512x512) (k0_off4 k) S1x512x512.size (k0_off4_inb k)).toLoadRect X_arg5),
         k0_pay17 v18_1 acc.2 (View.readAt (Elt F) arg6.view (Rect.unit (s := S8x512x512) (k0_off4 k) S1x512x512.size (k0_off4_inb k)).toLoadRect X_arg6)) := by
  unfold tripR_k0_t2 trip_k0_t2; rfl

/-- The first sweep has eight trips. -/
private theorem trips_eq : k0_t1_loop.trips = 8 := by decide

/-- An index whose leading coordinate is k lies in the slab at offset (k, 0, 0). -/
private theorem mem_slab (k : Fin k0_t1_loop.trips) (y : S8x512x512.Idx) (h : (y 0 : ℕ) = k.val) :
    y ∈ (Rect.unit (s := S8x512x512) (k0_off3 k) S1x512x512.size (k0_off3_inb k)).set := by
  rw [Rect.mem_set_unit]
  intro a
  rw [k0_off3_eq]
  have h1 : ((y 1 : ℕ)) < 512 := (y 1).isLt
  have h2 : ((y 2 : ℕ)) < 512 := (y 2).isLt
  fin_cases a
  · simp; omega
  · simp; exact h1
  · simp; exact h2

/-- After n trips of the first sweep, every index whose leading coordinate is below n lies under some slab stored so
    far, in either cache. -/
private theorem cover_aux (𝒱 : Variants) (c : Dev nD) (bd : Option 𝒱.V) (i : grid0.Coords) (arg1 : Memref sig .tc .vmem S4096x512 .bf16) (harg1 : arg1.IsWhole) (arg2 : Memref sig .tc .vmem S4096x512 .bf16) (harg2 : arg2.IsWhole) (arg3 : Memref sig .tc .vmem S512x1 .i32) (harg3 : arg3.IsWhole) (arg4 : Memref sig .tc .vmem S8x512 .f32) (harg4 : arg4.IsWhole) (arg5 : Memref sig .tc .vmem S8x512x512 .f32) (harg5 : arg5.IsWhole) (arg6 : Memref sig .tc .vmem S8x512x512 .f32) (harg6 : arg6.IsWhole) (v3 : Vec F S512x512 .bf16) (v6 : Vec F S512x512 .bf16) (X_arg1 : BufTy.Contents (Elt F) arg1.view.ty) (X_arg2 : BufTy.Contents (Elt F) arg2.view.ty) (init : FVec F S512x1 .f32 × FVec F S512x1 .f32 × FVec F S512x1 .f32) :
    ∀ n, n ≤ k0_t1_loop.trips → ∀ y : S8x512x512.Idx, (y 0 : ℕ) < n →
      (∃ p ∈ (st_k0_t1 (F := F) 𝒱 c bd i arg1 harg1 arg2 harg2 arg3 harg3 arg4 harg4 arg5 harg5 arg6 harg6 v3 v6 X_arg1 X_arg2 init n).2.1, y ∈ p.1.set) ∧
      (∃ p ∈ (st_k0_t1 (F := F) 𝒱 c bd i arg1 harg1 arg2 harg2 arg3 harg3 arg4 harg4 arg5 harg5 arg6 harg6 v3 v6 X_arg1 X_arg2 init n).2.2, y ∈ p.1.set) := by
  intro n
  induction n with
  | zero => intro _ y hy; exact absurd hy (Nat.not_lt_zero _)
  | succ n ih =>
    intro hn y hy
    have hs := st_k0_t1_succ (F := F) 𝒱 c bd i arg1 harg1 arg2 harg2 arg3 harg3 arg4 harg4 arg5 harg5 arg6 harg6 v3 v6 X_arg1 X_arg2 init ⟨n, hn⟩
    have hs' : st_k0_t1 (F := F) 𝒱 c bd i arg1 harg1 arg2 harg2 arg3 harg3 arg4 harg4 arg5 harg5 arg6 harg6 v3 v6 X_arg1 X_arg2 init (n + 1) = _ := hs
    rw [hs', tripL_eq]
    dsimp only
    by_cases hlt : (y 0 : ℕ) < n
    · obtain ⟨⟨p, hp, hyp⟩, ⟨q, hq, hyq⟩⟩ := ih (Nat.le_of_succ_le hn) y hlt
      exact ⟨⟨p, List.mem_append_right _ hp, hyp⟩, ⟨q, List.mem_append_right _ hq, hyq⟩⟩
    · have he : (y 0 : ℕ) = (⟨n, hn⟩ : Fin k0_t1_loop.trips).val := by
        show (y 0 : ℕ) = n
        omega
      exact ⟨⟨_, List.mem_append_left _ (List.mem_singleton_self _), mem_slab ⟨n, hn⟩ y he⟩,
        ⟨_, List.mem_append_left _ (List.mem_singleton_self _), mem_slab ⟨n, hn⟩ y he⟩⟩

/-- The first cache after the whole first sweep holds the same contents whatever it held before. -/
theorem cache5_indep (𝒱 : Variants) (c : Dev nD) (bd : Option 𝒱.V) (i : grid0.Coords) (arg1 : Memref sig .tc .vmem S4096x512 .bf16) (harg1 : arg1.IsWhole) (arg2 : Memref sig .tc .vmem S4096x512 .bf16) (harg2 : arg2.IsWhole) (arg3 : Memref sig .tc .vmem S512x1 .i32) (harg3 : arg3.IsWhole) (arg4 : Memref sig .tc .vmem S8x512 .f32) (harg4 : arg4.IsWhole) (arg5 : Memref sig .tc .vmem S8x512x512 .f32) (harg5 : arg5.IsWhole) (arg6 : Memref sig .tc .vmem S8x512x512 .f32) (harg6 : arg6.IsWhole) (v3 : Vec F S512x512 .bf16) (v6 : Vec F S512x512 .bf16) (X_arg1 : BufTy.Contents (Elt F) arg1.view.ty) (X_arg2 : BufTy.Contents (Elt F) arg2.view.ty) (init : FVec F S512x1 .f32 × FVec F S512x1 .f32 × FVec F S512x1 .f32) (f : BufTy.Contents (Elt F) arg5.view.ty) :
    arg5.view.writes (Elt F) f (st_k0_t1 (F := F) 𝒱 c bd i arg1 harg1 arg2 harg2 arg3 harg3 arg4 harg4 arg5 harg5 arg6 harg6 v3 v6 X_arg1 X_arg2 init (Scf.trips k0_t1_loop.lb k0_t1_loop.ub k0_t1_loop.st)).2.1
      = arg5.view.writes (Elt F) arg5.view.junk (st_k0_t1 (F := F) 𝒱 c bd i arg1 harg1 arg2 harg2 arg3 harg3 arg4 harg4 arg5 harg5 arg6 harg6 v3 v6 X_arg1 X_arg2 init (Scf.trips k0_t1_loop.lb k0_t1_loop.ub k0_t1_loop.st)).2.1 := by
  refine harg5.read_bijective.1 (View.read_writes_of_cover _ _ _ _ _ fun y => ?_)
  exact (cover_aux (F := F) 𝒱 c bd i arg1 harg1 arg2 harg2 arg3 harg3 arg4 harg4 arg5 harg5 arg6 harg6 v3 v6 X_arg1 X_arg2 init k0_t1_loop.trips (Nat.le_refl _) y
    (by rw [trips_eq]; exact (y 0).isLt)).1

/-- The second cache likewise. -/
theorem cache6_indep (𝒱 : Variants) (c : Dev nD) (bd : Option 𝒱.V) (i : grid0.Coords) (arg1 : Memref sig .tc .vmem S4096x512 .bf16) (harg1 : arg1.IsWhole) (arg2 : Memref sig .tc .vmem S4096x512 .bf16) (harg2 : arg2.IsWhole) (arg3 : Memref sig .tc .vmem S512x1 .i32) (harg3 : arg3.IsWhole) (arg4 : Memref sig .tc .vmem S8x512 .f32) (harg4 : arg4.IsWhole) (arg5 : Memref sig .tc .vmem S8x512x512 .f32) (harg5 : arg5.IsWhole) (arg6 : Memref sig .tc .vmem S8x512x512 .f32) (harg6 : arg6.IsWhole) (v3 : Vec F S512x512 .bf16) (v6 : Vec F S512x512 .bf16) (X_arg1 : BufTy.Contents (Elt F) arg1.view.ty) (X_arg2 : BufTy.Contents (Elt F) arg2.view.ty) (init : FVec F S512x1 .f32 × FVec F S512x1 .f32 × FVec F S512x1 .f32) (f : BufTy.Contents (Elt F) arg6.view.ty) :
    arg6.view.writes (Elt F) f (st_k0_t1 (F := F) 𝒱 c bd i arg1 harg1 arg2 harg2 arg3 harg3 arg4 harg4 arg5 harg5 arg6 harg6 v3 v6 X_arg1 X_arg2 init (Scf.trips k0_t1_loop.lb k0_t1_loop.ub k0_t1_loop.st)).2.2
      = arg6.view.writes (Elt F) arg6.view.junk (st_k0_t1 (F := F) 𝒱 c bd i arg1 harg1 arg2 harg2 arg3 harg3 arg4 harg4 arg5 harg5 arg6 harg6 v3 v6 X_arg1 X_arg2 init (Scf.trips k0_t1_loop.lb k0_t1_loop.ub k0_t1_loop.st)).2.2 := by
  refine harg6.read_bijective.1 (View.read_writes_of_cover _ _ _ _ _ fun y => ?_)
  exact (cover_aux (F := F) 𝒱 c bd i arg1 harg1 arg2 harg2 arg3 harg3 arg4 harg4 arg5 harg5 arg6 harg6 v3 v6 X_arg1 X_arg2 init k0_t1_loop.trips (Nat.le_refl _) y
    (by rw [trips_eq]; exact (y 0).isLt)).2

end Cert.KernelIdeal.Cache

end
-- ==== Proof.PayIdeal.lean ====
/-
  The kernel body's pure values, read at an index over the extended reals: each is the textbook quantity —
  an inner product of two rows of the staged blocks (the accumulator starts at 0 and the scale is 1), a running row maximum
  joined with a tile's row maximum, a running row sum plus a tile's row sum of shifted exponentials, the positive mask
  as 0 / 1, row and column sums weighted by the mask — at explicit coordinates (row p, column q, contraction index k).
-/
import proofs.«414180_j88819923681294_3_alg».proof.Proof.Gen.KernelIdeal.Skeleton
import Idealize.ShloMosaic.PureOps.Ideal.Laws
import Idealize.ShloMosaic.Lib.Pipeline.Value
import Idealize.ShloMosaic.Lib.ValueIdx
import Idealize.ShloMosaic.Lib.ValueLayout

set_option maxRecDepth 16384

noncomputable section

namespace Cert.KernelIdeal.PayIdeal

open Cert.KernelIdeal Cert.KernelIdeal.Gen
open Idealize.ShloMosaic Idealize.ShloMosaic.ValueIdx

/-- Inner product of row p of a with row q of b (both [512 × 512] blocks). -/
def dot (a b : Vec Ideal S512x512 .bf16) (p q : Fin 512) : EReal := ∑ k : Fin 512, (a (ix2 p k) : EReal) * (b (ix2 q k) : EReal)

/-! ## The three accumulator and scale words -/

/-- The word of +1.0 is the extended real 1. -/
private theorem word_one : Ideal.ofBits .f32 0x3F800000#32 = (1 : EReal) := by
  simp [Ideal.ofBits, Ideal.ieee]
  rw [← EReal.coe_mul]
  norm_num

/-- The word of -∞ is the extended real ⊥. -/
private theorem word_bot : Ideal.ofBits .f32 0xFF800000#32 = (⊥ : EReal) := by
  simp [Ideal.ofBits, Ideal.ieee]

/-! ## Layout operations at explicit coordinates -/

section Layout
variable {α : Type}

/-- A column [a, 1] flattened to [a] reads, at i, the column at (i, 0). -/
private theorem shapeCast_a1_a_apply {a : ℕ} (x : (⟨2, ![a, 1]⟩ : Shape).Idx → α)
    (h : (⟨2, ![a, 1]⟩ : Shape).ShapeCasts ⟨1, ![a]⟩) (i : Fin a) :
    shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

/-- A vector [a] stood up as a column [a, 1] reads, at (i, u), the vector at i. -/
private theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column [a, 1] broadcast along the lanes to [a, b] reads, at (p, c), the column at (p, 0). -/
private theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Layout

/-! ## Reductions along one axis at explicit coordinates -/

/-- The index over row p with lane q inserted is (p, q). -/
private theorem lift_lane (h : S512x512.Reduces [1] S512) (p q : Fin 512) : h.lift (ix1 p) q = ix2 p q := by
  funext c; apply Fin.ext
  match c with
  | ⟨0, _⟩ => rfl
  | ⟨1, _⟩ => rfl

/-- The index over column p with row q inserted is (q, p). -/
private theorem lift_row (h : S512x512.Reduces [0] S512) (p q : Fin 512) : h.lift (ix1 p) q = ix2 q p := by
  funext c; apply Fin.ext
  match c with
  | ⟨0, _⟩ => rfl
  | ⟨1, _⟩ => rfl

/-- A lane sum of a [512 × 512] block at row p. -/
private theorem laneSum_apply (x : FVec Ideal S512x512 .f32) (h : S512x512.Reduces [1] S512) (hφ : FKind.Formats .f32)
    (hacc : (0x00000000#32 : BitVec 32) = FKind.add.neutral .f32 hφ) (p : Fin 512) :
    multiReduction (F := Ideal) .add [1] S512 x 0x00000000#32 h hφ hacc (ix1 p) = ∑ q : Fin 512, x (ix2 p q) := by
  refine (Ideal.multiReduction_add_single x _ h hφ hacc (ix1 p)).trans ?_
  exact Finset.sum_congr rfl fun q _ => congrArg x (lift_lane h p q)

/-- A sum over the rows of a [512 × 512] block at column p. -/
private theorem rowSum_apply (x : FVec Ideal S512x512 .f32) (h : S512x512.Reduces [0] S512) (hφ : FKind.Formats .f32)
    (hacc : (0x00000000#32 : BitVec 32) = FKind.add.neutral .f32 hφ) (p : Fin 512) :
    multiReduction (F := Ideal) .add [0] S512 x 0x00000000#32 h hφ hacc (ix1 p) = ∑ q : Fin 512, x (ix2 q p) := by
  refine (Ideal.multiReduction_add_single x _ h hφ hacc (ix1 p)).trans ?_
  exact Finset.sum_congr rfl fun q _ => congrArg x (lift_row h p q)

/-- A lane maximum of a [512 × 512] block at row p, from ⊥. -/
private theorem laneMax_apply (x : FVec Ideal S512x512 .f32) (h : S512x512.Reduces [1] S512) (hφ : FKind.Formats .f32)
    (hacc : (0xFF800000#32 : BitVec 32) = FKind.maximumf.neutral .f32 hφ) (p : Fin 512) :
    multiReduction (F := Ideal) .maximumf [1] S512 x 0xFF800000#32 h hφ hacc (ix1 p)
      = (Finset.univ : Finset (Fin 512)).fold max ⊥ fun q => x (ix2 p q) := by
  refine (Ideal.multiReduction_maximumf_single x _ h hφ hacc (ix1 p)).trans ?_
  have e : (x ∘ h.lift (ix1 p)) = fun q : Fin 512 => x (ix2 p q) := funext fun q => by
    exact congrArg x (lift_lane h p q)
  rw [e]
  show (Finset.univ : Finset (Fin 512)).fold max (Ideal.ofBits .f32 0xFF800000#32) _ = _
  rw [word_bot]

/-! ## The matmul contracting the lanes of both operands -/

private theorem lhs_dot_0 (i : S512x512.Idx) (q : dot_S512x512_S512x512_S512x512_1_1_0_0_n_n.contr.Idx) :
    (dot_S512x512_S512x512_S512x512_1_1_0_0_n_n.lhsIdx i q 0).val = (i 0).val := by
  unfold DotDims.lhsIdx
  rw [dif_neg (show ¬(0 : Fin S512x512.rank) ∈ dot_S512x512_S512x512_S512x512_1_1_0_0_n_n.lhsBatch by decide), dif_pos (show (0 : Fin S512x512.rank) ∈ dot_S512x512_S512x512_S512x512_1_1_0_0_n_n.lhsNonContracting by decide)]
  rfl
private theorem lhs_dot_1 (i : S512x512.Idx) (q : dot_S512x512_S512x512_S512x512_1_1_0_0_n_n.contr.Idx) :
    (dot_S512x512_S512x512_S512x512_1_1_0_0_n_n.lhsIdx i q 1).val = (q ⟨0, by decide⟩).val :=
  dot_S512x512_S512x512_S512x512_1_1_0_0_n_n.lhsIdx_val_of_single rfl i q
private theorem rhs_dot_0 (i : S512x512.Idx) (q : dot_S512x512_S512x512_S512x512_1_1_0_0_n_n.contr.Idx) :
    (dot_S512x512_S512x512_S512x512_1_1_0_0_n_n.rhsIdx i q 0).val = (i 1).val := by
  unfold DotDims.rhsIdx
  rw [dif_neg (show ¬(0 : Fin S512x512.rank) ∈ dot_S512x512_S512x512_S512x512_1_1_0_0_n_n.rhsBatch by decide), dif_pos (show (0 : Fin S512x512.rank) ∈ dot_S512x512_S512x512_S512x512_1_1_0_0_n_n.rhsNonContracting by decide)]
  rfl
private theorem rhs_dot_1 (i : S512x512.Idx) (q : dot_S512x512_S512x512_S512x512_1_1_0_0_n_n.contr.Idx) :
    (dot_S512x512_S512x512_S512x512_1_1_0_0_n_n.rhsIdx i q 1).val = (q ⟨0, by decide⟩).val :=
  dot_S512x512_S512x512_S512x512_1_1_0_0_n_n.rhsIdx_val_of_single rfl i q

/-- The matmul into the zero accumulator, at (p, q): the inner product of row p of a with row q of b. -/
private theorem matmul0_apply (a b : FVec Ideal S512x512 .bf16) (p q : Fin 512) :
    matmul dot_S512x512_S512x512_S512x512_1_1_0_0_n_n none a b (constant (F := Ideal) S512x512 .f32 0x00000000#32) (ix2 p q)
      = dot a b p q := by
  unfold dot
  simp only [matmul]
  rw [Ideal.matmul_constant_zero_apply, ← Equiv.sum_comp (contrEquiv1 dot_S512x512_S512x512_S512x512_1_1_0_0_n_n 512 rfl rfl).symm]
  refine Finset.sum_congr rfl fun k _ => ?_
  have hk := contrEquiv1_symm_val dot_S512x512_S512x512_S512x512_1_1_0_0_n_n 512 rfl rfl k
  have el : dot_S512x512_S512x512_S512x512_1_1_0_0_n_n.lhsIdx (ix2 p q) ((contrEquiv1 dot_S512x512_S512x512_S512x512_1_1_0_0_n_n 512 rfl rfl).symm k) = ix2 p k := funext fun c => Fin.ext (by
    match c with
    | ⟨0, _⟩ => exact lhs_dot_0 _ _
    | ⟨1, _⟩ => exact (lhs_dot_1 _ _).trans hk)
  have er : dot_S512x512_S512x512_S512x512_1_1_0_0_n_n.rhsIdx (ix2 p q) ((contrEquiv1 dot_S512x512_S512x512_S512x512_1_1_0_0_n_n 512 rfl rfl).symm k) = ix2 q k := funext fun c => Fin.ext (by
    match c with
    | ⟨0, _⟩ => exact rhs_dot_0 _ _
    | ⟨1, _⟩ => exact (rhs_dot_1 _ _).trans hk)
  rw [el, er]

/-- The same scaled by the splat of 1. -/
private theorem matmul1_apply (a b : FVec Ideal S512x512 .bf16) (p q : Fin 512) :
    mulf (matmul dot_S512x512_S512x512_S512x512_1_1_0_0_n_n none a b (constant (F := Ideal) S512x512 .f32 0x00000000#32))
        (broadcast S512x512 (Scalar.ofBits (F := Ideal) .f32 0x3F800000#32)) (ix2 p q) = dot a b p q := by
  rw [mulf_apply, broadcast_apply, matmul0_apply]
  show dot a b p q * Ideal.ofBits .f32 0x3F800000#32 = _
  rw [word_one, mul_one]

private theorem pay4_eq (v3 : Vec Ideal S512x512 .bf16) : k0_pay4 (F := Ideal) v3 = v3 := shapeCast_self v3 _
private theorem pay7_eq (v96 : Vec Ideal S512x512 .bf16) : k0_pay7 (F := Ideal) v96 = v96 := shapeCast_self v96 _

theorem pay4_apply (v3 : Vec Ideal S512x512 .bf16) (p k : Fin 512) : (k0_pay4 (F := Ideal) v3 (ix2 p k) : EReal) = v3 (ix2 p k) := by
  rw [pay4_eq]
theorem pay7_apply (v96 : Vec Ideal S512x512 .bf16) (p k : Fin 512) : (k0_pay7 (F := Ideal) v96 (ix2 p k) : EReal) = v96 (ix2 p k) := by
  rw [pay7_eq]
theorem pay8_apply (v3 v93 : Vec Ideal S512x512 .bf16) (p q : Fin 512) : k0_pay8 (F := Ideal) v3 v93 (ix2 p q) = dot v3 v93 p q := by
  unfold k0_pay8
  rw [pay4_eq, shapeCast_self]
  exact matmul1_apply v3 v93 p q
theorem pay9_apply (v6 v96 : Vec Ideal S512x512 .bf16) (p q : Fin 512) : k0_pay9 (F := Ideal) v6 v96 (ix2 p q) = dot v6 v96 p q := by
  unfold k0_pay9
  rw [pay7_eq, shapeCast_self]
  exact matmul1_apply v6 v96 p q
theorem pay20_apply (v3 v35 : Vec Ideal S512x512 .bf16) (p q : Fin 512) : k0_pay20 (F := Ideal) v3 v35 (ix2 p q) = dot v3 v35 p q := by
  unfold k0_pay20
  rw [pay4_eq, shapeCast_self]
  exact matmul0_apply v3 v35 p q
theorem pay13_apply (v3 v93 : Vec Ideal S512x512 .bf16) (p q : Fin 512) : k0_pay13 (F := Ideal) v3 v93 (ix3 (0 : Fin 1) p q) = dot v3 v93 p q := by
  unfold k0_pay13
  exact (shapeCast_ab_1ab_apply _ _ (0 : Fin 1) p q).trans (pay8_apply v3 v93 p q)
theorem pay14_apply (v6 v96 : Vec Ideal S512x512 .bf16) (p q : Fin 512) : k0_pay14 (F := Ideal) v6 v96 (ix3 (0 : Fin 1) p q) = dot v6 v96 p q := by
  unfold k0_pay14
  exact (shapeCast_ab_1ab_apply _ _ (0 : Fin 1) p q).trans (pay9_apply v6 v96 p q)

/-! ## The keepdims forms of the lane reductions, and the elementwise exponential -/

private theorem laneMaxCol_apply (x : FVec Ideal S512x512 .f32) (h : S512x512.Reduces [1] S512) (hφ : FKind.Formats .f32)
    (hacc : (0xFF800000#32 : BitVec 32) = FKind.maximumf.neutral .f32 hφ) (h' : S512.ShapeCasts S512x1) (p : Fin 512) (u : Fin 1) :
    shapeCast S512x1 (multiReduction (F := Ideal) .maximumf [1] S512 x 0xFF800000#32 h hφ hacc) h' (ix2 p u)
      = (Finset.univ : Finset (Fin 512)).fold max ⊥ fun q => x (ix2 p q) :=
  (shapeCast_a_a1_apply _ h' p u).trans (laneMax_apply x h hφ hacc p)

private theorem laneSumCol_apply (x : FVec Ideal S512x512 .f32) (h : S512x512.Reduces [1] S512) (hφ : FKind.Formats .f32)
    (hacc : (0x00000000#32 : BitVec 32) = FKind.add.neutral .f32 hφ) (h' : S512.ShapeCasts S512x1) (p : Fin 512) (u : Fin 1) :
    shapeCast S512x1 (multiReduction (F := Ideal) .add [1] S512 x 0x00000000#32 h hφ hacc) h' (ix2 p u)
      = ∑ q : Fin 512, x (ix2 p q) :=
  (shapeCast_a_a1_apply _ h' p u).trans (laneSum_apply x h hφ hacc p)

/-- The elementwise exponential at an index. -/
private theorem vexp_apply {s : Shape} {φ : FTy} (a : FVec Ideal s φ) (i : s.Idx) : exp a i = Ideal.exp (a i) := rfl

/-- The scalar word of +1.0 at the ideal instance. -/
private theorem scalar_one : (Scalar.ofBits (F := Ideal) .f32 0x3F800000#32 : EReal) = 1 := word_one

theorem pay6_apply (p : Fin 512) : k0_pay6 (F := Ideal) (ix2 p (0 : Fin 1)) = (⊥ : EReal) := by
  unfold k0_pay6
  exact word_bot
theorem pay15_apply (p : Fin 512) : k0_pay15 (F := Ideal) (ix2 p (0 : Fin 1)) = (0 : EReal) := by
  unfold k0_pay15
  exact Ideal.ofBits_zero_f32
theorem pay10_apply (v3 : Vec Ideal S512x512 .bf16) (acc : FVec Ideal S512x1 .f32) (v93 : Vec Ideal S512x512 .bf16) (p : Fin 512) :
    k0_pay10 (F := Ideal) v3 acc v93 (ix2 p (0 : Fin 1)) = max (acc (ix2 p (0 : Fin 1))) ((Finset.univ : Finset (Fin 512)).fold max ⊥ fun q => dot v3 v93 p q) := by
  unfold k0_pay10
  refine (maximumf_apply _ _ _).trans (congrArg (max (acc (ix2 p (0 : Fin 1)))) ?_)
  refine (laneMaxCol_apply _ _ _ _ _ p 0).trans ?_
  exact congrArg (fun f => (Finset.univ : Finset (Fin 512)).fold max ⊥ f) (funext fun q => pay8_apply v3 v93 p q)
theorem pay11_apply (v6 : Vec Ideal S512x512 .bf16) (acc : FVec Ideal S512x1 .f32) (v96 : Vec Ideal S512x512 .bf16) (p : Fin 512) :
    k0_pay11 (F := Ideal) v6 acc v96 (ix2 p (0 : Fin 1)) = max (acc (ix2 p (0 : Fin 1))) ((Finset.univ : Finset (Fin 512)).fold max ⊥ fun q => dot v6 v96 p q) := by
  unfold k0_pay11
  refine (maximumf_apply _ _ _).trans (congrArg (max (acc (ix2 p (0 : Fin 1)))) ?_)
  refine (laneMaxCol_apply _ _ _ _ _ p 0).trans ?_
  exact congrArg (fun f => (Finset.univ : Finset (Fin 512)).fold max ⊥ f) (funext fun q => pay9_apply v6 v96 p q)
theorem pay12_apply (v3 : Vec Ideal S512x512 .bf16) (acc : FVec Ideal S512x1 .f32) (v96 : Vec Ideal S512x512 .bf16) (p : Fin 512) :
    k0_pay12 (F := Ideal) v3 acc v96 (ix2 p (0 : Fin 1)) = max (acc (ix2 p (0 : Fin 1))) ((Finset.univ : Finset (Fin 512)).fold max ⊥ fun q => dot v3 v96 p q) := by
  unfold k0_pay12
  refine (maximumf_apply _ _ _).trans (congrArg (max (acc (ix2 p (0 : Fin 1)))) ?_)
  refine (laneMaxCol_apply _ _ _ _ _ p 0).trans ?_
  refine congrArg (fun f => (Finset.univ : Finset (Fin 512)).fold max ⊥ f) (funext fun q => ?_)
  rw [pay4_eq, pay7_eq]
  exact matmul1_apply v3 v96 p q
theorem pay18_apply (m : FVec Ideal S512x1 .f32) (v23 : Vec Ideal S1x512x512 .f32) (p q : Fin 512) :
    k0_pay18 (F := Ideal) m v23 (ix2 p q) = Ideal.exp ((v23 (ix3 (0 : Fin 1) p q) : EReal) - m (ix2 p (0 : Fin 1))) := by
  simp only [k0_pay18, vexp_apply, subf_apply, shapeCast_1ab_ab_apply, broadcastTo_a1_ab_apply]
theorem pay16_apply (m acc : FVec Ideal S512x1 .f32) (v91 : Vec Ideal S1x512x512 .f32) (p : Fin 512) :
    k0_pay16 (F := Ideal) m acc v91 (ix2 p (0 : Fin 1)) = acc (ix2 p (0 : Fin 1)) + ∑ q : Fin 512, Ideal.exp ((v91 (ix3 (0 : Fin 1) p q) : EReal) - m (ix2 p (0 : Fin 1))) := by
  unfold k0_pay16
  refine (addf_apply _ _ _).trans (congrArg (acc (ix2 p (0 : Fin 1)) + ·) ?_)
  refine (laneSumCol_apply _ _ _ _ _ p 0).trans ?_
  exact Finset.sum_congr rfl fun q _ => pay18_apply m v91 p q
theorem pay17_apply (m acc : FVec Ideal S512x1 .f32) (v97 : Vec Ideal S1x512x512 .f32) (p : Fin 512) :
    k0_pay17 (F := Ideal) m acc v97 (ix2 p (0 : Fin 1)) = acc (ix2 p (0 : Fin 1)) + ∑ q : Fin 512, Ideal.exp ((v97 (ix3 (0 : Fin 1) p q) : EReal) - m (ix2 p (0 : Fin 1))) := by
  unfold k0_pay17
  refine (addf_apply _ _ _).trans (congrArg (acc (ix2 p (0 : Fin 1)) + ·) ?_)
  refine (laneSumCol_apply _ _ _ _ _ p 0).trans ?_
  exact Finset.sum_congr rfl fun q _ => pay18_apply m v97 p q
theorem pay19_apply (m : FVec Ideal S512x1 .f32) (v29 : Vec Ideal S1x512x512 .f32) (p q : Fin 512) :
    k0_pay19 (F := Ideal) m v29 (ix2 p q) = Ideal.exp ((v29 (ix3 (0 : Fin 1) p q) : EReal) - m (ix2 p (0 : Fin 1))) := by
  simp only [k0_pay19, vexp_apply, subf_apply, shapeCast_1ab_ab_apply, broadcastTo_a1_ab_apply]
theorem pay21_apply (m : FVec Ideal S512x1 .f32) (v37 : FVec Ideal S512x512 .f32) (p q : Fin 512) :
    k0_pay21 (F := Ideal) m v37 (ix2 p q) = Ideal.exp (v37 (ix2 p q) - m (ix2 p (0 : Fin 1))) := by
  simp only [k0_pay21, vexp_apply, subf_apply, mulf_apply, broadcast_apply, broadcastTo_a1_ab_apply, scalar_one, mul_one]

/-! ## The positive mask -/

/-- Equality of two words, widened and converted: 1 if they agree, 0 otherwise. -/
private theorem mask_word (A B : BitVec 32) :
    (FloatOps.sitofp (F := Ideal) .f32 ((IntOp.cmpi .eq A B).setWidth 32) : EReal) = if A = B then 1 else 0 := by
  by_cases h : A = B
  · subst h
    have e : IntOp.cmpi .eq A A = 1#1 := by simp [IntOp.cmpi]
    rw [if_pos rfl, e]
    show ((((1#1 : BitVec 1).setWidth 32).toInt : ℝ) : EReal) = 1
    have e1 : ((1#1 : BitVec 1).setWidth 32).toInt = 1 := by decide
    rw [e1]; norm_num
  · have hb : (A == B) = false := beq_eq_false_iff_ne.2 h
    have e : IntOp.cmpi .eq A B = 0#1 := by
      show BitVec.ofBool (A == B) = 0#1
      rw [hb]; rfl
    rw [if_neg h, e]
    show ((((0#1 : BitVec 1).setWidth 32).toInt : ℝ) : EReal) = 0
    have e0 : ((0#1 : BitVec 1).setWidth 32).toInt = 0 := by decide
    rw [e0]; norm_num

/-- An integer comparison at an index compares the elements. -/
private theorem vcmpi_apply {s : Shape} {w : Nat} (pr : CmpIPredicate) (a b : IVec s w) (i : s.Idx) :
    cmpi pr a b i = IntOp.cmpi pr (a i) (b i) := rfl

/-- The positive mask: 1 where the two rows' labels agree, 0 elsewhere. -/
theorem pay5_apply (v8 : Vec Ideal S512x1 .i32) (p q : Fin 512) :
    k0_pay5 (F := Ideal) v8 (ix2 p q) = if (v8 (ix2 p (0 : Fin 1)) : BitVec 32) = v8 (ix2 q (0 : Fin 1)) then (1 : EReal) else 0 := by
  unfold k0_pay5
  rw [shapeCast_self]
  refine (sitofp_apply _ _).trans ?_
  rw [extui_apply, vcmpi_apply, broadcastTo_a1_ab_apply, broadcastTo_1b_ab_apply, transpose_ix2_apply]
  exact mask_word _ _
theorem pay22_apply (v15 v33 : FVec Ideal S512x512 .f32) (p : Fin 512) :
    k0_pay22 (F := Ideal) v15 v33 (ix2 p (0 : Fin 1)) = ∑ q : Fin 512, v33 (ix2 p q) * v15 (ix2 p q) := by
  unfold k0_pay22
  exact laneSumCol_apply _ _ _ _ _ p 0
theorem pay23_apply (v15 : FVec Ideal S512x512 .f32) (p : Fin 512) :
    k0_pay23 (F := Ideal) v15 (ix2 p (0 : Fin 1)) = ∑ q : Fin 512, v15 (ix2 p q) := by
  unfold k0_pay23
  exact laneSumCol_apply _ _ _ _ _ p 0

/-- A column [512, 1] laid as a row [1, 512] through the flat vector reads, at (0, p), the column at (p, 0). -/
private theorem colToRow_apply {α : Type} (v : S512x1.Idx → α) (h : S512x1.ShapeCasts S512) (h' : S512.ShapeCasts S1x512) (u : Fin 1) (p : Fin 512) :
    shapeCast S1x512 (shapeCast S512 v h) h' (ix2 u p) = v (ix2 p (0 : Fin 1)) :=
  (shapeCast_a_1a_apply _ h' u p).trans (shapeCast_a1_a_apply v h p)

theorem pay24_apply (v : FVec Ideal S512x1 .f32) (p : Fin 512) : k0_pay24 (F := Ideal) v (ix2 (0 : Fin 1) p) = v (ix2 p (0 : Fin 1)) := by
  unfold k0_pay24
  exact colToRow_apply v _ _ 0 p
theorem pay25_apply (v : FVec Ideal S512x1 .f32) (p : Fin 512) : k0_pay25 (F := Ideal) v (ix2 (0 : Fin 1) p) = v (ix2 p (0 : Fin 1)) := by
  unfold k0_pay25
  exact colToRow_apply v _ _ 0 p
theorem pay1_apply (v : FVec Ideal S512x1 .f32) (p : Fin 512) : k0_pay1 (F := Ideal) v (ix2 (0 : Fin 1) p) = v (ix2 p (0 : Fin 1)) := by
  unfold k0_pay1
  exact colToRow_apply v _ _ 0 p
theorem pay2_apply (v : FVec Ideal S512x1 .f32) (p : Fin 512) : k0_pay2 (F := Ideal) v (ix2 (0 : Fin 1) p) = v (ix2 p (0 : Fin 1)) := by
  unfold k0_pay2
  exact colToRow_apply v _ _ 0 p
theorem pay3_apply (p : Fin 512) : k0_pay3 (F := Ideal) (ix2 (0 : Fin 1) p) = (0 : EReal) := by
  unfold k0_pay3
  refine (shapeCast_a_1a_apply _ _ (0 : Fin 1) p).trans ?_
  exact Ideal.ofBits_zero_f32
/-- Row sums, inside the tile, of the shifted exponentials of the diagonal similarities weighted by the mask. -/
theorem pay26_apply (v15 : FVec Ideal S512x512 .f32) (m : FVec Ideal S512x1 .f32) (v37 : FVec Ideal S512x512 .f32) (p : Fin 512) :
    k0_pay26 (F := Ideal) v15 m v37 (ix2 (0 : Fin 1) p) = ∑ q : Fin 512, Ideal.exp (v37 (ix2 p q) - m (ix2 p (0 : Fin 1))) * v15 (ix2 p q) := by
  unfold k0_pay26
  refine (colToRow_apply _ _ _ 0 p).trans ?_
  refine (laneSumCol_apply _ _ _ _ _ p 0).trans ?_
  exact Finset.sum_congr rfl fun q _ => by rw [mulf_apply, pay21_apply]
/-- Column sums of the same products: entry p sums over the ROWS q of the tile. -/
theorem pay27_apply (v15 : FVec Ideal S512x512 .f32) (m : FVec Ideal S512x1 .f32) (v37 : FVec Ideal S512x512 .f32) (p : Fin 512) :
    k0_pay27 (F := Ideal) v15 m v37 (ix2 (0 : Fin 1) p) = ∑ q : Fin 512, Ideal.exp (v37 (ix2 q p) - m (ix2 q (0 : Fin 1))) * v15 (ix2 q p) := by
  unfold k0_pay27
  refine (colToRow_apply _ _ _ 0 p).trans ?_
  refine (transpose_ix2_apply _ _ p (0 : Fin 1)).trans ?_
  refine (shapeCast_a_1a_apply _ _ (0 : Fin 1) p).trans ?_
  refine (rowSum_apply _ _ _ _ p).trans ?_
  exact Finset.sum_congr rfl fun q _ => by rw [mulf_apply, pay21_apply]
theorem pay28_apply (v15 v27 : FVec Ideal S512x512 .f32) (p : Fin 512) :
    k0_pay28 (F := Ideal) v15 v27 (ix2 (0 : Fin 1) p) = ∑ q : Fin 512, v27 (ix2 p q) * v15 (ix2 p q) := by
  unfold k0_pay28
  refine (colToRow_apply _ _ _ 0 p).trans ?_
  exact laneSumCol_apply _ _ _ _ _ p 0

end Cert.KernelIdeal.PayIdeal

end
-- ==== Proof.LossSpec.lean ====
/-
  The block-diagonal contrastive loss, as mathematics over the extended reals.

  Two feature matrices A, B : [4096 × 512] and a label per row. The similarity of row r of A with row c of B is
  the inner product  sim A B r c = ∑ₖ A r k · B c k.  Each similarity row is shifted by its own maximum before the
  exponential:  ex A B r c = exp (sim A B r c − max_c' sim A B r c').  The positive mask is  pos r c = 1  when rows
  r and c carry the same label and 0 otherwise. From these: the group size  ∑_c pos r c,  the numerators
  ∑_c ex V I r c · pos r c  and  ∑_c ex V I c r · pos r c,  and the negative sums  ∑_c ex A A r c · (1 − pos r c).

  A row index c of 0 … 4095 is column q of tile j,  c = 512·j + q  (eight tiles of 512).
-/
import Idealize.ShloMosaic.PureOps.Ideal
import Idealize.ShloMosaic.Lib.ValueIdx

noncomputable section

namespace Cert.Loss

open Idealize.ShloMosaic

/-- A feature matrix read by row and column. -/
abbrev Feat := Fin 4096 → Fin 512 → EReal
/-- One label word per row. -/
abbrev Lab := Fin 4096 → BitVec 32

/-- Column q of tile j is row index 512·j + q. -/
def tcol (j : Fin 8) (q : Fin 512) : Fin 4096 := ⟨512 * j.val + q.val, by have := j.isLt; have := q.isLt; omega⟩

theorem tcol_val (j : Fin 8) (q : Fin 512) : (tcol j q).val = 512 * j.val + q.val := rfl

/-- Inner product of row r of A with row c of B. -/
def sim (A B : Feat) (r c : Fin 4096) : EReal := ∑ k : Fin 512, A r k * B c k

/-- The maximum of a row of 4096 extended reals (−∞ for none). -/
def rowMax (s : Fin 4096 → EReal) : EReal := (Finset.univ : Finset (Fin 4096)).fold max ⊥ s

/-- exp of a similarity shifted by its row's maximum. -/
def ex (A B : Feat) (r c : Fin 4096) : EReal := Ideal.exp (sim A B r c - rowMax (sim A B r))

/-- The same-identity mask as a number. -/
def pos (L : Lab) (r c : Fin 4096) : EReal := if L r = L c then 1 else 0

/-- ∑_c pos r c : how many rows share row r's label. -/
def groupSize (L : Lab) (r : Fin 4096) : EReal := ∑ c, pos L r c
/-- ∑_c ex V I r c · pos r c. -/
def numV (V I : Feat) (L : Lab) (r : Fin 4096) : EReal := ∑ c, ex V I r c * pos L r c
/-- ∑_c ex V I c r · pos r c  (the transposed direction). -/
def numI (V I : Feat) (L : Lab) (r : Fin 4096) : EReal := ∑ c, ex V I c r * pos L r c
/-- ∑_c ex A A r c · (1 − pos r c). -/
def negSum (A : Feat) (L : Lab) (r : Fin 4096) : EReal := ∑ c, ex A A r c * (1 - pos L r c)
/-- ∑_c ex A A r c  (every column). -/
def rowSum (A : Feat) (r : Fin 4096) : EReal := ∑ c, ex A A r c
/-- ∑_c ex A A r c · pos r c. -/
def posSum (A : Feat) (L : Lab) (r : Fin 4096) : EReal := ∑ c, ex A A r c * pos L r c

/-- The labels come in runs of eight: rows r and c share a label exactly when r / 8 = c / 8. -/
def IdentityBlocks (L : Lab) : Prop := ∀ r c : Fin 4096, L r = L c ↔ r.val / 8 = c.val / 8

/-- Every entry is a real number. -/
def Finite (A : Feat) : Prop := ∀ r k, A r k ≠ ⊤ ∧ A r k ≠ ⊥

end Cert.Loss

end
-- ==== Proof.TileAlgebra.lean ====
/-
  Tile arithmetic for the block-diagonal loss: a row of 4096 entries swept in eight tiles of 512.

  * the running maximum over the tiles is the row's maximum, and the running sum the row's sum (max and + are
    associative and commutative on the extended reals, infinities included);
  * a sum whose terms vanish off one tile is that tile's sum; with the labels in runs of eight (and 512 = 64·8) the
    positive mask vanishes between rows of different tiles;
  * for real e and a 0/1 weight w,  ∑ e·(1 − w) = ∑ e − ∑ e·w  (this one needs the entries finite: the extended
    reals do not subtract infinities);
  * similarities of finite features are real, so are their row maxima, and exp of a real is a real.
-/
import proofs.«414180_j88819923681294_3_alg».proof.Proof.LossSpec
import Mathlib.Data.Finset.Fold
import Mathlib.Algebra.BigOperators.Fin
import Mathlib.Algebra.BigOperators.Ring.Finset
import Mathlib.Data.Fintype.BigOperators
import Mathlib.Data.EReal.Operations

noncomputable section

namespace Cert.Loss

open Idealize.ShloMosaic

/-- The tile a row index lies in. -/
def tileOf (r : Fin 4096) : Fin 8 := ⟨r.val / 512, by have := r.isLt; omega⟩
/-- Its column inside the tile. -/
def colOf (r : Fin 4096) : Fin 512 := ⟨r.val % 512, Nat.mod_lt _ (by decide)⟩

theorem tcol_tileOf_colOf (r : Fin 4096) : tcol (tileOf r) (colOf r) = r := by
  apply Fin.ext
  show 512 * (r.val / 512) + r.val % 512 = r.val
  omega
theorem tileOf_tcol (j : Fin 8) (q : Fin 512) : tileOf (tcol j q) = j := by
  apply Fin.ext
  have := q.isLt
  show (512 * j.val + q.val) / 512 = j.val
  omega
theorem colOf_tcol (j : Fin 8) (q : Fin 512) : colOf (tcol j q) = q := by
  apply Fin.ext
  have := q.isLt
  show (512 * j.val + q.val) % 512 = q.val
  omega

/-- Row indices are pairs (tile, column). -/
private def tileEquiv : Fin 8 × Fin 512 ≃ Fin 4096 where
  toFun p := tcol p.1 p.2
  invFun r := (tileOf r, colOf r)
  left_inv p := by
    show (tileOf (tcol p.1 p.2), colOf (tcol p.1 p.2)) = p
    rw [tileOf_tcol, colOf_tcol]
  right_inv r := tcol_tileOf_colOf r

/-- A sum over the row is the sum over the tiles of the tile sums. -/
private theorem sum_tiles (g : Fin 4096 → EReal) : ∑ c, g c = ∑ j : Fin 8, ∑ q : Fin 512, g (tcol j q) := by
  rw [← tileEquiv.sum_comp g, Fintype.sum_prod_type]
  rfl

/-- A real-valued finite sum, read in the extended reals. -/
private theorem coe_sum {ι : Type} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The running maximum after the first k tiles, from −∞: max of the value so far and the tile's own maximum. -/
def sweepMax (s : Fin 4096 → EReal) : ℕ → EReal
  | 0 => ⊥
  | k + 1 => if h : k < 8 then max (sweepMax s k) ((Finset.univ : Finset (Fin 512)).fold max ⊥ fun q => s (tcol ⟨k, h⟩ q))
             else sweepMax s k

private theorem sweepMax_succ (s : Fin 4096 → EReal) (k : ℕ) (h : k < 8) :
    sweepMax s (k + 1) = max (sweepMax s k) ((Finset.univ : Finset (Fin 512)).fold max ⊥ fun q => s (tcol ⟨k, h⟩ q)) := by
  conv_lhs => unfold sweepMax
  exact dif_pos h

/-- Every bound of the entries bounds the running maximum. -/
private theorem sweepMax_le (s : Fin 4096 → EReal) (M : EReal) (hM : ∀ c, s c ≤ M) : ∀ k, sweepMax s k ≤ M := by
  intro k
  induction k with
  | zero => exact bot_le
  | succ k ih =>
    by_cases h : k < 8
    · rw [sweepMax_succ s k h]
      exact max_le ih ((Finset.fold_max_le _).mpr ⟨bot_le, fun q _ => hM _⟩)
    · conv_lhs => unfold sweepMax
      rw [dif_neg h]
      exact ih

/-- An entry of one of the first k tiles is below the running maximum after k tiles. -/
private theorem le_sweepMax (s : Fin 4096 → EReal) (j : Fin 8) (q : Fin 512) :
    ∀ k, j.val < k → k ≤ 8 → s (tcol j q) ≤ sweepMax s k := by
  intro k
  induction k with
  | zero => intro h; exact absurd h (Nat.not_lt_zero _)
  | succ k ih =>
    intro hj hk
    have h : k < 8 := hk
    rw [sweepMax_succ s k h]
    by_cases hjk : j.val < k
    · exact le_max_of_le_left (ih hjk (Nat.le_of_lt h))
    · have hjeq : j = ⟨k, h⟩ := Fin.ext (by show j.val = k; omega)
      subst hjeq
      exact le_max_of_le_right ((Finset.le_fold_max _).mpr (Or.inr ⟨q, Finset.mem_univ q, le_refl _⟩))

/-- After all eight tiles it is the row's maximum. -/
theorem sweepMax_eq_rowMax (s : Fin 4096 → EReal) : sweepMax s 8 = rowMax s := by
  apply le_antisymm
  · exact sweepMax_le s (rowMax s)
      (fun c => (Finset.le_fold_max _).mpr (Or.inr ⟨c, Finset.mem_univ c, le_refl _⟩)) 8
  · refine (Finset.fold_max_le _).mpr ⟨bot_le, fun c _ => ?_⟩
    rw [← tcol_tileOf_colOf c]
    exact le_sweepMax s (tileOf c) (colOf c) 8 (tileOf c).isLt (le_refl _)

/-- The running sum after the first k tiles, from 0. -/
def sweepSum (g : Fin 4096 → EReal) : ℕ → EReal
  | 0 => 0
  | k + 1 => if h : k < 8 then sweepSum g k + ∑ q : Fin 512, g (tcol ⟨k, h⟩ q) else sweepSum g k

private theorem sweepSum_succ (g : Fin 4096 → EReal) (k : ℕ) (h : k < 8) :
    sweepSum g (k + 1) = sweepSum g k + ∑ q : Fin 512, g (tcol ⟨k, h⟩ q) := by
  conv_lhs => unfold sweepSum
  exact dif_pos h

/-- After all eight tiles it is the row's sum. -/
theorem sweepSum_eq_sum (g : Fin 4096 → EReal) : sweepSum g 8 = ∑ c, g c := by
  rw [sum_tiles, Fin.sum_univ_eight]
  rw [sweepSum_succ g 7 (by decide), sweepSum_succ g 6 (by decide), sweepSum_succ g 5 (by decide),
    sweepSum_succ g 4 (by decide), sweepSum_succ g 3 (by decide), sweepSum_succ g 2 (by decide),
    sweepSum_succ g 1 (by decide), sweepSum_succ g 0 (by decide)]
  have h0 : sweepSum g 0 = 0 := by unfold sweepSum; rfl
  rw [h0, zero_add]
  rfl

/-- A sum over the row whose terms vanish off tile i is the sum over tile i. -/
theorem sum_eq_tile_sum (i : Fin 8) (g : Fin 4096 → EReal) (h0 : ∀ c, tileOf c ≠ i → g c = 0) :
    ∑ c, g c = ∑ q : Fin 512, g (tcol i q) := by
  rw [sum_tiles]
  refine Finset.sum_eq_single i (fun j _ hj => ?_) (fun hi => absurd (Finset.mem_univ i) hi)
  refine Finset.sum_eq_zero fun q _ => h0 _ ?_
  rw [tileOf_tcol]
  exact hj

theorem pos_symm (L : Lab) (r c : Fin 4096) : pos L r c = pos L c r := by
  unfold pos
  by_cases h : L r = L c
  · rw [if_pos h, if_pos h.symm]
  · rw [if_neg h, if_neg (fun h' => h h'.symm)]
theorem pos_zero_or_one (L : Lab) (r c : Fin 4096) : pos L r c = 0 ∨ pos L r c = 1 := by
  unfold pos
  by_cases h : L r = L c
  · right; rw [if_pos h]
  · left; rw [if_neg h]

/-- Runs of eight never straddle a tile boundary (512 = 64 · 8): rows of different tiles never share a label. -/
theorem pos_eq_zero_of_tile_ne (L : Lab) (hL : IdentityBlocks L) (r c : Fin 4096) (h : tileOf c ≠ tileOf r) :
    pos L r c = 0 := by
  unfold pos
  rw [if_neg]
  intro hrc
  have h8 : r.val / 8 = c.val / 8 := (hL r c).mp hrc
  apply h
  apply Fin.ext
  show c.val / 512 = r.val / 512
  omega

/-- ∑ e·(1 − w) = ∑ e − ∑ e·w for real e and a 0/1 weight w. -/
theorem sum_mul_one_sub (e w : Fin 4096 → EReal) (he : ∀ c, e c ≠ ⊤ ∧ e c ≠ ⊥) (hw : ∀ c, w c = 0 ∨ w c = 1) :
    ∑ c, e c * (1 - w c) = (∑ c, e c) - ∑ c, e c * w c := by
  have he' : ∀ c, e c = ((e c).toReal : EReal) := fun c => (EReal.coe_toReal (he c).1 (he c).2).symm
  have hw' : ∀ c, w c = ((w c).toReal : EReal) := fun c => by
    rcases hw c with h | h <;> rw [h] <;> simp
  have h1 : ∀ c, e c * (1 - w c) = (((e c).toReal * (1 - (w c).toReal) : ℝ) : EReal) := fun c => by
    rw [EReal.coe_mul, EReal.coe_sub, EReal.coe_one, ← he' c, ← hw' c]
  have h2 : ∀ c, e c * w c = (((e c).toReal * (w c).toReal : ℝ) : EReal) := fun c => by
    rw [EReal.coe_mul, ← he' c, ← hw' c]
  have hreal : (∑ c, (e c).toReal * (1 - (w c).toReal))
      = (∑ c, (e c).toReal) - ∑ c, (e c).toReal * (w c).toReal := by
    simp only [mul_sub, mul_one, Finset.sum_sub_distrib]
  have hs1 : ∑ c, e c = ∑ c, ((e c).toReal : EReal) := Finset.sum_congr rfl fun c _ => he' c
  have hs2 : ∑ c, e c * w c = ∑ c, (((e c).toReal * (w c).toReal : ℝ) : EReal) :=
    Finset.sum_congr rfl fun c _ => h2 c
  calc ∑ c, e c * (1 - w c)
      = ∑ c, (((e c).toReal * (1 - (w c).toReal) : ℝ) : EReal) := Finset.sum_congr rfl fun c _ => h1 c
    _ = ((∑ c, (e c).toReal * (1 - (w c).toReal) : ℝ) : EReal) := (coe_sum _ _).symm
    _ = (((∑ c, (e c).toReal) - ∑ c, (e c).toReal * (w c).toReal : ℝ) : EReal) := by
        rw [hreal]
    _ = ((∑ c, (e c).toReal : ℝ) : EReal) - ((∑ c, (e c).toReal * (w c).toReal : ℝ) : EReal) :=
        EReal.coe_sub _ _
    _ = (∑ c, e c) - ∑ c, e c * w c := by
        rw [hs1, hs2, ← coe_sum, ← coe_sum]

/-- exp of a shifted similarity of finite features is a real number. -/
private theorem sim_real (A B : Feat) (hA : Finite A) (hB : Finite B) (r c : Fin 4096) :
    ∃ x : ℝ, sim A B r c = (x : EReal) := by
  refine ⟨∑ k : Fin 512, (A r k).toReal * (B c k).toReal, ?_⟩
  unfold sim
  rw [coe_sum]
  refine Finset.sum_congr rfl fun k _ => ?_
  rw [EReal.coe_mul, EReal.coe_toReal (hA r k).1 (hA r k).2, EReal.coe_toReal (hB c k).1 (hB c k).2]

/-- The maximum of a row of reals is a real. -/
private theorem rowMax_real (s : Fin 4096 → EReal) (hs : ∀ c, ∃ x : ℝ, s c = (x : EReal)) :
    ∃ m : ℝ, rowMax s = (m : EReal) := by
  have htop : rowMax s < ⊤ := by
    refine (Finset.fold_max_lt _).mpr ⟨bot_lt_top, fun c _ => ?_⟩
    obtain ⟨x, hx⟩ := hs c
    rw [hx]
    exact EReal.coe_lt_top x
  have hbot : ⊥ < rowMax s := by
    refine (Finset.lt_fold_max _).mpr (Or.inr ⟨⟨0, by decide⟩, Finset.mem_univ _, ?_⟩)
    obtain ⟨x, hx⟩ := hs ⟨0, by decide⟩
    rw [hx]
    exact EReal.bot_lt_coe x
  exact ⟨(rowMax s).toReal, (EReal.coe_toReal (ne_of_lt htop) (ne_of_gt hbot)).symm⟩

/-- exp of a shifted similarity of finite features is a real number. -/
theorem ex_finite (A B : Feat) (hA : Finite A) (hB : Finite B) (r c : Fin 4096) : ex A B r c ≠ ⊤ ∧ ex A B r c ≠ ⊥ := by
  obtain ⟨x, hx⟩ := sim_real A B hA hB r c
  obtain ⟨m, hm⟩ := rowMax_real (sim A B r) (fun c' => sim_real A B hA hB r c')
  have hex : ex A B r c = ((Real.exp (x - m) : ℝ) : EReal) := by
    unfold ex
    rw [hx, hm, ← EReal.coe_sub]
    rfl
  rw [hex]
  exact ⟨EReal.coe_ne_top _, EReal.coe_ne_bot _⟩

/-! ### What one grid point's tile holds, and that it is the whole-row quantity -/

/-- ∑ over the columns q of r's own tile of  ex V I r · pos r. -/
def tileNumV (V I : Feat) (L : Lab) (r : Fin 4096) : EReal :=
  ∑ q : Fin 512, ex V I r (tcol (tileOf r) q) * pos L r (tcol (tileOf r) q)
/-- ∑ over the rows q of r's own tile of  ex V I q r · pos q r  (a column sum inside the diagonal tile). -/
def tileNumI (V I : Feat) (L : Lab) (r : Fin 4096) : EReal :=
  ∑ q : Fin 512, ex V I (tcol (tileOf r) q) r * pos L (tcol (tileOf r) q) r
/-- ∑ over the columns of r's own tile of  ex A A r · pos r. -/
def tilePosSum (A : Feat) (L : Lab) (r : Fin 4096) : EReal :=
  ∑ q : Fin 512, ex A A r (tcol (tileOf r) q) * pos L r (tcol (tileOf r) q)
/-- ∑ over the columns of r's own tile of pos r. -/
def tileGroupSize (L : Lab) (r : Fin 4096) : EReal := ∑ q : Fin 512, pos L r (tcol (tileOf r) q)

theorem tileNumV_eq (V I : Feat) (L : Lab) (hL : IdentityBlocks L) (r : Fin 4096) : tileNumV V I L r = numV V I L r := by
  unfold tileNumV numV
  refine (sum_eq_tile_sum (tileOf r) (fun c => ex V I r c * pos L r c) (fun c hc => ?_)).symm
  show ex V I r c * pos L r c = 0
  rw [pos_eq_zero_of_tile_ne L hL r c hc, mul_zero]
theorem tileNumI_eq (V I : Feat) (L : Lab) (hL : IdentityBlocks L) (r : Fin 4096) : tileNumI V I L r = numI V I L r := by
  unfold tileNumI numI
  have hsym : ∑ c, ex V I c r * pos L r c = ∑ c, ex V I c r * pos L c r :=
    Finset.sum_congr rfl fun c _ => by rw [pos_symm L r c]
  rw [hsym]
  refine (sum_eq_tile_sum (tileOf r) (fun c => ex V I c r * pos L c r) (fun c hc => ?_)).symm
  show ex V I c r * pos L c r = 0
  rw [pos_symm L c r, pos_eq_zero_of_tile_ne L hL r c hc, mul_zero]
theorem tilePosSum_eq (A : Feat) (L : Lab) (hL : IdentityBlocks L) (r : Fin 4096) : tilePosSum A L r = posSum A L r := by
  unfold tilePosSum posSum
  refine (sum_eq_tile_sum (tileOf r) (fun c => ex A A r c * pos L r c) (fun c hc => ?_)).symm
  show ex A A r c * pos L r c = 0
  rw [pos_eq_zero_of_tile_ne L hL r c hc, mul_zero]
theorem tileGroupSize_eq (L : Lab) (hL : IdentityBlocks L) (r : Fin 4096) : tileGroupSize L r = groupSize L r := by
  unfold tileGroupSize groupSize
  exact (sum_eq_tile_sum (tileOf r) (fun c => pos L r c) (fun c hc => pos_eq_zero_of_tile_ne L hL r c hc)).symm

/-- The negative sum is the whole row's sum less the positive part, for finite features. -/
theorem negSum_eq (A : Feat) (L : Lab) (hA : Finite A) (r : Fin 4096) : negSum A L r = rowSum A r - posSum A L r := by
  unfold negSum rowSum posSum
  exact sum_mul_one_sub (fun c => ex A A r c) (fun c => pos L r c) (fun c => ex_finite A A hA hA r c)
    (fun c => pos_zero_or_one L r c)

end Cert.Loss

end
-- ==== Proof.SweepMax.lean ====
/-
  The first sweep over the eight column tiles, read over the extended reals.

  A 512-row block loaded from a whole resident [4096 × 512] array at row offset 512·k holds the array's rows
  512·k … 512·k + 511. After n trips the three carried vectors hold, for row p of the resident row block, the running
  maximum over the first n tiles of the inner products with the rows of the swept array; and each cache, after all eight
  trips, holds at (j, p, q) the inner product of row p of the row block with row 512·j + q of the swept array.
-/
import proofs.«414180_j88819923681294_3_alg».proof.Proof.CacheKernelIdeal
import proofs.«414180_j88819923681294_3_alg».proof.Proof.PayIdeal
import proofs.«414180_j88819923681294_3_alg».proof.Proof.TileAlgebra

set_option maxRecDepth 16384

noncomputable section

namespace Cert.KernelIdeal.Sweep

open Cert.KernelIdeal Cert.KernelIdeal.Gen Cert.Loss
open Idealize.ShloMosaic Idealize.ShloMosaic.TcCoe Idealize.ShloMosaic.ValueIdx Idealize.SL.Sem
open Cert.KernelIdeal.PayIdeal

/-- The tile a grid point owns. -/
def gridTile (i : grid0.Coords) : Fin 8 := ⟨(i 0).val, (i 0).isLt⟩

/-- Inner product of row p of a [512 × 512] block with row r of a [4096 × 512] array. -/
def dotRow (a : Vec Ideal S512x512 .bf16) (x : Vec Ideal S4096x512 .bf16) (p : Fin 512) (r : Fin 4096) : EReal :=
  ∑ k : Fin 512, (a (ix2 p k) : EReal) * (x (ix2 r k) : EReal)

/-- The block loaded in trip k of the first sweep is rows 512·k … of the resident array. -/
theorem load_sweep (arg1 : Memref sig .tc .vmem S4096x512 .bf16) (harg1 : arg1.IsWhole) (x0 : Vec Ideal S4096x512 .bf16)
    (k : Fin k0_t1_loop.trips) (hk : k.val < 8) (q kk : Fin 512) :
    View.readAt (Elt Ideal) arg1.view (Rect.unit (s := S4096x512) (k0_off2 k) S512x512.size (k0_off2_inb k)).toLoadRect (harg1.unread x0) (ix2 q kk)
      = x0 (ix2 (tcol ⟨k.val, hk⟩ q) kk) := by
  rw [View.readAt_apply, harg1.read_unread]
  congr 1
  funext a
  apply Fin.ext
  rw [LoadRect.idx_apply]
  simp only [Rect.off_unit, Rect.stride_unit, k0_off2_eq]
  match a with
  | ⟨0, _⟩ => show 512 * k.val + 1 * q.val = 512 * k.val + q.val; omega
  | ⟨1, _⟩ => show 0 + 1 * kk.val = kk.val; omega

/-- The grid point's own row block is rows 512·i … of the resident array. -/
theorem load_point (arg1 : Memref sig .tc .vmem S4096x512 .bf16) (harg1 : arg1.IsWhole) (x0 : Vec Ideal S4096x512 .bf16)
    (i : grid0.Coords) (p kk : Fin 512) :
    View.readAt (Elt Ideal) arg1.view (Rect.unit (s := S4096x512) (k0_off1 i) S512x512.size (k0_off1_inb i)).toLoadRect (harg1.unread x0) (ix2 p kk)
      = x0 (ix2 (tcol (gridTile i) p) kk) := by
  rw [View.readAt_apply, harg1.read_unread]
  congr 1
  funext a
  apply Fin.ext
  rw [LoadRect.idx_apply]
  simp only [Rect.off_unit, Rect.stride_unit, k0_off1_eq]
  match a with
  | ⟨0, _⟩ => show 512 * (i 0).val + 1 * p.val = 512 * (i 0).val + p.val; omega
  | ⟨1, _⟩ => show 0 + 1 * kk.val = kk.val; omega

/-- The tile's labels are read whole. -/
theorem load_labels (arg3 : Memref sig .tc .vmem S512x1 .i32) (harg3 : arg3.IsWhole) (x2 : Vec Ideal S512x1 .i32) (p : Fin 512) :
    View.readAt (Elt Ideal) arg3.view (Rect.unit (s := S512x1) ![0, 0] S512x1.size inb_S512x1_S512x1_0_0).toLoadRect (harg3.unread x2) (ix2 p (0 : Fin 1))
      = x2 (ix2 p (0 : Fin 1)) := by
  rw [View.readAt_apply, harg3.read_unread]
  congr 1
  funext a
  apply Fin.ext
  rw [LoadRect.idx_apply]
  simp only [Rect.off_unit, Rect.stride_unit]
  match a with
  | ⟨0, _⟩ => show 0 + 1 * p.val = p.val; omega
  | ⟨1, _⟩ => show 0 + 1 * (0 : Fin 1).val = (0 : Fin 1).val; omega

/-- The first sweep has eight trips. -/
private theorem trips_eq : k0_t1_loop.trips = 8 := by decide

/-- The running maximum after one more tile. -/
private theorem sweepMax_step (s : Fin 4096 → EReal) (k : ℕ) (h : k < 8) :
    sweepMax s (k + 1) = max (sweepMax s k) ((Finset.univ : Finset (Fin 512)).fold max ⊥ fun q => s (tcol ⟨k, h⟩ q)) := by
  conv_lhs => unfold sweepMax
  exact dif_pos h

/-- An inner product with a row of the block loaded in trip k is the inner product with row 512·k + q of the array. -/
private theorem dot_load (arg : Memref sig .tc .vmem S4096x512 .bf16) (harg : arg.IsWhole) (v : Vec Ideal S512x512 .bf16)
    (x : Vec Ideal S4096x512 .bf16) (k : Fin k0_t1_loop.trips) (hk : k.val < 8) (p q : Fin 512) :
    dot v (View.readAt (Elt Ideal) arg.view (Rect.unit (s := S4096x512) (k0_off2 k) S512x512.size (k0_off2_inb k)).toLoadRect (harg.unread x)) p q
      = dotRow v x p (tcol ⟨k.val, hk⟩ q) := by
  unfold dot dotRow
  refine Finset.sum_congr rfl fun kk _ => ?_
  rw [load_sweep arg harg x k hk q kk]

/-- One trip joins the running maximum with the maximum over the trip's tile. -/
private theorem max_step (arg : Memref sig .tc .vmem S4096x512 .bf16) (harg : arg.IsWhole) (v : Vec Ideal S512x512 .bf16)
    (x : Vec Ideal S4096x512 .bf16) (n : ℕ) (h : n < 8) (hlt : n < k0_t1_loop.trips) (p : Fin 512) (a : EReal)
    (ha : a = sweepMax (dotRow v x p) n) :
    max a ((Finset.univ : Finset (Fin 512)).fold max ⊥ fun q =>
        dot v (View.readAt (Elt Ideal) arg.view (Rect.unit (s := S4096x512) (k0_off2 ⟨n, hlt⟩) S512x512.size (k0_off2_inb ⟨n, hlt⟩)).toLoadRect (harg.unread x)) p q)
      = sweepMax (dotRow v x p) (n + 1) := by
  rw [sweepMax_step _ n h, ha]
  congr 1
  exact Finset.fold_congr fun q _ => dot_load arg harg v x ⟨n, hlt⟩ h p q

/-- After n trips the carried vectors are the running maxima over the first n tiles. -/
theorem sweep1_max (𝒱 : Variants) (c : Dev nD) (bd : Option 𝒱.V) (i : grid0.Coords) (arg1 : Memref sig .tc .vmem S4096x512 .bf16) (harg1 : arg1.IsWhole) (arg2 : Memref sig .tc .vmem S4096x512 .bf16) (harg2 : arg2.IsWhole) (arg3 : Memref sig .tc .vmem S512x1 .i32) (harg3 : arg3.IsWhole) (arg4 : Memref sig .tc .vmem S8x512 .f32) (harg4 : arg4.IsWhole) (arg5 : Memref sig .tc .vmem S8x512x512 .f32) (harg5 : arg5.IsWhole) (arg6 : Memref sig .tc .vmem S8x512x512 .f32) (harg6 : arg6.IsWhole) (v3 v6 : Vec Ideal S512x512 .bf16) (x0 x1 : Vec Ideal S4096x512 .bf16) (n : ℕ) (hn : n ≤ 8) (p : Fin 512) :
    (st_k0_t1 (F := Ideal) 𝒱 c bd i arg1 harg1 arg2 harg2 arg3 harg3 arg4 harg4 arg5 harg5 arg6 harg6 v3 v6 (harg1.unread x0) (harg2.unread x1) (k0_pay6 (F := Ideal), k0_pay6 (F := Ideal), k0_pay6 (F := Ideal)) n).1.1 (ix2 p (0 : Fin 1)) = sweepMax (dotRow v3 x0 p) n
    ∧ (st_k0_t1 (F := Ideal) 𝒱 c bd i arg1 harg1 arg2 harg2 arg3 harg3 arg4 harg4 arg5 harg5 arg6 harg6 v3 v6 (harg1.unread x0) (harg2.unread x1) (k0_pay6 (F := Ideal), k0_pay6 (F := Ideal), k0_pay6 (F := Ideal)) n).1.2.1 (ix2 p (0 : Fin 1)) = sweepMax (dotRow v6 x1 p) n
    ∧ (st_k0_t1 (F := Ideal) 𝒱 c bd i arg1 harg1 arg2 harg2 arg3 harg3 arg4 harg4 arg5 harg5 arg6 harg6 v3 v6 (harg1.unread x0) (harg2.unread x1) (k0_pay6 (F := Ideal), k0_pay6 (F := Ideal), k0_pay6 (F := Ideal)) n).1.2.2 (ix2 p (0 : Fin 1)) = sweepMax (dotRow v3 x1 p) n := by
  induction n with
  | zero =>
    have h0 : ∀ s : Fin 4096 → EReal, sweepMax s 0 = ⊥ := fun s => by unfold sweepMax; rfl
    rw [h0, h0, h0]
    exact ⟨pay6_apply p, pay6_apply p, pay6_apply p⟩
  | succ n ih =>
    have h : n < 8 := hn
    have hlt : n < k0_t1_loop.trips := by rw [trips_eq]; exact h
    obtain ⟨ih1, ih2, ih3⟩ := ih (Nat.le_of_lt h)
    have hs := st_k0_t1_succ (F := Ideal) 𝒱 c bd i arg1 harg1 arg2 harg2 arg3 harg3 arg4 harg4 arg5 harg5 arg6 harg6 v3 v6 (harg1.unread x0) (harg2.unread x1) (k0_pay6 (F := Ideal), k0_pay6 (F := Ideal), k0_pay6 (F := Ideal)) ⟨n, hlt⟩
    have hs' : (st_k0_t1 (F := Ideal) 𝒱 c bd i arg1 harg1 arg2 harg2 arg3 harg3 arg4 harg4 arg5 harg5 arg6 harg6 v3 v6 (harg1.unread x0) (harg2.unread x1) (k0_pay6 (F := Ideal), k0_pay6 (F := Ideal), k0_pay6 (F := Ideal)) (n + 1)) = _ := hs
    rw [hs', Cache.tripR_eq]
    dsimp only
    rw [pay10_apply, pay11_apply, pay12_apply]
    exact ⟨max_step arg1 harg1 v3 x0 n h hlt p _ ih1, max_step arg2 harg2 v6 x1 n h hlt p _ ih2,
      max_step arg2 harg2 v3 x1 n h hlt p _ ih3⟩

/-- What either cache holds after the sweep, as a function of the cache index (tile, row, column): the inner product
    of the row with the tile's column-th row of the swept array. -/
private def cacheFn (v : Vec Ideal S512x512 .bf16) (x : Vec Ideal S4096x512 .bf16) : S8x512x512.Idx → Elt Ideal .f32 :=
  fun y => dotRow v x (y 1) (tcol (y 0) (y 2))

private theorem cacheFn_ix3 (v : Vec Ideal S512x512 .bf16) (x : Vec Ideal S4096x512 .bf16) (j : Fin 8) (p q : Fin 512) :
    cacheFn v x (ix3 j p q) = dotRow v x p (tcol j q) := rfl

/-- Entry (0, b, c) of the slab stored in trip k sits at (k, b, c) in the cache. -/
private theorem slab_emb (k : Fin k0_t1_loop.trips) (hk : k.val < 8) (b c : Fin 512) :
    (Rect.unit (s := S8x512x512) (k0_off3 k) S1x512x512.size (k0_off3_inb k)).emb (ix3 (0 : Fin 1) b c)
      = ix3 (⟨k.val, hk⟩ : Fin 8) b c := by
  funext a
  apply Fin.ext
  rw [Rect.emb_apply]
  simp only [Rect.off_unit, Rect.stride_unit, k0_off3_eq]
  match a with
  | ⟨0, _⟩ => show k.val + 1 * (0 : Fin 1).val = k.val; simp
  | ⟨1, _⟩ => show 0 + 1 * b.val = b.val; omega
  | ⟨2, _⟩ => show 0 + 1 * c.val = c.val; omega

/-- The slab stored in the first cache in trip k is the block of the cache function its rectangle names. -/
private theorem slab5_piece (arg : Memref sig .tc .vmem S4096x512 .bf16) (harg : arg.IsWhole) (v : Vec Ideal S512x512 .bf16)
    (x : Vec Ideal S4096x512 .bf16) (k : Fin k0_t1_loop.trips) (hk : k.val < 8)
    (y : (Rect.unit (s := S8x512x512) (k0_off3 k) S1x512x512.size (k0_off3_inb k)).shape.Idx) :
    k0_pay13 (F := Ideal) v (View.readAt (Elt Ideal) arg.view (Rect.unit (s := S4096x512) (k0_off2 k) S512x512.size (k0_off2_inb k)).toLoadRect (harg.unread x)) y
      = cacheFn v x ((Rect.unit (s := S8x512x512) (k0_off3 k) S1x512x512.size (k0_off3_inb k)).emb y) := by
  obtain ⟨a, b, c, rfl⟩ : ∃ (a : Fin 1) (b c : Fin 512), y = ix3 a b c := ⟨y 0, y 1, y 2, eq_ix3 y⟩
  have ha : a = 0 := Subsingleton.elim _ _
  subst ha
  rw [pay13_apply, slab_emb k hk, cacheFn_ix3, dot_load arg harg v x k hk b c]

/-- Likewise the slab stored in the second cache. -/
private theorem slab6_piece (arg : Memref sig .tc .vmem S4096x512 .bf16) (harg : arg.IsWhole) (v : Vec Ideal S512x512 .bf16)
    (x : Vec Ideal S4096x512 .bf16) (k : Fin k0_t1_loop.trips) (hk : k.val < 8)
    (y : (Rect.unit (s := S8x512x512) (k0_off3 k) S1x512x512.size (k0_off3_inb k)).shape.Idx) :
    k0_pay14 (F := Ideal) v (View.readAt (Elt Ideal) arg.view (Rect.unit (s := S4096x512) (k0_off2 k) S512x512.size (k0_off2_inb k)).toLoadRect (harg.unread x)) y
      = cacheFn v x ((Rect.unit (s := S8x512x512) (k0_off3 k) S1x512x512.size (k0_off3_inb k)).emb y) := by
  obtain ⟨a, b, c, rfl⟩ : ∃ (a : Fin 1) (b c : Fin 512), y = ix3 a b c := ⟨y 0, y 1, y 2, eq_ix3 y⟩
  have ha : a = 0 := Subsingleton.elim _ _
  subst ha
  rw [pay14_apply, slab_emb k hk, cacheFn_ix3, dot_load arg harg v x k hk b c]

/-- An index whose leading coordinate is k lies in the slab at offset (k, 0, 0). -/
private theorem mem_slab (k : Fin k0_t1_loop.trips) (y : S8x512x512.Idx) (h : (y 0 : ℕ) = k.val) :
    y ∈ (Rect.unit (s := S8x512x512) (k0_off3 k) S1x512x512.size (k0_off3_inb k)).set := by
  rw [Rect.mem_set_unit]
  intro a
  rw [k0_off3_eq]
  have h1 : ((y 1 : ℕ)) < 512 := (y 1).isLt
  have h2 : ((y 2 : ℕ)) < 512 := (y 2).isLt
  match a with
  | ⟨0, _⟩ => show k.val ≤ (y 0 : ℕ) ∧ (y 0 : ℕ) < k.val + 1; omega
  | ⟨1, _⟩ => show 0 ≤ (y 1 : ℕ) ∧ (y 1 : ℕ) < 0 + 512; omega
  | ⟨2, _⟩ => show 0 ≤ (y 2 : ℕ) ∧ (y 2 : ℕ) < 0 + 512; omega

/-- After n trips every slab stored so far, in either cache, is a block of that cache's function, and the slabs cover
    every index whose leading coordinate is below n. -/
private theorem sweep_pieces (𝒱 : Variants) (c : Dev nD) (bd : Option 𝒱.V) (i : grid0.Coords) (arg1 : Memref sig .tc .vmem S4096x512 .bf16) (harg1 : arg1.IsWhole) (arg2 : Memref sig .tc .vmem S4096x512 .bf16) (harg2 : arg2.IsWhole) (arg3 : Memref sig .tc .vmem S512x1 .i32) (harg3 : arg3.IsWhole) (arg4 : Memref sig .tc .vmem S8x512 .f32) (harg4 : arg4.IsWhole) (arg5 : Memref sig .tc .vmem S8x512x512 .f32) (harg5 : arg5.IsWhole) (arg6 : Memref sig .tc .vmem S8x512x512 .f32) (harg6 : arg6.IsWhole) (v3 v6 : Vec Ideal S512x512 .bf16) (x0 x1 : Vec Ideal S4096x512 .bf16) :
    ∀ n, n ≤ k0_t1_loop.trips →
      (∀ pc ∈ (st_k0_t1 (F := Ideal) 𝒱 c bd i arg1 harg1 arg2 harg2 arg3 harg3 arg4 harg4 arg5 harg5 arg6 harg6 v3 v6 (harg1.unread x0) (harg2.unread x1) (k0_pay6 (F := Ideal), k0_pay6 (F := Ideal), k0_pay6 (F := Ideal)) n).2.1, ∀ y : pc.1.shape.Idx, pc.2 y = cacheFn v3 x0 (pc.1.emb y)) ∧
      (∀ pc ∈ (st_k0_t1 (F := Ideal) 𝒱 c bd i arg1 harg1 arg2 harg2 arg3 harg3 arg4 harg4 arg5 harg5 arg6 harg6 v3 v6 (harg1.unread x0) (harg2.unread x1) (k0_pay6 (F := Ideal), k0_pay6 (F := Ideal), k0_pay6 (F := Ideal)) n).2.2, ∀ y : pc.1.shape.Idx, pc.2 y = cacheFn v6 x1 (pc.1.emb y)) ∧
      (∀ y : S8x512x512.Idx, (y 0 : ℕ) < n →
        (∃ pc ∈ (st_k0_t1 (F := Ideal) 𝒱 c bd i arg1 harg1 arg2 harg2 arg3 harg3 arg4 harg4 arg5 harg5 arg6 harg6 v3 v6 (harg1.unread x0) (harg2.unread x1) (k0_pay6 (F := Ideal), k0_pay6 (F := Ideal), k0_pay6 (F := Ideal)) n).2.1, y ∈ pc.1.set) ∧ (∃ pc ∈ (st_k0_t1 (F := Ideal) 𝒱 c bd i arg1 harg1 arg2 harg2 arg3 harg3 arg4 harg4 arg5 harg5 arg6 harg6 v3 v6 (harg1.unread x0) (harg2.unread x1) (k0_pay6 (F := Ideal), k0_pay6 (F := Ideal), k0_pay6 (F := Ideal)) n).2.2, y ∈ pc.1.set)) := by
  intro n
  induction n with
  | zero =>
    intro _
    refine ⟨fun pc hpc => ?_, fun pc hpc => ?_, fun y hy => absurd hy (Nat.not_lt_zero _)⟩
    · exact absurd hpc (List.not_mem_nil)
    · exact absurd hpc (List.not_mem_nil)
  | succ n ih =>
    intro hn
    have hlt : n < k0_t1_loop.trips := hn
    have h : n < 8 := by rw [← trips_eq]; exact hlt
    obtain ⟨ih1, ih2, ih3⟩ := ih (Nat.le_of_lt hlt)
    have hs := st_k0_t1_succ (F := Ideal) 𝒱 c bd i arg1 harg1 arg2 harg2 arg3 harg3 arg4 harg4 arg5 harg5 arg6 harg6 v3 v6 (harg1.unread x0) (harg2.unread x1) (k0_pay6 (F := Ideal), k0_pay6 (F := Ideal), k0_pay6 (F := Ideal)) ⟨n, hlt⟩
    have hs' : (st_k0_t1 (F := Ideal) 𝒱 c bd i arg1 harg1 arg2 harg2 arg3 harg3 arg4 harg4 arg5 harg5 arg6 harg6 v3 v6 (harg1.unread x0) (harg2.unread x1) (k0_pay6 (F := Ideal), k0_pay6 (F := Ideal), k0_pay6 (F := Ideal)) (n + 1)) = _ := hs
    rw [hs', Cache.tripL_eq]
    dsimp only
    refine ⟨fun pc hpc => ?_, fun pc hpc => ?_, fun y hy => ?_⟩
    · rcases List.mem_append.mp hpc with hpc | hpc
      · rw [List.mem_singleton.mp hpc]
        exact slab5_piece arg1 harg1 v3 x0 ⟨n, hlt⟩ h
      · exact ih1 pc hpc
    · rcases List.mem_append.mp hpc with hpc | hpc
      · rw [List.mem_singleton.mp hpc]
        exact slab6_piece arg2 harg2 v6 x1 ⟨n, hlt⟩ h
      · exact ih2 pc hpc
    · by_cases hyn : (y 0 : ℕ) < n
      · obtain ⟨⟨pc, hpc, hy1⟩, ⟨pc', hpc', hy2⟩⟩ := ih3 y hyn
        exact ⟨⟨pc, List.mem_append_right _ hpc, hy1⟩, ⟨pc', List.mem_append_right _ hpc', hy2⟩⟩
      · have he : (y 0 : ℕ) = (⟨n, hlt⟩ : Fin k0_t1_loop.trips).val := by
          show (y 0 : ℕ) = n
          omega
        exact ⟨⟨_, List.mem_append_left _ (List.mem_singleton_self _), mem_slab ⟨n, hlt⟩ y he⟩,
          ⟨_, List.mem_append_left _ (List.mem_singleton_self _), mem_slab ⟨n, hlt⟩ y he⟩⟩

/-- After the whole sweep the first cache holds the inner products with every row of the first array, tile by tile. -/
theorem cache5_entry (𝒱 : Variants) (c : Dev nD) (bd : Option 𝒱.V) (i : grid0.Coords) (arg1 : Memref sig .tc .vmem S4096x512 .bf16) (harg1 : arg1.IsWhole) (arg2 : Memref sig .tc .vmem S4096x512 .bf16) (harg2 : arg2.IsWhole) (arg3 : Memref sig .tc .vmem S512x1 .i32) (harg3 : arg3.IsWhole) (arg4 : Memref sig .tc .vmem S8x512 .f32) (harg4 : arg4.IsWhole) (arg5 : Memref sig .tc .vmem S8x512x512 .f32) (harg5 : arg5.IsWhole) (arg6 : Memref sig .tc .vmem S8x512x512 .f32) (harg6 : arg6.IsWhole) (v3 v6 : Vec Ideal S512x512 .bf16) (x0 x1 : Vec Ideal S4096x512 .bf16) (j : Fin 8) (p q : Fin 512) :
    View.read (Elt Ideal) arg5.view (arg5.view.writes (Elt Ideal) arg5.view.junk (st_k0_t1 (F := Ideal) 𝒱 c bd i arg1 harg1 arg2 harg2 arg3 harg3 arg4 harg4 arg5 harg5 arg6 harg6 v3 v6 (harg1.unread x0) (harg2.unread x1) (k0_pay6 (F := Ideal), k0_pay6 (F := Ideal), k0_pay6 (F := Ideal)) (Scf.trips k0_t1_loop.lb k0_t1_loop.ub k0_t1_loop.st)).2.1) (ix3 j p q)
      = dotRow v3 x0 p (tcol j q) := by
  rw [View.read_writes_junk_apply_eq_canon]
  have hP := sweep_pieces 𝒱 c bd i arg1 harg1 arg2 harg2 arg3 harg3 arg4 harg4 arg5 harg5 arg6 harg6 v3 v6 x0 x1 k0_t1_loop.trips (Nat.le_refl _)
  refine (View.canon_apply_of_pieces (cacheFn v3 x0) _ hP.1 (ix3 j p q) ?_).trans (cacheFn_ix3 v3 x0 j p q)
  exact (hP.2.2 (ix3 j p q) (by rw [trips_eq]; exact j.isLt)).1

/-- And the second cache those of the second array. -/
theorem cache6_entry (𝒱 : Variants) (c : Dev nD) (bd : Option 𝒱.V) (i : grid0.Coords) (arg1 : Memref sig .tc .vmem S4096x512 .bf16) (harg1 : arg1.IsWhole) (arg2 : Memref sig .tc .vmem S4096x512 .bf16) (harg2 : arg2.IsWhole) (arg3 : Memref sig .tc .vmem S512x1 .i32) (harg3 : arg3.IsWhole) (arg4 : Memref sig .tc .vmem S8x512 .f32) (harg4 : arg4.IsWhole) (arg5 : Memref sig .tc .vmem S8x512x512 .f32) (harg5 : arg5.IsWhole) (arg6 : Memref sig .tc .vmem S8x512x512 .f32) (harg6 : arg6.IsWhole) (v3 v6 : Vec Ideal S512x512 .bf16) (x0 x1 : Vec Ideal S4096x512 .bf16) (j : Fin 8) (p q : Fin 512) :
    View.read (Elt Ideal) arg6.view (arg6.view.writes (Elt Ideal) arg6.view.junk (st_k0_t1 (F := Ideal) 𝒱 c bd i arg1 harg1 arg2 harg2 arg3 harg3 arg4 harg4 arg5 harg5 arg6 harg6 v3 v6 (harg1.unread x0) (harg2.unread x1) (k0_pay6 (F := Ideal), k0_pay6 (F := Ideal), k0_pay6 (F := Ideal)) (Scf.trips k0_t1_loop.lb k0_t1_loop.ub k0_t1_loop.st)).2.2) (ix3 j p q)
      = dotRow v6 x1 p (tcol j q) := by
  rw [View.read_writes_junk_apply_eq_canon]
  have hP := sweep_pieces 𝒱 c bd i arg1 harg1 arg2 harg2 arg3 harg3 arg4 harg4 arg5 harg5 arg6 harg6 v3 v6 x0 x1 k0_t1_loop.trips (Nat.le_refl _)
  refine (View.canon_apply_of_pieces (cacheFn v6 x1) _ hP.2.1 (ix3 j p q) ?_).trans (cacheFn_ix3 v6 x1 j p q)
  exact (hP.2.2 (ix3 j p q) (by rw [trips_eq]; exact j.isLt)).2

end Cert.KernelIdeal.Sweep

end
-- ==== Proof.SweepSum.lean ====
/-
  The second sweep over the eight column tiles, read over the extended reals: with the caches holding S(j, p, q) at
  tile j, row p, column q, after n trips the two carried vectors hold, for row p, the running sum over the first n
  tiles of exp (S − the row's maximum). Also: the diagonal tile's slab is read at the grid point's own tile.
-/
import proofs.«414180_j88819923681294_3_alg».proof.Proof.SweepMax

set_option maxRecDepth 16384

noncomputable section

namespace Cert.KernelIdeal.Sweep

open Cert.KernelIdeal Cert.KernelIdeal.Gen Cert.Loss
open Idealize.ShloMosaic Idealize.ShloMosaic.TcCoe Idealize.ShloMosaic.ValueIdx Idealize.SL.Sem
open Cert.KernelIdeal.PayIdeal

/-- In the slab of one tile at offset (j, 0, 0), the entry (0, p, q) sits at (j, p, q) of the cache. -/
private theorem idx_slab (off : Fin 3 → Nat) (inb : ∀ a, off a + S1x512x512.size a ≤ S8x512x512.size a) (j : Fin 8)
    (h : off = ![j.val, 0, 0]) (p q : Fin 512) :
    (Rect.unit (s := S8x512x512) off S1x512x512.size inb).toLoadRect.idx (ix3 (0 : Fin 1) p q) = ix3 j p q := by
  subst h
  funext a
  apply Fin.ext
  rw [LoadRect.idx_apply]
  fin_cases a
  · simp
  · simp
  · simp

/-- A load of the slab at offset (j, 0, 0) reads, at (0, p, q), the cache at (j, p, q). -/
private theorem load_slab (arg : Memref sig .tc .vmem S8x512x512 .f32) (X : BufTy.Contents (Elt Ideal) arg.view.ty)
    (off : Fin 3 → Nat) (inb : ∀ a, off a + S1x512x512.size a ≤ S8x512x512.size a) (j : Fin 8)
    (h : off = ![j.val, 0, 0]) (p q : Fin 512) :
    View.readAt (Elt Ideal) arg.view (Rect.unit (s := S8x512x512) off S1x512x512.size inb).toLoadRect X (ix3 (0 : Fin 1) p q)
      = View.read (Elt Ideal) arg.view X (ix3 j p q) := by
  rw [View.readAt_eq_ld]
  show View.read (Elt Ideal) arg.view X ((Rect.unit (s := S8x512x512) off S1x512x512.size inb).toLoadRect.idx (ix3 (0 : Fin 1) p q)) = _
  rw [idx_slab off inb j h p q]

/-- The second sweep has eight trips. -/
private theorem trips2_eq : k0_t2_loop.trips = 8 := by decide

/-- The running sum's step, at a tile below eight. -/
private theorem sweepSum_step (g : Fin 4096 → EReal) (k : ℕ) (h : k < 8) :
    sweepSum g (k + 1) = sweepSum g k + ∑ q : Fin 512, g (tcol ⟨k, h⟩ q) := by
  conv_lhs => unfold sweepSum
  exact dif_pos h

private theorem sweepSum_zero (g : Fin 4096 → EReal) : sweepSum g 0 = 0 := by
  unfold sweepSum; rfl

/-- After n trips the carried vectors are the running sums of the shifted exponentials over the first n tiles. -/
theorem sweep2_sum (𝒱 : Variants) (c : Dev nD) (bd : Option 𝒱.V) (i : grid0.Coords) (arg1 : Memref sig .tc .vmem S4096x512 .bf16) (harg1 : arg1.IsWhole) (arg2 : Memref sig .tc .vmem S4096x512 .bf16) (harg2 : arg2.IsWhole) (arg3 : Memref sig .tc .vmem S512x1 .i32) (harg3 : arg3.IsWhole) (arg4 : Memref sig .tc .vmem S8x512 .f32) (harg4 : arg4.IsWhole) (arg5 : Memref sig .tc .vmem S8x512x512 .f32) (harg5 : arg5.IsWhole) (arg6 : Memref sig .tc .vmem S8x512x512 .f32) (harg6 : arg6.IsWhole) (m5 m6 : FVec Ideal S512x1 .f32)
    (X5 : BufTy.Contents (Elt Ideal) arg5.view.ty) (X6 : BufTy.Contents (Elt Ideal) arg6.view.ty)
    (S5 S6 : Fin 8 → Fin 512 → Fin 512 → EReal)
    (h5 : ∀ j p q, View.read (Elt Ideal) arg5.view X5 (ix3 j p q) = S5 j p q)
    (h6 : ∀ j p q, View.read (Elt Ideal) arg6.view X6 (ix3 j p q) = S6 j p q)
    (n : ℕ) (hn : n ≤ 8) (p : Fin 512) :
    (st_k0_t2 (F := Ideal) 𝒱 c bd i arg1 harg1 arg2 harg2 arg3 harg3 arg4 harg4 arg5 harg5 arg6 harg6 m5 m6 X5 X6 (k0_pay15 (F := Ideal), k0_pay15 (F := Ideal)) n).1 (ix2 p (0 : Fin 1)) = sweepSum (fun cc => Ideal.exp (S5 (tileOf cc) p (colOf cc) - m5 (ix2 p (0 : Fin 1)))) n
    ∧ (st_k0_t2 (F := Ideal) 𝒱 c bd i arg1 harg1 arg2 harg2 arg3 harg3 arg4 harg4 arg5 harg5 arg6 harg6 m5 m6 X5 X6 (k0_pay15 (F := Ideal), k0_pay15 (F := Ideal)) n).2 (ix2 p (0 : Fin 1)) = sweepSum (fun cc => Ideal.exp (S6 (tileOf cc) p (colOf cc) - m6 (ix2 p (0 : Fin 1)))) n := by
  induction n with
  | zero =>
    rw [st_k0_t2_zero, sweepSum_zero, sweepSum_zero]
    exact ⟨pay15_apply p, pay15_apply p⟩
  | succ n ih =>
    have hlt : n < 8 := hn
    have hk : n < k0_t2_loop.trips := by rw [trips2_eq]; exact hlt
    obtain ⟨ih1, ih2⟩ := ih (Nat.le_of_lt hlt)
    have hs : st_k0_t2 (F := Ideal) 𝒱 c bd i arg1 harg1 arg2 harg2 arg3 harg3 arg4 harg4 arg5 harg5 arg6 harg6 m5 m6 X5 X6 (k0_pay15 (F := Ideal), k0_pay15 (F := Ideal)) (n + 1) = _ :=
      st_k0_t2_succ (F := Ideal) 𝒱 c bd i arg1 harg1 arg2 harg2 arg3 harg3 arg4 harg4 arg5 harg5 arg6 harg6 m5 m6 X5 X6 (k0_pay15 (F := Ideal), k0_pay15 (F := Ideal)) ⟨n, hk⟩
    rw [hs, Cert.KernelIdeal.Cache.trip2R_eq]
    dsimp only
    rw [pay16_apply, pay17_apply, ih1, ih2, sweepSum_step _ n hlt, sweepSum_step _ n hlt]
    refine ⟨?_, ?_⟩
    · refine congrArg _ (Finset.sum_congr rfl fun q _ => ?_)
      rw [load_slab arg5 X5 (k0_off4 ⟨n, hk⟩) (k0_off4_inb ⟨n, hk⟩) ⟨n, hlt⟩ (k0_off4_eq ⟨n, hk⟩) p q, h5,
        tileOf_tcol, colOf_tcol]
    · refine congrArg _ (Finset.sum_congr rfl fun q _ => ?_)
      rw [load_slab arg6 X6 (k0_off4 ⟨n, hk⟩) (k0_off4_inb ⟨n, hk⟩) ⟨n, hlt⟩ (k0_off4_eq ⟨n, hk⟩) p q, h6,
        tileOf_tcol, colOf_tcol]

/-- The slab loaded at the grid point's own offset is the cache's tile i. -/
theorem load_diag5 (arg5 : Memref sig .tc .vmem S8x512x512 .f32) (harg5 : arg5.IsWhole) (X5 : BufTy.Contents (Elt Ideal) arg5.view.ty)
    (i : grid0.Coords) (p q : Fin 512) :
    View.readAt (Elt Ideal) arg5.view (Rect.unit (s := S8x512x512) (k0_off5 i) S1x512x512.size (k0_off5_inb i)).toLoadRect X5 (ix3 (0 : Fin 1) p q)
      = View.read (Elt Ideal) arg5.view X5 (ix3 (gridTile i) p q) := by
  exact load_slab arg5 X5 (k0_off5 i) (k0_off5_inb i) (gridTile i) (k0_off5_eq i) p q

theorem load_diag6 (arg6 : Memref sig .tc .vmem S8x512x512 .f32) (harg6 : arg6.IsWhole) (X6 : BufTy.Contents (Elt Ideal) arg6.view.ty)
    (i : grid0.Coords) (p q : Fin 512) :
    View.readAt (Elt Ideal) arg6.view (Rect.unit (s := S8x512x512) (k0_off5 i) S1x512x512.size (k0_off5_inb i)).toLoadRect X6 (ix3 (0 : Fin 1) p q)
      = View.read (Elt Ideal) arg6.view X6 (ix3 (gridTile i) p q) := by
  exact load_slab arg6 X6 (k0_off5 i) (k0_off5_inb i) (gridTile i) (k0_off5_eq i) p q

end Cert.KernelIdeal.Sweep

end
-- ==== Proof.LossTotal.lean ====
/-
  The loss itself, from the per-row sums: each direction's loss is the mean over the 4096 rows of
  −log(num / den) / group, where den = (negative sum) + num; the result is the two directions' sum.
  Also: how a [4096 × 512] array and a [4096] label array are read as the functions the sums are stated over.
-/
import proofs.«414180_j88819923681294_3_alg».proof.Proof.LossSpec

noncomputable section

namespace Cert.Loss

open Idealize.ShloMosaic Idealize.ShloMosaic.ValueIdx

/-- A [4096 × 512] array read by row and column. -/
def featOf (X : (⟨2, ![4096, 512]⟩ : Shape).Idx → EReal) : Feat := fun r k => X (ix2 r k)
/-- A [4096] label array read by row. -/
def labOf (X : (⟨1, ![4096]⟩ : Shape).Idx → BitVec 32) : Lab := fun r => X (ix1 r)

/-- One direction: the mean over the rows of −log(num/den)/group (4096.0 kept as its f32 word). -/
def dirLoss (num den gs : Fin 4096 → EReal) : EReal :=
  Ideal.div (∑ r, Ideal.div (-(Ideal.log (Ideal.div (num r) (den r)))) (gs r)) (Ideal.ofBits .f32 0x45800000#32)

/-- The loss as the reference states it: denominators are (negative sum) + numerator. -/
def total (V I : Feat) (L : Lab) : EReal :=
  dirLoss (numV V I L) (fun r => negSum V L r + numV V I L r) (groupSize L)
    + dirLoss (numI V I L) (fun r => negSum I L r + numI V I L r) (groupSize L)

/-- The loss as the tiled computation states it: denominators are (row sum − positive part) + numerator. -/
def totalTiled (V I : Feat) (L : Lab) : EReal :=
  dirLoss (numV V I L) (fun r => (rowSum V r - posSum V L r) + numV V I L r) (groupSize L)
    + dirLoss (numI V I L) (fun r => (rowSum I r - posSum I L r) + numI V I L r) (groupSize L)

end Cert.Loss

end
-- ==== Proof.TileSpec.lean ====
/-
  What one grid point of the tiled computation writes, and the loss assembled from the tiles.

  Grid point i (0 … 7) owns rows 512·i … 512·i + 511. Into its [8 × 512] slab it writes, for its row p:
  row 0 and 1 the whole-row sums of exponentials (V against V, I against I); rows 2 … 6 sums over the columns of its own
  diagonal tile only, weighted by the tile's positive mask: the two numerators (row 3 is a column sum inside the tile),
  the two positive parts and the group size; row 7 zeros.
-/
import proofs.«414180_j88819923681294_3_alg».proof.Proof.TileAlgebra
import proofs.«414180_j88819923681294_3_alg».proof.Proof.LossTotal

noncomputable section

namespace Cert.Loss

open Idealize.ShloMosaic

/-- The positive mask inside a tile, from the tile's 512 labels. -/
def tilePos (Lt : Fin 512 → BitVec 32) (p q : Fin 512) : EReal := if Lt p = Lt q then 1 else 0

/-- Entry (a, p) of the [8 × 512] slab that grid point i writes. -/
def tileSlab (i : Fin 8) (V I : Feat) (Lt : Fin 512 → BitVec 32) (a : Fin 8) (p : Fin 512) : EReal :=
  match a with
  | ⟨0, _⟩ => rowSum V (tcol i p)
  | ⟨1, _⟩ => rowSum I (tcol i p)
  | ⟨2, _⟩ => ∑ q : Fin 512, ex V I (tcol i p) (tcol i q) * tilePos Lt p q
  | ⟨3, _⟩ => ∑ q : Fin 512, ex V I (tcol i q) (tcol i p) * tilePos Lt q p
  | ⟨4, _⟩ => ∑ q : Fin 512, ex V V (tcol i p) (tcol i q) * tilePos Lt p q
  | ⟨5, _⟩ => ∑ q : Fin 512, ex I I (tcol i p) (tcol i q) * tilePos Lt p q
  | ⟨6, _⟩ => ∑ q : Fin 512, tilePos Lt p q
  | _ => 0

/-- The labels of tile j. -/
def tileLabels (L : Lab) (j : Fin 8) : Fin 512 → BitVec 32 := fun q => L (tcol j q)

/-- Entry (a, r) of the whole [8 × 4096] array the eight grid points leave: the slab of r's tile at r's column. -/
def slabArray (V I : Feat) (L : Lab) (a : Fin 8) (r : Fin 4096) : EReal :=
  tileSlab (tileOf r) V I (tileLabels L (tileOf r)) a (colOf r)

theorem tilePos_tileLabels (L : Lab) (j : Fin 8) (p q : Fin 512) : tilePos (tileLabels L j) p q = pos L (tcol j p) (tcol j q) := rfl

theorem slabArray_0 (V I : Feat) (L : Lab) (r : Fin 4096) : slabArray V I L ⟨0, by decide⟩ r = rowSum V r := by
  show rowSum V (tcol (tileOf r) (colOf r)) = _; rw [tcol_tileOf_colOf]
theorem slabArray_1 (V I : Feat) (L : Lab) (r : Fin 4096) : slabArray V I L ⟨1, by decide⟩ r = rowSum I r := by
  show rowSum I (tcol (tileOf r) (colOf r)) = _; rw [tcol_tileOf_colOf]
theorem slabArray_2 (V I : Feat) (L : Lab) (r : Fin 4096) : slabArray V I L ⟨2, by decide⟩ r = tileNumV V I L r := by
  show (∑ q : Fin 512, ex V I (tcol (tileOf r) (colOf r)) (tcol (tileOf r) q) * tilePos (tileLabels L (tileOf r)) (colOf r) q) = _
  simp only [tilePos_tileLabels, tcol_tileOf_colOf]; rfl
theorem slabArray_3 (V I : Feat) (L : Lab) (r : Fin 4096) : slabArray V I L ⟨3, by decide⟩ r = tileNumI V I L r := by
  show (∑ q : Fin 512, ex V I (tcol (tileOf r) q) (tcol (tileOf r) (colOf r)) * tilePos (tileLabels L (tileOf r)) q (colOf r)) = _
  simp only [tilePos_tileLabels, tcol_tileOf_colOf]; rfl
theorem slabArray_4 (V I : Feat) (L : Lab) (r : Fin 4096) : slabArray V I L ⟨4, by decide⟩ r = tilePosSum V L r := by
  show (∑ q : Fin 512, ex V V (tcol (tileOf r) (colOf r)) (tcol (tileOf r) q) * tilePos (tileLabels L (tileOf r)) (colOf r) q) = _
  simp only [tilePos_tileLabels, tcol_tileOf_colOf]; rfl
theorem slabArray_5 (V I : Feat) (L : Lab) (r : Fin 4096) : slabArray V I L ⟨5, by decide⟩ r = tilePosSum I L r := by
  show (∑ q : Fin 512, ex I I (tcol (tileOf r) (colOf r)) (tcol (tileOf r) q) * tilePos (tileLabels L (tileOf r)) (colOf r) q) = _
  simp only [tilePos_tileLabels, tcol_tileOf_colOf]; rfl
theorem slabArray_6 (V I : Feat) (L : Lab) (r : Fin 4096) : slabArray V I L ⟨6, by decide⟩ r = tileGroupSize L r := by
  show (∑ q : Fin 512, tilePos (tileLabels L (tileOf r)) (colOf r) q) = _
  simp only [tilePos_tileLabels, tcol_tileOf_colOf]; rfl

/-- The loss assembled from the slab's rows as the kernel's program does: denominators (row sum − positive part) + numerator. -/
def kernelTotal (V I : Feat) (L : Lab) : EReal :=
  dirLoss (slabArray V I L ⟨2, by decide⟩)
      (fun r => (slabArray V I L ⟨0, by decide⟩ r - slabArray V I L ⟨4, by decide⟩ r) + slabArray V I L ⟨2, by decide⟩ r)
      (slabArray V I L ⟨6, by decide⟩)
    + dirLoss (slabArray V I L ⟨3, by decide⟩)
      (fun r => (slabArray V I L ⟨1, by decide⟩ r - slabArray V I L ⟨5, by decide⟩ r) + slabArray V I L ⟨3, by decide⟩ r)
      (slabArray V I L ⟨6, by decide⟩)

/-- With finite features and the labels in runs of eight, the tiled loss is the reference's loss. -/
theorem kernelTotal_eq_total (V I : Feat) (L : Lab) (hV : Finite V) (hI : Finite I) (hL : IdentityBlocks L) :
    kernelTotal V I L = total V I L := by
  unfold kernelTotal total
  have e2 : slabArray V I L ⟨2, by decide⟩ = numV V I L := funext fun r => (slabArray_2 V I L r).trans (tileNumV_eq V I L hL r)
  have e3 : slabArray V I L ⟨3, by decide⟩ = numI V I L := funext fun r => (slabArray_3 V I L r).trans (tileNumI_eq V I L hL r)
  have e6 : slabArray V I L ⟨6, by decide⟩ = groupSize L := funext fun r => (slabArray_6 V I L r).trans (tileGroupSize_eq L hL r)
  have eV : (fun r => (slabArray V I L ⟨0, by decide⟩ r - slabArray V I L ⟨4, by decide⟩ r) + slabArray V I L ⟨2, by decide⟩ r)
      = fun r => negSum V L r + numV V I L r := funext fun r => by
    rw [slabArray_0, slabArray_4, tilePosSum_eq V L hL r, ← negSum_eq V L hV r, congrFun e2 r]
  have eI : (fun r => (slabArray V I L ⟨1, by decide⟩ r - slabArray V I L ⟨5, by decide⟩ r) + slabArray V I L ⟨3, by decide⟩ r)
      = fun r => negSum I L r + numI V I L r := funext fun r => by
    rw [slabArray_1, slabArray_5, tilePosSum_eq I L hL r, ← negSum_eq I L hI r, congrFun e3 r]
  rw [eV, eI, e2, e3, e6]

end Cert.Loss

end
-- ==== Proof.TileValue.lean ====
/-
  One grid point's slab as numbers: what the body leaves in the output's [8 × 512] staging block at grid point i,
  entry (a, p), is the tiled quantity `tileSlab` of the two resident arrays and the tile's labels — rows 0 and 1 through
  the two sweeps (the running maximum over eight tiles is the row's maximum, the running sum the row's sum), rows
  2 … 6 from the diagonal tile, row 7 zeros.
-/
import proofs.«414180_j88819923681294_3_alg».proof.Proof.PatchedKernelIdealFrame
import proofs.«414180_j88819923681294_3_alg».proof.Proof.SweepSum
import proofs.«414180_j88819923681294_3_alg».proof.Proof.TileSpec

set_option maxRecDepth 16384

noncomputable section

namespace Cert.KernelIdeal.TileValue

open Cert.KernelIdeal Cert.KernelIdeal.Gen Cert.Loss
open Idealize.ShloMosaic Idealize.ShloMosaic.TcCoe Idealize.ShloMosaic.ValueIdx Idealize.SL.Sem
open Cert.KernelIdeal.PayIdeal Cert.KernelIdeal.Sweep

/-- The staged bf16 array as features (a change of float format is the identity on the extended reals). -/
def featB (x : Vec Ideal S4096x512 .bf16) : Feat := fun r k => (x (ix2 r k) : EReal)
/-- The staged labels of the tile. -/
def labB (x : Vec Ideal S512x1 .i32) : Fin 512 → BitVec 32 := fun q => (x (ix2 q (0 : Fin 1)) : BitVec 32)

/-- Off row k, the canon of a list headed by the row-k piece is the canon of the rest. -/
private theorem canon_row_ne (k : ℕ) (inb : ∀ a, (![k, 0] : Fin 2 → Nat) a + S1x512.size a ≤ S8x512.size a)
    (w : Vec Ideal S1x512 .f32) (L : List (View.Piece (Elt Ideal) S8x512 .f32)) (a : Fin 8) (p : Fin 512) (h : a.val ≠ k) :
    View.canon (⟨Rect.unit (s := S8x512) ![k, 0] S1x512.size inb, w⟩ :: L) (ix2 a p) = View.canon L (ix2 a p) := by
  refine View.canon_cons_of_not_mem _ L ?_
  intro hm
  have h0 := ((Rect.mem_set_unit (inb := inb)).mp hm) ⟨0, by decide⟩
  apply h
  have h1 : k ≤ a.val := h0.1
  have h2 : a.val < k + 1 := h0.2
  omega

/-- On row k it is the head's payload at (0, p). -/
private theorem canon_row_eq (k : ℕ) (inb : ∀ a, (![k, 0] : Fin 2 → Nat) a + S1x512.size a ≤ S8x512.size a)
    (w : Vec Ideal S1x512 .f32) (L : List (View.Piece (Elt Ideal) S8x512 .f32)) (a : Fin 8) (p : Fin 512) (h : a.val = k) :
    View.canon (⟨Rect.unit (s := S8x512) ![k, 0] S1x512.size inb, w⟩ :: L) (ix2 a p) = w (ix2 (0 : Fin 1) p) := by
  have e : (ix2 a p : S8x512.Idx) = (Rect.unit (s := S8x512) ![k, 0] S1x512.size inb).emb (ix2 (0 : Fin 1) p) := by
    funext d
    match d with
    | ⟨0, _⟩ => exact Fin.ext (by show a.val = k + 1 * 0; omega)
    | ⟨1, _⟩ => exact Fin.ext (by show p.val = 0 + 1 * p.val; omega)
  rw [e]
  exact View.canon_cons_emb (Rect.unit (s := S8x512) ![k, 0] S1x512.size inb) w L _

/-- Eight row pieces, last row first: entry (a, p) of their canon is row a's payload at (0, p). -/
private theorem canon8 (inb7 : ∀ a, (![7, 0] : Fin 2 → Nat) a + S1x512.size a ≤ S8x512.size a)
    (inb6 : ∀ a, (![6, 0] : Fin 2 → Nat) a + S1x512.size a ≤ S8x512.size a)
    (inb5 : ∀ a, (![5, 0] : Fin 2 → Nat) a + S1x512.size a ≤ S8x512.size a)
    (inb4 : ∀ a, (![4, 0] : Fin 2 → Nat) a + S1x512.size a ≤ S8x512.size a)
    (inb3 : ∀ a, (![3, 0] : Fin 2 → Nat) a + S1x512.size a ≤ S8x512.size a)
    (inb2 : ∀ a, (![2, 0] : Fin 2 → Nat) a + S1x512.size a ≤ S8x512.size a)
    (inb1 : ∀ a, (![1, 0] : Fin 2 → Nat) a + S1x512.size a ≤ S8x512.size a)
    (inb0 : ∀ a, (![0, 0] : Fin 2 → Nat) a + S1x512.size a ≤ S8x512.size a)
    (w7 w6 w5 w4 w3 w2 w1 w0 : Vec Ideal S1x512 .f32) (a : Fin 8) (p : Fin 512) :
    View.canon (Val := Elt Ideal) (s := S8x512) (e := .f32)
        [⟨Rect.unit (s := S8x512) ![7, 0] S1x512.size inb7, w7⟩, ⟨Rect.unit (s := S8x512) ![6, 0] S1x512.size inb6, w6⟩,
         ⟨Rect.unit (s := S8x512) ![5, 0] S1x512.size inb5, w5⟩, ⟨Rect.unit (s := S8x512) ![4, 0] S1x512.size inb4, w4⟩,
         ⟨Rect.unit (s := S8x512) ![3, 0] S1x512.size inb3, w3⟩, ⟨Rect.unit (s := S8x512) ![2, 0] S1x512.size inb2, w2⟩,
         ⟨Rect.unit (s := S8x512) ![1, 0] S1x512.size inb1, w1⟩, ⟨Rect.unit (s := S8x512) ![0, 0] S1x512.size inb0, w0⟩] (ix2 a p)
      = (match a with
         | ⟨0, _⟩ => w0 | ⟨1, _⟩ => w1 | ⟨2, _⟩ => w2 | ⟨3, _⟩ => w3 | ⟨4, _⟩ => w4 | ⟨5, _⟩ => w5 | ⟨6, _⟩ => w6
         | _ => w7) (ix2 (0 : Fin 1) p) := by
  match a with
  | ⟨0, h⟩ =>
    show _ = w0 (ix2 (0 : Fin 1) p)
    rw [canon_row_ne 7 _ _ _ ⟨0, h⟩ p (by decide : (0 : ℕ) ≠ 7),
      canon_row_ne 6 _ _ _ ⟨0, h⟩ p (by decide : (0 : ℕ) ≠ 6),
      canon_row_ne 5 _ _ _ ⟨0, h⟩ p (by decide : (0 : ℕ) ≠ 5),
      canon_row_ne 4 _ _ _ ⟨0, h⟩ p (by decide : (0 : ℕ) ≠ 4),
      canon_row_ne 3 _ _ _ ⟨0, h⟩ p (by decide : (0 : ℕ) ≠ 3),
      canon_row_ne 2 _ _ _ ⟨0, h⟩ p (by decide : (0 : ℕ) ≠ 2),
      canon_row_ne 1 _ _ _ ⟨0, h⟩ p (by decide : (0 : ℕ) ≠ 1),
      canon_row_eq 0 _ _ _ ⟨0, h⟩ p rfl]
  | ⟨1, h⟩ =>
    show _ = w1 (ix2 (0 : Fin 1) p)
    rw [canon_row_ne 7 _ _ _ ⟨1, h⟩ p (by decide : (1 : ℕ) ≠ 7),
      canon_row_ne 6 _ _ _ ⟨1, h⟩ p (by decide : (1 : ℕ) ≠ 6),
      canon_row_ne 5 _ _ _ ⟨1, h⟩ p (by decide : (1 : ℕ) ≠ 5),
      canon_row_ne 4 _ _ _ ⟨1, h⟩ p (by decide : (1 : ℕ) ≠ 4),
      canon_row_ne 3 _ _ _ ⟨1, h⟩ p (by decide : (1 : ℕ) ≠ 3),
      canon_row_ne 2 _ _ _ ⟨1, h⟩ p (by decide : (1 : ℕ) ≠ 2),
      canon_row_eq 1 _ _ _ ⟨1, h⟩ p rfl]
  | ⟨2, h⟩ =>
    show _ = w2 (ix2 (0 : Fin 1) p)
    rw [canon_row_ne 7 _ _ _ ⟨2, h⟩ p (by decide : (2 : ℕ) ≠ 7),
      canon_row_ne 6 _ _ _ ⟨2, h⟩ p (by decide : (2 : ℕ) ≠ 6),
      canon_row_ne 5 _ _ _ ⟨2, h⟩ p (by decide : (2 : ℕ) ≠ 5),
      canon_row_ne 4 _ _ _ ⟨2, h⟩ p (by decide : (2 : ℕ) ≠ 4),
      canon_row_ne 3 _ _ _ ⟨2, h⟩ p (by decide : (2 : ℕ) ≠ 3),
      canon_row_eq 2 _ _ _ ⟨2, h⟩ p rfl]
  | ⟨3, h⟩ =>
    show _ = w3 (ix2 (0 : Fin 1) p)
    rw [canon_row_ne 7 _ _ _ ⟨3, h⟩ p (by decide : (3 : ℕ) ≠ 7),
      canon_row_ne 6 _ _ _ ⟨3, h⟩ p (by decide : (3 : ℕ) ≠ 6),
      canon_row_ne 5 _ _ _ ⟨3, h⟩ p (by decide : (3 : ℕ) ≠ 5),
      canon_row_ne 4 _ _ _ ⟨3, h⟩ p (by decide : (3 : ℕ) ≠ 4),
      canon_row_eq 3 _ _ _ ⟨3, h⟩ p rfl]
  | ⟨4, h⟩ =>
    show _ = w4 (ix2 (0 : Fin 1) p)
    rw [canon_row_ne 7 _ _ _ ⟨4, h⟩ p (by decide : (4 : ℕ) ≠ 7),
      canon_row_ne 6 _ _ _ ⟨4, h⟩ p (by decide : (4 : ℕ) ≠ 6),
      canon_row_ne 5 _ _ _ ⟨4, h⟩ p (by decide : (4 : ℕ) ≠ 5),
      canon_row_eq 4 _ _ _ ⟨4, h⟩ p rfl]
  | ⟨5, h⟩ =>
    show _ = w5 (ix2 (0 : Fin 1) p)
    rw [canon_row_ne 7 _ _ _ ⟨5, h⟩ p (by decide : (5 : ℕ) ≠ 7),
      canon_row_ne 6 _ _ _ ⟨5, h⟩ p (by decide : (5 : ℕ) ≠ 6),
      canon_row_eq 5 _ _ _ ⟨5, h⟩ p rfl]
  | ⟨6, h⟩ =>
    show _ = w6 (ix2 (0 : Fin 1) p)
    rw [canon_row_ne 7 _ _ _ ⟨6, h⟩ p (by decide : (6 : ℕ) ≠ 7),
      canon_row_eq 6 _ _ _ ⟨6, h⟩ p rfl]
  | ⟨7, h⟩ =>
    show _ = w7 (ix2 (0 : Fin 1) p)
    rw [canon_row_eq 7 _ _ _ ⟨7, h⟩ p rfl]
  | ⟨n + 8, h⟩ => exact absurd h (by omega)

/-- A block row that is row r₀ of the array has, against any array's rows, the similarities of row r₀. -/
private theorem dotRow_eq_sim (v : Vec Ideal S512x512 .bf16) (x0 x : Vec Ideal S4096x512 .bf16) (r0 : Fin 4096) (p : Fin 512)
    (h : ∀ k : Fin 512, v (ix2 p k) = x0 (ix2 r0 k)) : dotRow v x p = sim (featB x0) (featB x) r0 := by
  funext r
  unfold dotRow sim featB
  exact Finset.sum_congr rfl fun k _ => by rw [h k]

/-- Two block rows that are rows r₀, r₁ of two arrays have those rows' similarity as inner product. -/
private theorem dot_eq_sim (v w : Vec Ideal S512x512 .bf16) (x0 x1 : Vec Ideal S4096x512 .bf16) (r0 r1 : Fin 4096) (p q : Fin 512)
    (hv : ∀ k : Fin 512, v (ix2 p k) = x0 (ix2 r0 k)) (hw : ∀ k : Fin 512, w (ix2 q k) = x1 (ix2 r1 k)) :
    dot v w p q = sim (featB x0) (featB x1) r0 r1 := by
  unfold dot sim featB
  exact Finset.sum_congr rfl fun k _ => by rw [hv k, hw k]

/-- The 0/1 mask of the loaded labels is the tile's positive mask. -/
private theorem mask_eq (v8 x2 : Vec Ideal S512x1 .i32) (hl : ∀ p : Fin 512, v8 (ix2 p (0 : Fin 1)) = x2 (ix2 p (0 : Fin 1))) (p q : Fin 512) :
    k0_pay5 (F := Ideal) v8 (ix2 p q) = tilePos (labB x2) p q := by
  rw [pay5_apply, hl p, hl q]
  rfl

/-- The swept sum of the exponentials shifted by the swept maximum is the row's sum. -/
private theorem rowSum_of_sweep (A : Feat) (r : Fin 4096) (s : Fin 4096 → EReal) (hs : s = sim A A r) (m : EReal)
    (hm : m = sweepMax s 8) (S : Fin 8 → Fin 512 → Fin 512 → EReal) (p : Fin 512) (hS : ∀ j q, S j p q = s (tcol j q)) :
    sweepSum (fun cc => Ideal.exp (S (tileOf cc) p (colOf cc) - m)) 8 = rowSum A r := by
  rw [sweepSum_eq_sum]
  show ∑ cc, Ideal.exp (S (tileOf cc) p (colOf cc) - m) = ∑ cc, Ideal.exp (sim A A r cc - rowMax (sim A A r))
  refine Finset.sum_congr rfl fun cc _ => ?_
  rw [hS, tcol_tileOf_colOf, hm, sweepMax_eq_rowMax, hs]

/-- Grid point i's slab, entry (a, p). -/
theorem out_tile (c : Dev nD) (i : grid0.Coords) (arg1 : Memref sig .tc .vmem S4096x512 .bf16) (harg1 : arg1.IsWhole) (arg2 : Memref sig .tc .vmem S4096x512 .bf16) (harg2 : arg2.IsWhole) (arg3 : Memref sig .tc .vmem S512x1 .i32) (harg3 : arg3.IsWhole) (arg4 : Memref sig .tc .vmem S8x512 .f32) (harg4 : arg4.IsWhole) (arg5 : Memref sig .tc .vmem S8x512x512 .f32) (harg5 : arg5.IsWhole) (arg6 : Memref sig .tc .vmem S8x512x512 .f32) (harg6 : arg6.IsWhole)
    (x0 x1 : Vec Ideal S4096x512 .bf16) (x2 : Vec Ideal S512x1 .i32) (a : Fin 8) (p : Fin 512) :
    Cert.KernelIdeal.GenP.out0_A_3 (F := Ideal) c i arg1 harg1 arg2 harg2 arg3 harg3 arg4 harg4 arg5 harg5 arg6 harg6 x0 x1 x2 (ix2 a p)
      = tileSlab (gridTile i) (featB x0) (featB x1) (labB x2) a p := by
  unfold Cert.KernelIdeal.GenP.out0_A_3
  rw [View.read_writes_junk_eq_canon]
  unfold Cert.KernelIdeal.GenP.kernelRun0_A
  dsimp only
  -- the three loaded blocks: rows 512·i … of the two arrays, and the tile's labels
  have hp3 : ∀ p k : Fin 512, View.readAt (Elt Ideal) arg1.view (Rect.unit (s := S4096x512) (k0_off1 i) S512x512.size (k0_off1_inb i)).toLoadRect (harg1.unread x0) (ix2 p k)
      = x0 (ix2 (tcol (gridTile i) p) k) := fun p k => load_point arg1 harg1 x0 i p k
  have hp6 : ∀ p k : Fin 512, View.readAt (Elt Ideal) arg2.view (Rect.unit (s := S4096x512) (k0_off1 i) S512x512.size (k0_off1_inb i)).toLoadRect (harg2.unread x1) (ix2 p k)
      = x1 (ix2 (tcol (gridTile i) p) k) := fun p k => load_point arg2 harg2 x1 i p k
  have hl : ∀ p : Fin 512, View.readAt (Elt Ideal) arg3.view (Rect.unit (s := S512x1) ![0, 0] S512x1.size inb_S512x1_S512x1_0_0).toLoadRect (harg3.unread x2) (ix2 p (0 : Fin 1))
      = x2 (ix2 p (0 : Fin 1)) := fun p => load_labels arg3 harg3 x2 p
  generalize View.readAt (Elt Ideal) arg1.view (Rect.unit (s := S4096x512) (k0_off1 i) S512x512.size (k0_off1_inb i)).toLoadRect (harg1.unread x0) = v3 at hp3 ⊢
  generalize View.readAt (Elt Ideal) arg2.view (Rect.unit (s := S4096x512) (k0_off1 i) S512x512.size (k0_off1_inb i)).toLoadRect (harg2.unread x1) = v6 at hp6 ⊢
  generalize View.readAt (Elt Ideal) arg3.view (Rect.unit (s := S512x1) ![0, 0] S512x1.size inb_S512x1_S512x1_0_0).toLoadRect (harg3.unread x2) = v8 at hl ⊢
  have h8 : Scf.trips (0#32) (Scalar.addi 0#32 8#32) 1#32 = 8 := by decide
  have h8' : Scf.trips k0_t1_loop.lb k0_t1_loop.ub k0_t1_loop.st = 8 := by decide
  rw [h8]
  -- the first sweep: the carried maxima, and the two caches
  have hm := fun p => sweep1_max Variants.none c none i arg1 harg1 arg2 harg2 arg3 harg3 arg4 harg4 arg5 harg5 arg6 harg6 v3 v6 x0 x1 8 (le_refl 8) p
  have hc5 := fun j p q => cache5_entry Variants.none c none i arg1 harg1 arg2 harg2 arg3 harg3 arg4 harg4 arg5 harg5 arg6 harg6 v3 v6 x0 x1 j p q
  have hc6 := fun j p q => cache6_entry Variants.none c none i arg1 harg1 arg2 harg2 arg3 harg3 arg4 harg4 arg5 harg5 arg6 harg6 v3 v6 x0 x1 j p q
  rw [h8'] at hc5 hc6
  have hd33 : ∀ p, dotRow v3 x0 p = sim (featB x0) (featB x0) (tcol (gridTile i) p) := fun p => dotRow_eq_sim v3 x0 x0 _ p (hp3 p)
  have hd66 : ∀ p, dotRow v6 x1 p = sim (featB x1) (featB x1) (tcol (gridTile i) p) := fun p => dotRow_eq_sim v6 x1 x1 _ p (hp6 p)
  have hd36 : ∀ p, dotRow v3 x1 p = sim (featB x0) (featB x1) (tcol (gridTile i) p) := fun p => dotRow_eq_sim v3 x0 x1 _ p (hp3 p)
  have hdd : ∀ p q, dot v3 v6 p q = sim (featB x0) (featB x1) (tcol (gridTile i) p) (tcol (gridTile i) q) :=
    fun p q => dot_eq_sim v3 v6 x0 x1 _ _ p q (hp3 p) (hp6 q)
  rw [canon8]
  match a with
  | ⟨0, h0⟩ =>
    show k0_pay24 (F := Ideal) _ (ix2 (0 : Fin 1) p) = rowSum (featB x0) (tcol (gridTile i) p)
    rw [pay24_apply]
    rw [(sweep2_sum Variants.none c none i arg1 harg1 arg2 harg2 arg3 harg3 arg4 harg4 arg5 harg5 arg6 harg6 _ _ _ _ (fun j p q => dotRow v3 x0 p (tcol j q)) (fun j p q => dotRow v6 x1 p (tcol j q)) hc5 hc6 8 (le_refl 8) p).1]
    exact rowSum_of_sweep (featB x0) (tcol (gridTile i) p) (dotRow v3 x0 p) (hd33 p) _ (hm p).1 (fun j p q => dotRow v3 x0 p (tcol j q)) p (fun j q => rfl)
  | ⟨1, h1⟩ =>
    show k0_pay25 (F := Ideal) _ (ix2 (0 : Fin 1) p) = rowSum (featB x1) (tcol (gridTile i) p)
    rw [pay25_apply]
    rw [(sweep2_sum Variants.none c none i arg1 harg1 arg2 harg2 arg3 harg3 arg4 harg4 arg5 harg5 arg6 harg6 _ _ _ _ (fun j p q => dotRow v3 x0 p (tcol j q)) (fun j p q => dotRow v6 x1 p (tcol j q)) hc5 hc6 8 (le_refl 8) p).2]
    exact rowSum_of_sweep (featB x1) (tcol (gridTile i) p) (dotRow v6 x1 p) (hd66 p) _ (hm p).2.1 (fun j p q => dotRow v6 x1 p (tcol j q)) p (fun j q => rfl)
  | ⟨2, h2⟩ =>
    show k0_pay26 (F := Ideal) _ _ _ (ix2 (0 : Fin 1) p) = ∑ q : Fin 512, ex (featB x0) (featB x1) (tcol (gridTile i) p) (tcol (gridTile i) q) * tilePos (labB x2) p q
    rw [pay26_apply]
    refine Finset.sum_congr rfl fun q _ => ?_
    rw [pay20_apply, mask_eq v8 x2 hl p q, (hm p).2.2, sweepMax_eq_rowMax, hdd p q, hd36 p]
    rfl
  | ⟨3, h3⟩ =>
    show k0_pay27 (F := Ideal) _ _ _ (ix2 (0 : Fin 1) p) = ∑ q : Fin 512, ex (featB x0) (featB x1) (tcol (gridTile i) q) (tcol (gridTile i) p) * tilePos (labB x2) q p
    rw [pay27_apply]
    refine Finset.sum_congr rfl fun q _ => ?_
    rw [pay20_apply, mask_eq v8 x2 hl q p, (hm q).2.2, sweepMax_eq_rowMax, hdd q p, hd36 q]
    rfl
  | ⟨4, h4⟩ =>
    show k0_pay28 (F := Ideal) _ _ (ix2 (0 : Fin 1) p) = ∑ q : Fin 512, ex (featB x0) (featB x0) (tcol (gridTile i) p) (tcol (gridTile i) q) * tilePos (labB x2) p q
    rw [pay28_apply]
    refine Finset.sum_congr rfl fun q _ => ?_
    rw [pay18_apply, load_diag5 arg5 harg5 _ i p q, hc5 (gridTile i) p q, mask_eq v8 x2 hl p q, (hm p).1, sweepMax_eq_rowMax, hd33 p]
    rfl
  | ⟨5, h5⟩ =>
    show k0_pay1 (F := Ideal) _ (ix2 (0 : Fin 1) p) = ∑ q : Fin 512, ex (featB x1) (featB x1) (tcol (gridTile i) p) (tcol (gridTile i) q) * tilePos (labB x2) p q
    rw [pay1_apply, pay22_apply]
    refine Finset.sum_congr rfl fun q _ => ?_
    rw [pay19_apply, load_diag6 arg6 harg6 _ i p q, hc6 (gridTile i) p q, mask_eq v8 x2 hl p q, (hm p).2.1, sweepMax_eq_rowMax, hd66 p]
    rfl
  | ⟨6, h6⟩ =>
    show k0_pay2 (F := Ideal) _ (ix2 (0 : Fin 1) p) = ∑ q : Fin 512, tilePos (labB x2) p q
    rw [pay2_apply, pay23_apply]
    exact Finset.sum_congr rfl fun q _ => mask_eq v8 x2 hl p q
  | ⟨7, h7⟩ =>
    show k0_pay3 (F := Ideal) (ix2 (0 : Fin 1) p) = 0
    exact pay3_apply p
  | ⟨n + 8, h⟩ => exact absurd h (by omega)

end Cert.KernelIdeal.TileValue

end
-- ==== Proof.KernelArray.lean ====
/-
  The result array after the region: the eight grid points' slabs, side by side, are the [8 × 4096] array
  `slabArray` of the two feature arguments and the labels. The two staged inputs are the arguments with their float
  format changed (the identity on the extended reals) and are staged whole at every grid point; the staged labels are the
  label argument reshaped [4096] → [4096 × 1], of which grid point t stages rows 512·t … ; grid point t writes columns
  512·t … 512·t + 511 of the result, and the eight column blocks cover it.
-/
import proofs.«414180_j88819923681294_3_alg».proof.Proof.TileValue
import Idealize.ShloMosaic.Lib.Pipeline.Value
import Idealize.ShloMosaic.Lib.StableHlo.Run

set_option maxRecDepth 16384

noncomputable section

namespace Cert.KernelIdeal.ArrayValue

open Cert.KernelIdeal Cert.KernelIdeal.Gen Cert.Loss
open Idealize.ShloMosaic Idealize.ShloMosaic.TcCoe Idealize.ShloMosaic.ValueIdx Idealize.SL.Sem
open Cert.KernelIdeal.TileValue Cert.KernelIdeal.Sweep
open Idealize.ShloMosaic.Pipeline (Dat)

variable (m : (ℓ : Loc nD τ sig) → Buf (Elt Ideal) ℓ)

/-- The whole result array as a function of its index. -/
def slabBuf (V I : Feat) (L : Lab) : FVec Ideal S8x4096 .f32 :=
  fun y => slabArray V I L ⟨(y 0).val, (y 0).isLt⟩ ⟨(y 1).val, (y 1).isLt⟩

/-- The first staged array as the region finds it: the first argument with its float format changed, the same extended reals. -/
private theorem arr0_eq (c : Dev nD) : (V m c main_v0 : S4096x512.Idx → EReal) = (m ((c.tc : Thread nD τ).loc main_arg0) : S4096x512.Idx → EReal) := by
  dsimp only [Gen.V, Gen.V0]
  simp only [Gen.hostOps0, List.flatten_cons, List.flatten_nil, List.append_nil, List.cons_append, List.nil_append]
  after_results
  rfl

/-- The second staged array: the second argument, the same extended reals. -/
private theorem arr1_eq (c : Dev nD) : (V m c main_v1 : S4096x512.Idx → EReal) = (m ((c.tc : Thread nD τ).loc main_arg1) : S4096x512.Idx → EReal) := by
  dsimp only [Gen.V, Gen.V0]
  simp only [Gen.hostOps0, List.flatten_cons, List.flatten_nil, List.append_nil, List.cons_append, List.nil_append]
  after_results
  rfl

/-- The staged labels: the label argument reshaped [4096] → [4096 × 1]. -/
private theorem arr2_eq (c : Dev nD) : (V m c main_v2 : S4096x1.Idx → BitVec 32) = shapeCast S4096x1 (m ((c.tc : Thread nD τ).loc main_arg2) : S4096.Idx → BitVec 32) shapeCasts_S4096_S4096x1 := by
  dsimp only [Gen.V, Gen.V0]
  simp only [Gen.hostOps0, List.flatten_cons, List.flatten_nil, List.append_nil, List.cons_append, List.nil_append]
  after_results
  rfl

/-- The tile that grid point t owns. -/
private def tileAt (t : Fin cfg0.N) : Fin 8 := ⟨t.val, lt_of_lt_of_eq t.isLt N_0⟩

/-- The printed index maps over the eight grid points: the two feature windows stay at block (0, 0); the label window is at
    block (t, 0); the result window at block (0, t); the grid coordinate of point t is t. -/
private theorem idx_facts : ∀ t : Fin cfg0.N,
    win0_0.index t (0 : Fin 2) = 0 ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = 0 ∧ win0_3.index t (1 : Fin 2) = t.val
    ∧ ((grid0.coords t) 0).val = t.val :=
  (by decide +kernel : ∀ t : Fin grid0.N, _)

private theorem gridTile_coords (t : Fin cfg0.N) : gridTile (grid0.coords t) = tileAt t :=
  Fin.ext (idx_facts t).2.2.2.2.2.2.2.2

/-- The three input blocks at grid point t, by their literal types. -/
private abbrev xb0 (c : Dev nD) (t : Fin cfg0.N) : Vec Ideal S4096x512 .bf16 := iblk m c 0 t
private abbrev xb1 (c : Dev nD) (t : Fin cfg0.N) : Vec Ideal S4096x512 .bf16 := iblk m c 1 t
private abbrev xb2 (c : Dev nD) (t : Fin cfg0.N) : Vec Ideal S512x1 .i32 := iblk m c 2 t

/-- The first feature window stages the whole array at every point: its block read as features is the first argument's. -/
private theorem feat0_eq (c : Dev nD) (t : Fin cfg0.N) : featB (xb0 m c t) = featOf (m ((c.tc : Thread nD τ).loc main_arg0)) := by
  obtain ⟨e00, e01, -⟩ := idx_facts t
  funext r k
  show (iblk m c 0 t : Vec Ideal S4096x512 .bf16) (ix2 r k) = (m ((c.tc : Thread nD τ).loc main_arg0) : S4096x512.Idx → EReal) (ix2 r k)
  unfold iblk
  rw [View.read_apply]
  show (V m c main_v0 : S4096x512.Idx → EReal) _ = _
  refine (congrFun (arr0_eq m c) _).trans ?_
  congr 1
  funext a
  apply Fin.ext
  match a with
  | ⟨0, _⟩ => show win0_0.index t (0 : Fin 2) * 4096 + 1 * r.val = r.val; rw [e00]; omega
  | ⟨1, _⟩ => show win0_0.index t (1 : Fin 2) * 512 + 1 * k.val = k.val; rw [e01]; omega

/-- The second feature window stages the whole array at every point: its block read as features is the second argument's. -/
private theorem feat1_eq (c : Dev nD) (t : Fin cfg0.N) : featB (xb1 m c t) = featOf (m ((c.tc : Thread nD τ).loc main_arg1)) := by
  obtain ⟨-, -, e10, e11, -⟩ := idx_facts t
  funext r k
  show (iblk m c 1 t : Vec Ideal S4096x512 .bf16) (ix2 r k) = (m ((c.tc : Thread nD τ).loc main_arg1) : S4096x512.Idx → EReal) (ix2 r k)
  unfold iblk
  rw [View.read_apply]
  show (V m c main_v1 : S4096x512.Idx → EReal) _ = _
  refine (congrFun (arr1_eq m c) _).trans ?_
  congr 1
  funext a
  apply Fin.ext
  match a with
  | ⟨0, _⟩ => show win0_1.index t (0 : Fin 2) * 4096 + 1 * r.val = r.val; rw [e10]; omega
  | ⟨1, _⟩ => show win0_1.index t (1 : Fin 2) * 512 + 1 * k.val = k.val; rw [e11]; omega

/-- The label window at point t stages rows 512·t … of the reshaped labels: its block is the labels of tile t. -/
private theorem lab_eq (c : Dev nD) (t : Fin cfg0.N) : labB (xb2 m c t) = tileLabels (labOf (m ((c.tc : Thread nD τ).loc main_arg2))) (tileAt t) := by
  obtain ⟨-, -, -, -, e20, e21, -⟩ := idx_facts t
  funext q
  show (iblk m c 2 t : Vec Ideal S512x1 .i32) (ix2 q (0 : Fin 1)) = (m ((c.tc : Thread nD τ).loc main_arg2) : S4096.Idx → BitVec 32) (ix1 (tcol (tileAt t) q))
  unfold iblk
  rw [View.read_apply]
  show (V m c main_v2 : S4096x1.Idx → BitVec 32) _ = _
  refine (congrFun (arr2_eq m c) _).trans ?_
  refine shapeCast_apply _ _ _ _ ?_
  show (S4096.rowMajor (ix1 (tcol (tileAt t) q))).val = (S4096x1.rowMajor (((cfg0.win 2).blk t).view.emb (ix2 q (0 : Fin 1)))).val
  rw [Shape.rowMajor_val_one, Shape.rowMajor_val_two]
  show 512 * t.val + q.val = (win0_2.index t (0 : Fin 2) * 512 + 1 * q.val) * 1 + (win0_2.index t (1 : Fin 2) * 1 + 1 * 0)
  rw [e20, e21]; omega

/-- What grid point t leaves in the result's staging block, entry (a, p): the whole array's entry (a, 512·t + p). -/
private theorem outs_apply (c : Dev nD) (t : Fin cfg0.N) (a : Fin 8) (p : Fin 512) :
    (GenP.outsAt0 m c t : Vec Ideal S8x512 .f32) (ix2 a p)
      = slabArray (featOf (m ((c.tc : Thread nD τ).loc main_arg0))) (featOf (m ((c.tc : Thread nD τ).loc main_arg1))) (labOf (m ((c.tc : Thread nD τ).loc main_arg2))) a (tcol (tileAt t) p) := by
  refine (out_tile c (grid0.coords t) (ms0_0 t) (hs0_0 t) (ms0_1 t) (hs0_1 t) (ms0_2 t) (hs0_2 t) (ms0_3 t) (hs0_3 t) scM0_0 (Memref.isWhole_whole _) scM0_1 (Memref.isWhole_whole _) (xb0 m c t) (xb1 m c t) (xb2 m c t) a p).trans ?_
  rw [feat0_eq, feat1_eq, lab_eq, gridTile_coords]
  unfold slabArray
  rw [tileOf_tcol, colOf_tcol]

/-- The same at an index of the staging block. -/
private theorem outs_at (c : Dev nD) (t : Fin cfg0.N) (y : S8x512.Idx) :
    (GenP.outsAt0 m c t : Vec Ideal S8x512 .f32) y
      = slabArray (featOf (m ((c.tc : Thread nD τ).loc main_arg0))) (featOf (m ((c.tc : Thread nD τ).loc main_arg1))) (labOf (m ((c.tc : Thread nD τ).loc main_arg2))) (y 0) (tcol (tileAt t) (y 1)) :=
  (congrArg (GenP.outsAt0 m c t : Vec Ideal S8x512 .f32) (eq_ix2 y)).trans (outs_apply m c t (y 0) (y 1))

/-- The whole array read at an index whose coordinates are known. -/
private theorem slabBuf_at (V I : Feat) (L : Lab) (i : S8x4096.Idx) (a : Fin 8) (r : Fin 4096) (ha : (i 0).val = a.val) (hr : (i 1).val = r.val) :
    slabBuf V I L i = slabArray V I L a r := by
  unfold slabBuf
  congr 1
  · exact Fin.ext ha
  · exact Fin.ext hr

/-- What grid point t writes back is its block of the whole array. -/
private theorem flushed_eq (c : Dev nD) (t : Fin cfg0.N) :
    (GenP.dats (F := Ideal) m 0 c).flushed 3 t = ((cfg0.win 3).blk t).view.read (Elt Ideal)
      (slabBuf (featOf (m ((c.tc : Thread nD τ).loc main_arg0))) (featOf (m ((c.tc : Thread nD τ).loc main_arg1))) (labOf (m ((c.tc : Thread nD τ).loc main_arg2))) : Buf (Elt Ideal) ((c.tc : Thread nD τ).loc main_v3)) := by
  show (cfg0.win 3).cut (grid0.coords t) ((GenP.dats (F := Ideal) m 0 c).after 3 t) = _
  rw [GenP.after0_3]
  obtain ⟨-, -, -, -, -, -, e30, e31, -⟩ := idx_facts t
  funext y
  rw [View.read_apply]
  refine (outs_at m c t ((cfg0.win 3).xinj (grid0.coords t) y)).trans (Eq.symm ?_)
  show slabBuf (featOf (m ((c.tc : Thread nD τ).loc main_arg0))) (featOf (m ((c.tc : Thread nD τ).loc main_arg1))) (labOf (m ((c.tc : Thread nD τ).loc main_arg2))) (((cfg0.win 3).blk t).view.emb y) = _
  refine slabBuf_at _ _ _ _ _ _ ?_ ?_
  · show win0_3.index t (0 : Fin 2) * 8 + 1 * (y 0).val = (y 0).val
    rw [e30]; omega
  · show win0_3.index t (1 : Fin 2) * 512 + 1 * (y 1).val = 512 * t.val + (y 1).val
    rw [e31]; omega

/-- Column r of the result array lies in the block of grid point r / 512, which is written back. -/
private theorem covered (i : S8x4096.Idx) :
    ∃ t : Fin cfg0.N, (cfg0.win 3).flush t = true ∧ i ∈ ((cfg0.win 3).blk t).view.set := by
  have h0 : (i 0).val < 8 := (i 0).isLt
  have h1 : (i 1).val < 4096 := (i 1).isLt
  have ht : (i 1).val / 512 < cfg0.N := lt_of_lt_of_eq (by omega : (i 1).val / 512 < 8) N_0.symm
  obtain ⟨-, -, -, -, -, -, e30, e31, -⟩ := idx_facts ⟨(i 1).val / 512, ht⟩
  have e31' : win0_3.index ⟨(i 1).val / 512, ht⟩ (1 : Fin 2) = (i 1).val / 512 := e31
  refine ⟨⟨(i 1).val / 512, ht⟩, flush0_3 _, ?_⟩
  show i ∈ ((View.whole main_v3).slice (win0_3.rect ⟨(i 1).val / 512, ht⟩)).set
  rw [View.set_slice_whole, Rect.mem_set_unit]
  intro a
  match a with
  | ⟨0, _⟩ =>
    show win0_3.index ⟨(i 1).val / 512, ht⟩ (0 : Fin 2) * 8 ≤ (i 0).val ∧ (i 0).val < win0_3.index ⟨(i 1).val / 512, ht⟩ (0 : Fin 2) * 8 + 8
    rw [e30]; omega
  | ⟨1, _⟩ =>
    show win0_3.index ⟨(i 1).val / 512, ht⟩ (1 : Fin 2) * 512 ≤ (i 1).val ∧ (i 1).val < win0_3.index ⟨(i 1).val / 512, ht⟩ (1 : Fin 2) * 512 + 512
    rw [e31']; omega

/-- The result array after the last grid point. -/
theorem final_array (c : Dev nD) :
    (Cert.KernelIdeal.GenP.dats (F := Ideal) m 0 c).arrAt 3 cfg0.N
      = (slabBuf (featOf (m ((c.tc : Thread nD τ).loc main_arg0))) (featOf (m ((c.tc : Thread nD τ).loc main_arg1))) (labOf (m ((c.tc : Thread nD τ).loc main_arg2))) : Buf (Elt Ideal) ((c.tc : Thread nD τ).loc main_v3)) :=
  (Cert.KernelIdeal.GenP.dats (F := Ideal) m 0 c).arrAt_eq_of_cover 3 _ (fun t _ => flushed_eq m c t) covered

end Cert.KernelIdeal.ArrayValue

end
-- ==== Proof.KernelTail.lean ====
/-
  The kernel's program, run: after the region the host lines slice the seven rows out of the [8 × 4096] result array
  and form, per direction, −log(num / ((row sum − positive part) + num)) / group, its mean over the rows, and the two
  means' sum — the loss `kernelTotal` of the slab array; the arguments end unchanged.
-/
import proofs.«414180_j88819923681294_3_alg».proof.Proof.KernelArray

set_option maxRecDepth 16384

noncomputable section

namespace Cert.KernelIdeal.TailValue

open Cert.KernelIdeal Cert.KernelIdeal.Gen Cert.Loss
open Idealize.ShloMosaic Idealize.ShloMosaic.TcCoe Idealize.ShloMosaic.ValueIdx Idealize.SL.Sem
open Cert.KernelIdeal.ArrayValue

/-! ## The host lines after the region as one function of the result array -/

/-- One row of the [8 × 4096] array: the [1 × 4096] slice at the row's offset, reshaped to a vector. -/
private def rowV (A : FVec Ideal S8x4096 .f32) (off : Fin 2 → Nat) (h : S8x4096.Slices off S1x4096) : FVec Ideal S4096 .f32 :=
  fun i => shapeCast S4096 (extractStridedSlice S1x4096 off A h) shapeCasts_S1x4096_S4096 i

/-- One direction's host lines: −log(num / den) / group at every row, summed from 0.0 and divided by 4096.0. -/
private def dirV (num den gs : FVec Ideal S4096 .f32) : FVec Ideal S_ .f32 :=
  Host.divf (F := Ideal)
    (Host.reduceAdd (F := Ideal)
      (Host.divf (F := Ideal) (Host.negf (F := Ideal) (Host.log (F := Ideal) (Host.divf (F := Ideal) num den))) gs)
      (constant (F := Ideal) S_ .f32 0x00000000#32) reducesTo_S4096_S_d0 h_S_)
    (constant (F := Ideal) S_ .f32 0x45800000#32)

/-- The host lines after the region: rows 2, (0 − 4) + 2 and 6 give one direction, rows 3, (1 − 5) + 3 and 6 the other;
    the result is the two directions' sum. -/
private def tail (A : FVec Ideal S8x4096 .f32) : FVec Ideal S_ .f32 :=
  addf (F := Ideal)
    (dirV (rowV A ![2, 0] slices_S8x4096_S1x4096_2_0)
      (addf (F := Ideal) (subf (F := Ideal) (rowV A ![0, 0] slices_S8x4096_S1x4096_0_0) (rowV A ![4, 0] slices_S8x4096_S1x4096_4_0)) (rowV A ![2, 0] slices_S8x4096_S1x4096_2_0))
      (rowV A ![6, 0] slices_S8x4096_S1x4096_6_0))
    (dirV (rowV A ![3, 0] slices_S8x4096_S1x4096_3_0)
      (addf (F := Ideal) (subf (F := Ideal) (rowV A ![1, 0] slices_S8x4096_S1x4096_1_0) (rowV A ![5, 0] slices_S8x4096_S1x4096_5_0)) (rowV A ![3, 0] slices_S8x4096_S1x4096_3_0))
      (rowV A ![6, 0] slices_S8x4096_S1x4096_6_0))

/-- The 35 host lines, run from any buffer contents, leave at the result buffer the tail of the result array. -/
private theorem after_tail (W : Valuation τ sig (Elt Ideal)) :
    StableHlo.after ([hostOps1 (F := Ideal)] : List (List (HloOp τ sig (Elt Ideal)))).flatten W (Proc.devRef .tc main_v34)
      = tail (W (Proc.devRef .tc main_v3)) := by
  simp only [List.flatten_cons, List.flatten_nil, List.append_nil]
  after_results_simp
  rfl

/-! ## The tail read as numbers -/

/-- Row a read at r is the array's entry (a, r): the slice starts at (a, 0), and the reshape keeps the row-major place. -/
private theorem rowV_apply (A : FVec Ideal S8x4096 .f32) (a : Fin 8) (off : Fin 2 → Nat) (h : S8x4096.Slices off S1x4096)
    (h0 : off 0 = a.val) (h1 : off 1 = 0) (r : Fin 4096) :
    rowV A off h (ix1 r) = A (ix2 a r) := by
  unfold rowV
  refine (shapeCast_apply _ shapeCasts_S1x4096_S4096 (ix1 r) (ix2 (0 : Fin 1) r) (by
    rw [Shape.rowMajor_val_two, Shape.rowMajor_val_one]; show 0 * 4096 + r.val = r.val; omega)).trans ?_
  exact extractStridedSlice_apply off A h (ix2 (0 : Fin 1) r) (ix2 a r) (by
    intro b
    match b with
    | ⟨0, _⟩ => show a.val = off 0 + 0; omega
    | ⟨1, _⟩ => show r.val = off 1 + r.val; omega)

/-- The vectors' index type is the 4096 rows. -/
private def rowEquiv : Fin 4096 ≃ S4096.Idx where
  toFun r := ix1 r
  invFun j := j 0
  left_inv r := rfl
  right_inv j := (eq_ix1 j).symm

/-- One direction's host lines compute the direction's loss: the sum from 0.0 over every index is the sum over the
    rows, and 4096.0 stays as its word. -/
private theorem dirV_eq (num den gs : FVec Ideal S4096 .f32) (j : S_.Idx) :
    dirV num den gs j = dirLoss (fun r => num (ix1 r)) (fun r => den (ix1 r)) (fun r => gs (ix1 r)) := by
  unfold dirV dirLoss
  show Ideal.div (Ideal.hostReduceAdd reducesTo_S4096_S_d0 _ _ _) _ = _
  rw [Ideal.hostReduceAdd_total reducesTo_S4096_S_d0 (fun b => b.elim0)]
  show Ideal.div (Ideal.ofBits .f32 0x00000000#32 + ∑ i : S4096.Idx, Ideal.div (-(Ideal.log (Ideal.div (num i) (den i)))) (gs i)) (Ideal.ofBits .f32 0x45800000#32) = _
  rw [Ideal.ofBits_zero_f32, zero_add]
  exact congrArg (fun s => Ideal.div s (Ideal.ofBits .f32 0x45800000#32)) (Fintype.sum_equiv rowEquiv _ _ (fun r => rfl)).symm

/-- Row a of the slab array read at r. -/
private theorem row_slab (V I : Feat) (L : Lab) (a : Fin 8) (off : Fin 2 → Nat) (h : S8x4096.Slices off S1x4096)
    (h0 : off 0 = a.val) (h1 : off 1 = 0) (r : Fin 4096) :
    rowV (slabBuf V I L) off h (ix1 r) = slabArray V I L a r :=
  (rowV_apply (slabBuf V I L) a off h h0 h1 r).trans rfl

/-- The host lines applied to the slab array give the tiled loss. -/
private theorem tail_slab (V I : Feat) (L : Lab) : tail (slabBuf V I L) = fun _ => kernelTotal V I L := by
  funext j
  have e0 : ∀ r, rowV (slabBuf V I L) ![0, 0] slices_S8x4096_S1x4096_0_0 (ix1 r) = slabArray V I L ⟨0, by decide⟩ r :=
    fun r => row_slab V I L ⟨0, by decide⟩ _ _ rfl rfl r
  have e1 : ∀ r, rowV (slabBuf V I L) ![1, 0] slices_S8x4096_S1x4096_1_0 (ix1 r) = slabArray V I L ⟨1, by decide⟩ r :=
    fun r => row_slab V I L ⟨1, by decide⟩ _ _ rfl rfl r
  have e2 : ∀ r, rowV (slabBuf V I L) ![2, 0] slices_S8x4096_S1x4096_2_0 (ix1 r) = slabArray V I L ⟨2, by decide⟩ r :=
    fun r => row_slab V I L ⟨2, by decide⟩ _ _ rfl rfl r
  have e3 : ∀ r, rowV (slabBuf V I L) ![3, 0] slices_S8x4096_S1x4096_3_0 (ix1 r) = slabArray V I L ⟨3, by decide⟩ r :=
    fun r => row_slab V I L ⟨3, by decide⟩ _ _ rfl rfl r
  have e4 : ∀ r, rowV (slabBuf V I L) ![4, 0] slices_S8x4096_S1x4096_4_0 (ix1 r) = slabArray V I L ⟨4, by decide⟩ r :=
    fun r => row_slab V I L ⟨4, by decide⟩ _ _ rfl rfl r
  have e5 : ∀ r, rowV (slabBuf V I L) ![5, 0] slices_S8x4096_S1x4096_5_0 (ix1 r) = slabArray V I L ⟨5, by decide⟩ r :=
    fun r => row_slab V I L ⟨5, by decide⟩ _ _ rfl rfl r
  have e6 : ∀ r, rowV (slabBuf V I L) ![6, 0] slices_S8x4096_S1x4096_6_0 (ix1 r) = slabArray V I L ⟨6, by decide⟩ r :=
    fun r => row_slab V I L ⟨6, by decide⟩ _ _ rfl rfl r
  unfold tail kernelTotal
  show dirV _ _ _ j + dirV _ _ _ j = _
  rw [dirV_eq, dirV_eq]
  simp only [addf_apply, subf_apply, e0, e1, e2, e3, e4, e5, e6]

/-! ## The run -/

variable (m : (ℓ : Loc nD τ sig) → Buf (Elt Ideal) ℓ) (ρ : Dev nD → PrngReg)

/-- What the lines after the region leave in the result buffer: the region leaves the slab array in the result array,
    and the lines after it read nothing else. -/
private theorem tail_run (c : Dev nD) :
    Pipeline.afterTail₀ cfgs (GenP.dats (F := Ideal) m) 0 (V0 m) [hostOps1] c main_v34
      = (fun _ => kernelTotal (featOf (m ((c.tc : Thread nD τ).loc main_arg0))) (featOf (m ((c.tc : Thread nD τ).loc main_arg1))) (labOf (m ((c.tc : Thread nD τ).loc main_arg2)))) := by
  unfold Pipeline.afterTail₀
  refine (after_tail _).trans ?_
  have e := (Pipeline.withArrays_arr spec0 launch0.win.arr_inj c (V0 m c) (fun w => (GenP.dats (F := Ideal) m 0 c).arrAt w cfg0.N) 3).trans (final_array m c)
  refine (congrArg tail e).trans ?_
  exact tail_slab _ _ _

/-- Every weakly fair execution ends with the result at the tiled loss and the arguments as launched. -/
theorem kernel_run :
    θ_run (defs (F := Ideal)) (onTc (τ := τ) (main (F := Ideal))) ⟨m, fun _ => 0, ρ⟩ (fun r => ∀ c : Dev nD,
      r.2.mem ((c.tc : Thread nD τ).loc main_v34) = (fun _ => kernelTotal (featOf (m ((c.tc : Thread nD τ).loc main_arg0))) (featOf (m ((c.tc : Thread nD τ).loc main_arg1))) (labOf (m ((c.tc : Thread nD τ).loc main_arg2))))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run (defs (F := Ideal)) _ _).mono (fun _ h c =>
    ⟨((h c).2 main_v34 (Pipeline.mem_restRefs_of main_v34 (by decide) (by decide))).trans (tail_run m c),
      ((h c).2 main_arg0 (Pipeline.mem_restRefs_of main_arg0 (by decide) (by decide))).trans (W_main_arg0 m (GenP.dats m) c),
      ((h c).2 main_arg1 (Pipeline.mem_restRefs_of main_arg1 (by decide) (by decide))).trans (W_main_arg1 m (GenP.dats m) c),
      ((h c).2 main_arg2 (Pipeline.mem_restRefs_of main_arg2 (by decide) (by decide))).trans (W_main_arg2 m (GenP.dats m) c)⟩)
    (GenP.run_main (F := Ideal) m ρ)

end Cert.KernelIdeal.TailValue

end
-- ==== Proof.RefValue.lean ====
/-
  The reference's result, read one operation at a time: its one output element is the loss `Cert.Loss.total` of the
  two feature arrays and the labels.
-/
import proofs.«414180_j88819923681294_3_alg».proof.Proof.Gen.ReferenceIdeal.Read
import proofs.«414180_j88819923681294_3_alg».proof.Proof.LossTotal
import Idealize.ShloMosaic.Lib.IdealHost
import Idealize.ShloMosaic.Lib.ValueIdxRank1
import Idealize.ShloMosaic.Lib.StableHlo.Predicate
import Idealize.ShloMosaic.PureOps.Reduce

noncomputable section

namespace Cert.RefValue

open Idealize.ShloMosaic Cert.Loss Cert.ReferenceIdeal Cert.ReferenceIdeal.Gen

section Stages

open Idealize.ShloMosaic.ValueIdx Cert.ReferenceIdeal.Read

/-- A [4096 × 512] array of extended reals, and a [4096] array of label words. -/
private abbrev FArr : Type := (⟨S4096x512, .f32⟩ : BufTy).Contents (Elt Ideal)
private abbrev LArr : Type := (⟨S4096, .i32⟩ : BufTy).Contents (Elt Ideal)

/-- x / 1 = x for every extended real. -/
private theorem div_one' (x : EReal) : Ideal.div x 1 = x := by
  unfold Ideal.div
  rw [if_neg one_ne_zero, inv_one, mul_one]

/-- The word of −∞ is the bottom element. -/
private theorem ofBits_neg_inf : Ideal.ofBits .f32 0xFF800000#32 = (⊥ : EReal) := by
  simp [Ideal.ofBits, Ideal.ieee]

/-! ## The three similarity matrices -/

/-- (A · Bᵀ) / 1 at (r, c) is the inner product of row r of A with row c of B. -/
private theorem v3_eq (x0 x1 : FArr) (i : S4096x4096.Idx) :
    val_main_v3 (F := Ideal) x0 x1 i = sim (featOf x0) (featOf x1) (i 0) (i 1) := by
  rw [val_main_v3_apply, val_main_v1_apply, val_main_v2_apply, val_main_cst_apply, Ideal.hostDivf_def,
    Ideal.ofBits_def, Ideal.ofBits_one_f32, div_one']
  refine Finset.sum_congr rfl fun k _ => ?_
  rw [val_main_v0_apply]
  have e1 : lidx_main_v1 i k = ix2 (i 0) k := funext fun a => by match a with | ⟨0, _⟩ => rfl | ⟨1, _⟩ => rfl
  have e2 : idx_main_v0 (ridx_main_v1 i k) = ix2 (i 1) k := funext fun a => by match a with | ⟨0, _⟩ => rfl | ⟨1, _⟩ => rfl
  rw [e1, e2]
  rfl

/-- Row j of the reduced index with column k put back is (j, k). -/
private theorem lift_row (h : S4096x4096.Reduces [1] S4096) (j : S4096.Idx) (k : Fin 4096) :
    h.lift j k = ix2 (j 0) k := by
  funext c; apply Fin.ext
  match c with
  | ⟨0, _⟩ => rfl
  | ⟨1, _⟩ => rfl

/-- From −∞ the maximum over the columns of row j is that row's maximum. -/
private theorem v12_eq (x0 x1 : FArr) (j : S4096.Idx) :
    val_main_v12 (F := Ideal) x0 x1 j = rowMax (sim (featOf x0) (featOf x1) (j 0)) := by
  have h : S4096x4096.Reduces [1] S4096 := by decide
  unfold val_main_v12
  rw [Host.reduce_eq_fold_single FloatOps.maximumf _ _ _ h _ j]
  have hf : (val_main_v3 (F := Ideal) x0 x1 ∘ h.lift j) = fun c : Fin 4096 => sim (featOf x0) (featOf x1) (j 0) c :=
    funext fun (k : Fin 4096) => (congrArg (val_main_v3 (F := Ideal) x0 x1) (lift_row h j k)).trans (v3_eq x0 x1 _)
  have hb : val_main_cst_2 (F := Ideal) (Shape.Idx.first Facts₀.h_S_) = (⊥ : EReal) := ofBits_neg_inf
  rw [hb]
  exact congrArg (fun f => Finset.fold max (⊥ : EReal) f (Finset.univ : Finset (Fin 4096))) hf

/-- The similarity shifted by its row's maximum. -/
private theorem v15_eq (x0 x1 : FArr) (i : S4096x4096.Idx) :
    val_main_v15 (F := Ideal) x0 x1 i
      = sim (featOf x0) (featOf x1) (i 0) (i 1) - rowMax (sim (featOf x0) (featOf x1) (i 0)) := by
  rw [val_main_v15_apply, val_main_v14_apply, val_main_v13_apply, v3_eq, v12_eq, Ideal.subf_def]
  have e : idx_main_v13 (idx_main_v14 i) 0 = i 0 := rfl
  rw [e]

/-- exp of the shifted similarity. -/
private theorem v24_eq (x0 x1 : FArr) (i : S4096x4096.Idx) :
    val_main_v24 (F := Ideal) x0 x1 i = ex (featOf x0) (featOf x1) (i 0) (i 1) := by
  rw [val_main_v24_apply, Ideal.hostUnary_exp_def, v15_eq]
  rfl

/-- The same for A against itself: the stage is the two-argument one at equal arguments. -/
private theorem v25_eq (x0 : FArr) (i : S4096x4096.Idx) :
    val_main_v25 (F := Ideal) x0 i = ex (featOf x0) (featOf x0) (i 0) (i 1) :=
  (congrFun (show val_main_v25 (F := Ideal) x0 = val_main_v24 (F := Ideal) x0 x0 from rfl) i).trans (v24_eq x0 x0 i)

private theorem v28_eq (x1 : FArr) (i : S4096x4096.Idx) :
    val_main_v28 (F := Ideal) x1 i = ex (featOf x1) (featOf x1) (i 0) (i 1) :=
  (congrFun (show val_main_v28 (F := Ideal) x1 = val_main_v24 (F := Ideal) x1 x1 from rfl) i).trans (v24_eq x1 x1 i)

/-- exp of the TRANSPOSED shifted similarity: at (r, c) it is the entry (c, r). -/
private theorem v27_eq (x0 x1 : FArr) (i : S4096x4096.Idx) :
    val_main_v27 (F := Ideal) x0 x1 i = ex (featOf x0) (featOf x1) (i 1) (i 0) := by
  rw [val_main_v27_apply, val_main_v26_apply, Ideal.hostUnary_exp_def, v15_eq]
  have e0 : idx_main_v26 i 0 = i 1 := rfl
  have e1 : idx_main_v26 i 1 = i 0 := rfl
  rw [e0, e1]
  rfl

/-! ## The mask -/

/-- The compare bit as a number: 1 when the two rows carry the same label, else 0. -/
private theorem v34_eq (x2 : LArr) (i : S4096x4096.Idx) :
    val_main_v34 (F := Ideal) x2 i = pos (labOf x2) (i 0) (i 1) := by
  rw [val_main_v34_apply, val_main_v33_apply, val_main_v31_apply, val_main_v29_apply, val_main_v32_apply,
    val_main_v30_apply]
  have e0 : idx_main_v29 (idx_main_v31 i) = ix1 (i 0) := funext fun a => by match a with | ⟨0, _⟩ => rfl
  have e1 : idx_main_v30 (idx_main_v32 i) = ix1 (i 1) := funext fun a => by match a with | ⟨0, _⟩ => rfl
  rw [e0, e1]
  show (((IntOp.cmpi .eq (x2 (ix1 (i 0))) (x2 (ix1 (i 1)))).toNat : ℝ) : EReal)
    = if x2 (ix1 (i 0)) = x2 (ix1 (i 1)) then 1 else 0
  by_cases hL : x2 (ix1 (i 0)) = x2 (ix1 (i 1))
  · rw [if_pos hL, StableHlo.Predicate.cmpi_eq_iff.2 hL]
    simp
  · rw [if_neg hL, eq_zero_of_ne_one (fun hc => hL (StableHlo.Predicate.cmpi_eq_iff.1 hc))]
    simp

/-- One minus the mask. -/
private theorem v36_eq (x2 : LArr) (i : S4096x4096.Idx) :
    val_main_v36 (F := Ideal) x2 i = 1 - pos (labOf x2) (i 0) (i 1) := by
  rw [val_main_v36_apply, val_main_v35_apply, val_main_cst_5_apply, Ideal.ofBits_def, Ideal.ofBits_one_f32, v34_eq,
    Ideal.subf_def]

/-! ## The per-row sums -/

private theorem v37_eq (x2 : LArr) (j : S4096.Idx) :
    val_main_v37 (F := Ideal) x2 j = groupSize (labOf x2) (j 0) := by
  rw [val_main_v37_apply, val_main_cst_6_apply, Ideal.ofBits_def, Ideal.ofBits_zero_f32, zero_add]
  unfold groupSize
  refine Finset.sum_congr rfl fun k _ => ?_
  rw [v34_eq]
  rfl

private theorem v39_eq (x0 x1 : FArr) (x2 : LArr) (j : S4096.Idx) :
    val_main_v39 (F := Ideal) x0 x1 x2 j = numV (featOf x0) (featOf x1) (labOf x2) (j 0) := by
  rw [val_main_v39_apply, val_main_cst_7_apply, Ideal.ofBits_def, Ideal.ofBits_zero_f32, zero_add]
  unfold numV
  refine Finset.sum_congr rfl fun k _ => ?_
  rw [val_main_v38_apply, Ideal.mulf_def, v24_eq, v34_eq]
  rfl

private theorem v41_eq (x0 : FArr) (x2 : LArr) (j : S4096.Idx) :
    val_main_v41 (F := Ideal) x0 x2 j = negSum (featOf x0) (labOf x2) (j 0) := by
  rw [val_main_v41_apply, val_main_cst_8_apply, Ideal.ofBits_def, Ideal.ofBits_zero_f32, zero_add]
  unfold negSum
  refine Finset.sum_congr rfl fun k _ => ?_
  rw [val_main_v40_apply, Ideal.mulf_def, v25_eq, v36_eq]
  rfl

private theorem v48_eq (x0 x1 : FArr) (x2 : LArr) (j : S4096.Idx) :
    val_main_v48 (F := Ideal) x0 x1 x2 j = numI (featOf x0) (featOf x1) (labOf x2) (j 0) := by
  rw [val_main_v48_apply, val_main_cst_9_apply, Ideal.ofBits_def, Ideal.ofBits_zero_f32, zero_add]
  unfold numI
  refine Finset.sum_congr rfl fun k _ => ?_
  rw [val_main_v47_apply, Ideal.mulf_def, v27_eq, v34_eq]
  rfl

private theorem v50_eq (x1 : FArr) (x2 : LArr) (j : S4096.Idx) :
    val_main_v50 (F := Ideal) x1 x2 j = negSum (featOf x1) (labOf x2) (j 0) := by
  rw [val_main_v50_apply, val_main_cst_10_apply, Ideal.ofBits_def, Ideal.ofBits_zero_f32, zero_add]
  unfold negSum
  refine Finset.sum_congr rfl fun k _ => ?_
  rw [val_main_v49_apply, Ideal.mulf_def, v28_eq, v36_eq]
  rfl

/-! ## The tail: the two directions' means and their sum -/

/-- A sum over the [4096] index set of a function of the coordinate is the sum over the rows. -/
private theorem sum_rows (g : Fin 4096 → EReal) : ∑ j : S4096.Idx, g (j 0) = ∑ r : Fin 4096, g r :=
  Fintype.sum_equiv (idxEquiv1 (n := 4096)) _ _ fun _ => rfl

private theorem v46_eq (x0 x1 : FArr) (x2 : LArr) (j : S4096.Idx) :
    val_main_v46 (F := Ideal) x0 x1 x2 j
      = Ideal.div (-(Ideal.log (Ideal.div (numV (featOf x0) (featOf x1) (labOf x2) (j 0))
          (negSum (featOf x0) (labOf x2) (j 0) + numV (featOf x0) (featOf x1) (labOf x2) (j 0)))))
          (groupSize (labOf x2) (j 0)) := by
  rw [val_main_v46_apply, val_main_v45_apply, val_main_v44_apply, val_main_v43_apply, val_main_v42_apply, v37_eq,
    v39_eq, v41_eq]
  rfl

private theorem v55_eq (x0 x1 : FArr) (x2 : LArr) (j : S4096.Idx) :
    val_main_v55 (F := Ideal) x0 x1 x2 j
      = Ideal.div (-(Ideal.log (Ideal.div (numI (featOf x0) (featOf x1) (labOf x2) (j 0))
          (negSum (featOf x1) (labOf x2) (j 0) + numI (featOf x0) (featOf x1) (labOf x2) (j 0)))))
          (groupSize (labOf x2) (j 0)) := by
  rw [val_main_v55_apply, val_main_v54_apply, val_main_v53_apply, val_main_v52_apply, val_main_v51_apply, v37_eq,
    v48_eq, v50_eq]
  rfl

private theorem v57_eq (x0 x1 : FArr) (x2 : LArr) (i : S_.Idx) :
    val_main_v57 (F := Ideal) x0 x1 x2 i
      = dirLoss (numV (featOf x0) (featOf x1) (labOf x2))
          (fun r => negSum (featOf x0) (labOf x2) r + numV (featOf x0) (featOf x1) (labOf x2) r)
          (groupSize (labOf x2)) := by
  rw [val_main_v57_apply, val_main_v56_apply, val_main_cst_11_apply, val_main_cst_12_apply, Ideal.ofBits_def,
    Ideal.ofBits_def, Ideal.ofBits_zero_f32, zero_add, Ideal.hostDivf_def]
  unfold dirLoss
  refine congrArg (fun s => Ideal.div s (Ideal.ofBits .f32 0x45800000#32)) ?_
  rw [← sum_rows]
  exact Finset.sum_congr rfl fun j _ => v46_eq x0 x1 x2 j

private theorem v59_eq (x0 x1 : FArr) (x2 : LArr) (i : S_.Idx) :
    val_main_v59 (F := Ideal) x0 x1 x2 i
      = dirLoss (numI (featOf x0) (featOf x1) (labOf x2))
          (fun r => negSum (featOf x1) (labOf x2) r + numI (featOf x0) (featOf x1) (labOf x2) r)
          (groupSize (labOf x2)) := by
  rw [val_main_v59_apply, val_main_v58_apply, val_main_cst_13_apply, val_main_cst_14_apply, Ideal.ofBits_def,
    Ideal.ofBits_def, Ideal.ofBits_zero_f32, zero_add, Ideal.hostDivf_def]
  unfold dirLoss
  refine congrArg (fun s => Ideal.div s (Ideal.ofBits .f32 0x45800000#32)) ?_
  rw [← sum_rows]
  exact Finset.sum_congr rfl fun j _ => v55_eq x0 x1 x2 j

/-- The last stage at its one index is the loss. -/
private theorem v60_eq (x0 x1 : FArr) (x2 : LArr) (i : S_.Idx) :
    val_main_v60 (F := Ideal) x0 x1 x2 i = total (featOf x0) (featOf x1) (labOf x2) := by
  rw [val_main_v60_apply, v57_eq, v59_eq, Ideal.addf_def]
  rfl

end Stages

/-- The reference run's result term is the loss of its arguments. -/
theorem ref_total (m : (ℓ : Loc nD τ sig) → Buf (Elt Ideal) ℓ) (c : Dev nD) :
    Cert.ReferenceIdeal.Value.res_out0 (F := Ideal) m c
      = fun _ => total (featOf (m ((c.tc : Thread nD τ).loc main_arg0))) (featOf (m ((c.tc : Thread nD τ).loc main_arg1)))
          (labOf (m ((c.tc : Thread nD τ).loc main_arg2))) := by
  refine (Cert.ReferenceIdeal.Read.val_main_v60_eq (F := Ideal) m c).trans ?_
  funext i
  exact v60_eq _ _ _ i

end Cert.RefValue

end
-- ==== Proof.PreDecode.lean ====
/-
  What the precondition says, read out of its printed form: every entry of the two feature arrays is a real number
  (|x| < +∞), and rows r and c carry the same label exactly when r / 8 = c / 8 (the printed test compares the
  label mask with the mask of the row numbers shifted right by 3, entry by entry, and takes the conjunction).
-/
import proofs.«414180_j88819923681294_3_alg».proof.Pre_finite_inputs
import proofs.«414180_j88819923681294_3_alg».proof.Proof.Gen.Pre_finite_inputs
import proofs.«414180_j88819923681294_3_alg».proof.Proof.LossTotal
import Idealize.ShloMosaic.Lib.ReduceAll
import Idealize.ShloMosaic.Lib.StableHlo.Predicate

noncomputable section

namespace Cert.PreDecode

open Idealize.ShloMosaic Cert.Loss
open Idealize.ShloMosaic.ValueIdx

/-- A conjunction of two bits is 1 exactly when both are. -/
private theorem and1 : ∀ (a b : BitVec 1), IntOp.andi a b = 1#1 ↔ a = 1#1 ∧ b = 1#1 := by decide

/-- The rank-1 index at coordinate p, in its two spellings. -/
private theorem ofFin_eq_ix1 {n : Nat} (p : Fin n) : Shape.Idx.ofFin p = ix1 p := by
  funext d; match d with | ⟨0, _⟩ => rfl

/-- The rank-2 index at (p, q), in its two spellings. -/
private theorem ij_eq_ix2 {n m : Nat} (p : Fin n) (q : Fin m) : StableHlo.Predicate.ij p q = ix2 p q := by
  funext d; match d with | ⟨0, _⟩ => rfl | ⟨1, _⟩ => rfl

/-- A row number below 4096, as a 32-bit word shifted right by 3, has the value r / 8. -/
private theorem shr3 (r : Nat) (hr : r < 4096) : (IntOp.shrui .host (BitVec.ofNat 32 r) 3#32).toNat = r / 8 := by
  simp [IntOp.shrui, BitVec.toNat_ushiftRight, Nat.shiftRight_eq_div_pow, BitVec.toNat_ofNat]
  omega

/-- |x| < +∞ (the word 0x7F800000 is +∞) holds only of a real x: at x = ⊤ and at x = ⊥, max x (−x) = ⊤. -/
private theorem real_of_lt (x : EReal)
    (h : FloatOps.cmpf (F := Ideal) (φ := .f32) .olt (FloatOps.hostAbsf (F := Ideal) (φ := .f32) x)
      (FloatOps.ofBits (F := Ideal) .f32 0x7F800000#32) = 1#1) : x ≠ ⊤ ∧ x ≠ ⊥ := by
  have e : FloatOps.ofBits (F := Ideal) .f32 0x7F800000#32 = (⊤ : EReal) := by simp [Ideal.ofBits, Ideal.ieee]
  rw [e] at h
  change Ideal.cmp .olt (max x (-x)) ⊤ = 1#1 at h
  simp only [Ideal.cmp, StableHlo.Predicate.ofBool_eq_one_iff, decide_eq_true_eq] at h
  constructor
  · rintro rfl; simp at h
  · rintro rfl; simp at h

/-- From the printed precondition all ones: finite features and labels in runs of eight. -/
theorem of_pre [Cert.Pre_finite_inputs.Facts] (A B : FVec Ideal Cert.Pre_finite_inputs.S4096x512 .f32) (L : IVec Cert.Pre_finite_inputs.S4096 32)
    (h : Cert.Pre_finite_inputs.fn (F := Ideal) A B L = fun _ => 1#1) :
    Finite (featOf A) ∧ Finite (featOf B) ∧ IdentityBlocks (labOf L) := by
  -- the result at its one index is the conjunction of three "all entries are 1" tests
  have h0 := congrFun h ValueIdx.ix0
  dsimp only [Cert.Pre_finite_inputs.fn, Cert.Pre_finite_inputs.fn_part1] at h0
  have h0' : IntOp.andi (IntOp.andi _ _) _ = 1#1 := h0
  obtain ⟨h12, h3⟩ := (and1 _ _).1 h0'
  obtain ⟨h1, h2⟩ := (and1 _ _).1 h12
  haveI : Subsingleton Cert.Pre_finite_inputs.S_.Idx := ⟨fun a b => funext fun d => d.elim0⟩
  -- each conjunction over all entries that is 1 had a 1 at every entry
  have hA := Host.reduce_andi_all _ _ _ _ _ h1
  have hB := Host.reduce_andi_all _ _ _ _ _ h2
  have hL := Host.reduce_andi_all _ _ _ _ _ h3
  refine ⟨fun r k => real_of_lt _ (hA (ix2 r k)), fun r k => real_of_lt _ (hB (ix2 r k)), fun r c => ?_⟩
  -- entry (r, c) of the third test: (L r = L c) as a bit equals (⌊r/8⌋ = ⌊c/8⌋) as a bit
  have e := hL (ix2 r c)
  -- a vector laid along the rows reads its entry r at (r, c); laid along the columns, its entry c
  have eR : ∀ v : IVec Cert.Pre_finite_inputs.S4096 32,
      broadcastInDim Cert.Pre_finite_inputs.S4096x4096 ![0, 1] Cert.Pre_finite_inputs.Facts.bcast_S4096x1_S4096x4096_0_1
        (broadcastInDim Cert.Pre_finite_inputs.S4096x1 ![0] Cert.Pre_finite_inputs.Facts.bcast_S4096_S4096x1_0 v) (ix2 r c) = v (ix1 r) := by
    intro v; rw [← ij_eq_ix2, ← ofFin_eq_ix1]; exact StableHlo.Predicate.bcast_rows _ _ v r c
  have eC : ∀ v : IVec Cert.Pre_finite_inputs.S4096 32,
      broadcastInDim Cert.Pre_finite_inputs.S4096x4096 ![0, 1] Cert.Pre_finite_inputs.Facts.bcast_S1x4096_S4096x4096_0_1
        (broadcastInDim Cert.Pre_finite_inputs.S1x4096 ![1] Cert.Pre_finite_inputs.Facts.bcast_S4096_S1x4096_1 v) (ix2 r c) = v (ix1 c) := by
    intro v; rw [← ij_eq_ix2, ← ofFin_eq_ix1]; exact StableHlo.Predicate.bcast_cols _ _ v r c
  simp only [cmpi] at e
  rw [eR, eC, eR, eC] at e
  -- the shifted row numbers at entry p: the word p shifted right by 3
  have hg : ∀ p : Fin 4096,
      Host.shrui (iotaInDim Cert.Pre_finite_inputs.S4096 32 0)
        (broadcastInDim Cert.Pre_finite_inputs.S4096 ![] Cert.Pre_finite_inputs.Facts.bcast_S_S4096
          (constantI Cert.Pre_finite_inputs.S_ 32 3#32)) (ix1 p)
        = IntOp.shrui .host (BitVec.ofNat 32 p.val) 3#32 := fun _ => rfl
  rw [hg, hg, StableHlo.Predicate.cmpi_eq_iff] at e
  show L (ix1 r) = L (ix1 c) ↔ _
  rw [← StableHlo.Predicate.cmpi_eq_iff (a := L (ix1 r)), e, StableHlo.Predicate.cmpi_eq_iff]
  -- two shifted words are equal exactly when their values r / 8 and c / 8 are
  constructor
  · intro heq
    have := congrArg BitVec.toNat heq
    rwa [shr3 _ r.isLt, shr3 _ c.isLt] at this
  · intro heq
    apply BitVec.eq_of_toNat_eq
    rw [shr3 _ r.isLt, shr3 _ c.isLt]
    exact heq

end Cert.PreDecode

end
-- ==== Proof.lean ====
/-
  A block-diagonal contrastive loss computed tile by tile against the whole-matrix formula.

  Two feature matrices V, I : [4096 × 512] and one label per row. The loss is, for each direction, the mean over the
  rows of  −log(num / den) / group  with the similarities  ⟨V r, I c⟩, ⟨V r, V c⟩, ⟨I r, I c⟩  each shifted by its own
  row's maximum before the exponential;  num  sums the exponentials over the columns that share the row's label,
  den = (the sum over the other columns) + num,  group  counts the columns that share the label.

  The whole-matrix program forms the three 4096 × 4096 matrices. The tiled program gives each of eight grid points 512
  rows: it sweeps the eight column tiles once for the three row maxima (keeping two of the similarity tiles), once more
  for the two whole-row sums of exponentials, and takes every label-weighted sum from its own diagonal tile only. The two
  agree because: a running maximum (sum) over eight tiles is the row's maximum (sum); with the labels in runs of eight,
  which never straddle a multiple of 512, the label mask vanishes off the diagonal tile; and for real exponentials
  ∑ e·(1 − mask) = ∑ e − ∑ e·mask. The last step subtracts, so the features must be finite; the second is where the
  precondition on the labels is used, and it fails without it (all labels equal: the whole-matrix program counts 4096
  columns per row, the tiled one 512).
-/
import proofs.«414180_j88819923681294_3_alg».proof.Defs
import proofs.«414180_j88819923681294_3_alg».proof.Proof.Gen.Kernel
import proofs.«414180_j88819923681294_3_alg».proof.Proof.Gen.KernelIdeal
import proofs.«414180_j88819923681294_3_alg».proof.Proof.Gen.ReferenceIdeal
import proofs.«414180_j88819923681294_3_alg».proof.Proof.Gen.Pre_finite_inputs
import proofs.«414180_j88819923681294_3_alg».proof.Proof.Gen.ReferenceIdeal.Run
import proofs.«414180_j88819923681294_3_alg».proof.Proof.Gen.ReferenceIdeal.Read
import proofs.«414180_j88819923681294_3_alg».proof.Proof.PatchedKernelFrame
import proofs.«414180_j88819923681294_3_alg».proof.Proof.KernelTail
import proofs.«414180_j88819923681294_3_alg».proof.Proof.RefValue
import proofs.«414180_j88819923681294_3_alg».proof.Proof.PreDecode
import Idealize.ShloMosaic.Adequacy
import Idealize.ShloMosaic.Init

noncomputable section

namespace Cert.Proof

open Idealize.ShloMosaic Idealize.SL.Sem Cert.Loss

/-- The word-level program runs and leaves its arguments as launched. -/
theorem frame_kernel : Cert.frame_Kernel := fun m ρ _ => Cert.Kernel.GenP.frame m ρ

/-- So does its reading over the extended reals. -/
theorem frame_kernelIdeal : Cert.frame_KernelIdeal := fun m ρ _ => Cert.KernelIdeal.GenP.frame m ρ

/-- The whole-matrix program is a straight line of host operations: it runs, and its arguments are never written. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Over the extended reals both programs end at the loss of the same three arrays: the tiled program at the loss
    assembled from its tiles, which under the precondition (finite features, labels in runs of eight) is the
    whole-matrix loss; the whole-matrix program at that loss by reading its operations. -/
theorem algebraic : Cert.algebraic_KernelIdeal_ReferenceIdeal := by
  intro m ρ m' ρ' hpre hagree
  refine ⟨fun c => fun _ => total (featOf (m ((c.tc : Thread Cert.KernelIdeal.nD Cert.KernelIdeal.τ).loc Cert.KernelIdeal.main_arg0)))
      (featOf (m ((c.tc : Thread Cert.KernelIdeal.nD Cert.KernelIdeal.τ).loc Cert.KernelIdeal.main_arg1)))
      (labOf (m ((c.tc : Thread Cert.KernelIdeal.nD Cert.KernelIdeal.τ).loc Cert.KernelIdeal.main_arg2))), ?_, ?_⟩
  · refine (θ_run Cert.KernelIdeal.defs _ _).mono (fun r h c => ?_) (Cert.KernelIdeal.TailValue.kernel_run m ρ)
    obtain ⟨hV, hI, hL⟩ := Cert.PreDecode.of_pre _ _ _ (hpre c)
    exact ⟨(h c).1.trans (funext fun _ => kernelTotal_eq_total _ _ _ hV hI hL), (h c).2⟩
  · refine (θ_run Cert.ReferenceIdeal.defs _ _).mono (fun r h c => ⟨(h c).1.trans ?_, (h c).2⟩)
      (Cert.ReferenceIdeal.Value.run (F := Ideal) m' ρ')
    have e := Cert.RefValue.ref_total m' c
    rw [(hagree c).1, (hagree c).2.1, (hagree c).2.2] at e
    exact e

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
